-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000x4000x5 : Shape := ⟨3, ![2000, 4000, 5]⟩
abbrev S2000x4000x1 : Shape := ⟨3, ![2000, 4000, 1]⟩
abbrev S2000x4000x2 : Shape := ⟨3, ![2000, 4000, 2]⟩
abbrev S_ : Shape := ⟨0, ![]⟩

class Facts : Prop where
  bcast_S_S2000x4000x5 : S_.BroadcastsInDim S2000x4000x5 (![] : Fin 0 → Fin S2000x4000x5.rank)
  reducesTo_S2000x4000x5_S_d0_1_2 : S2000x4000x5.ReducesTo [0, 1, 2] S_
  h_S_ : 0 < S_.numel
  bcast_S_S2000x4000x1 : S_.BroadcastsInDim S2000x4000x1 (![] : Fin 0 → Fin S2000x4000x1.rank)
  reducesTo_S2000x4000x1_S_d0_1_2 : S2000x4000x1.ReducesTo [0, 1, 2] S_
  bcast_S_S2000x4000x2 : S_.BroadcastsInDim S2000x4000x2 (![] : Fin 0 → Fin S2000x4000x2.rank)
  reducesTo_S2000x4000x2_S_d0_1_2 : S2000x4000x2.ReducesTo [0, 1, 2] S_

variable [Facts]

def fn_part1 {F : FTy → Type} [FloatOps F] (main_arg4 : FVec F S2000x4000x1 .f32) (main_v13 : IVec S_ 1) (main_v16 : IVec S2000x4000x2 1) : IVec S_ 1 :=
  let main_c_5 : IVec S_ 1 := constantI S_ 1 1#1
  let main_v17 : IVec S_ 1 := (fun x v => Host.reduce IntOp.andi x v reducesTo_S2000x4000x2_S_d0_1_2 h_S_) main_v16 main_c_5
  let main_v18 : IVec S_ 1 := andi main_v13 main_v17
  let main_v19 : FVec F S2000x4000x1 .f32 := Host.absf main_arg4
  let main_cst_6 : FVec F S_ .f32 := constant S_ .f32 0x7F800000#32
  let main_v20 : FVec F S2000x4000x1 .f32 := broadcastInDim S2000x4000x1 ![] bcast_S_S2000x4000x1 main_cst_6
  let main_v21 : IVec S2000x4000x1 1 := cmpf .olt main_v19 main_v20
  let main_c_7 : IVec S_ 1 := constantI S_ 1 1#1
  let main_v22 : IVec S_ 1 := (fun x v => Host.reduce IntOp.andi x v reducesTo_S2000x4000x1_S_d0_1_2 h_S_) main_v21 main_c_7
  let main_v23 : IVec S_ 1 := andi main_v18 main_v22
  main_v23

def fn {F : FTy → Type} [FloatOps F] (main_arg0 : FVec F S2000x4000x5 .f32) (main_arg1 : FVec F S2000x4000x5 .f32) (main_arg2 : FVec F S2000x4000x1 .f32) (main_arg3 : FVec F S2000x4000x2 .f32) (main_arg4 : FVec F S2000x4000x1 .f32) : IVec S_ 1 :=
  let main_v0 : FVec F S2000x4000x5 .f32 := Host.absf main_arg0
  let main_cst : FVec F S_ .f32 := constant S_ .f32 0x7F800000#32
  let main_v1 : FVec F S2000x4000x5 .f32 := broadcastInDim S2000x4000x5 ![] bcast_S_S2000x4000x5 main_cst
  let main_v2 : IVec S2000x4000x5 1 := cmpf .olt main_v0 main_v1
  let main_c : IVec S_ 1 := constantI S_ 1 1#1
  let main_v3 : IVec S_ 1 := (fun x v => Host.reduce IntOp.andi x v reducesTo_S2000x4000x5_S_d0_1_2 h_S_) main_v2 main_c
  let main_v4 : FVec F S2000x4000x5 .f32 := Host.absf main_arg1
  let main_cst_0 : FVec F S_ .f32 := constant S_ .f32 0x7F800000#32
  let main_v5 : FVec F S2000x4000x5 .f32 := broadcastInDim S2000x4000x5 ![] bcast_S_S2000x4000x5 main_cst_0
  let main_v6 : IVec S2000x4000x5 1 := cmpf .olt main_v4 main_v5
  let main_c_1 : IVec S_ 1 := constantI S_ 1 1#1
  let main_v7 : IVec S_ 1 := (fun x v => Host.reduce IntOp.andi x v reducesTo_S2000x4000x5_S_d0_1_2 h_S_) main_v6 main_c_1
  let main_v8 : IVec S_ 1 := andi main_v3 main_v7
  let main_v9 : FVec F S2000x4000x1 .f32 := Host.absf main_arg2
  let main_cst_2 : FVec F S_ .f32 := constant S_ .f32 0x7F800000#32
  let main_v10 : FVec F S2000x4000x1 .f32 := broadcastInDim S2000x4000x1 ![] bcast_S_S2000x4000x1 main_cst_2
  let main_v11 : IVec S2000x4000x1 1 := cmpf .olt main_v9 main_v10
  let main_c_3 : IVec S_ 1 := constantI S_ 1 1#1
  let main_v12 : IVec S_ 1 := (fun x v => Host.reduce IntOp.andi x v reducesTo_S2000x4000x1_S_d0_1_2 h_S_) main_v11 main_c_3
  let main_v13 : IVec S_ 1 := andi main_v8 main_v12
  let main_v14 : FVec F S2000x4000x2 .f32 := Host.absf main_arg3
  let main_cst_4 : FVec F S_ .f32 := constant S_ .f32 0x7F800000#32
  let main_v15 : FVec F S2000x4000x2 .f32 := broadcastInDim S2000x4000x2 ![] bcast_S_S2000x4000x2 main_cst_4
  let main_v16 : IVec S2000x4000x2 1 := cmpf .olt main_v14 main_v15
  fn_part1 (F := F) main_arg4 main_v13 main_v16
-- ==== Kernel.lean ====
abbrev S2000x4000x5 : Shape := ⟨3, ![2000, 4000, 5]⟩
abbrev S2000x4000x1 : Shape := ⟨3, ![2000, 4000, 1]⟩
abbrev S2000x4000x2 : Shape := ⟨3, ![2000, 4000, 2]⟩
abbrev S2000x20000 : Shape := ⟨2, ![2000, 20000]⟩
abbrev S2000x4000 : Shape := ⟨2, ![2000, 4000]⟩
abbrev S20000 : Shape := ⟨1, ![20000]⟩
abbrev S_ : Shape := ⟨0, ![]⟩
abbrev S5 : Shape := ⟨1, ![5]⟩
abbrev S20000x1 : Shape := ⟨2, ![20000, 1]⟩
abbrev S1x5 : Shape := ⟨2, ![1, 5]⟩
abbrev S20000x5 : Shape := ⟨2, ![20000, 5]⟩
abbrev S8x128 : Shape := ⟨2, ![8, 128]⟩
abbrev S40x20000 : Shape := ⟨2, ![40, 20000]⟩
abbrev S40x4000 : Shape := ⟨2, ![40, 4000]⟩
abbrev S40x5 : Shape := ⟨2, ![40, 5]⟩
abbrev S40 : Shape := ⟨1, ![40]⟩
abbrev S40x1 : Shape := ⟨2, ![40, 1]⟩
abbrev S1 : Shape := ⟨1, ![1]⟩
abbrev S1x1 : Shape := ⟨2, ![1, 1]⟩
abbrev S1999x4000 : Shape := ⟨2, ![1999, 4000]⟩
abbrev S4000 : Shape := ⟨1, ![4000]⟩
abbrev S1x4000 : Shape := ⟨2, ![1, 4000]⟩
abbrev S7996000 : Shape := ⟨1, ![7996000]⟩
abbrev S8000000 : Shape := ⟨1, ![8000000]⟩
abbrev S7996000x1 : Shape := ⟨2, ![7996000, 1]⟩

abbrev nBuf : Space → Nat
  | .hbm => 152
  | .vmem => 12
  | .smem => 0
  | _ => 0

abbrev hbmTy0_0 (i : Nat) : BufTy := match i % 128 with
  | 0 => ⟨S2000x4000x5, .f32⟩
  | 1 => ⟨S2000x4000x5, .f32⟩
  | 2 => ⟨S2000x4000x1, .f32⟩
  | 3 => ⟨S2000x4000x2, .f32⟩
  | 4 => ⟨S2000x4000x1, .f32⟩
  | 5 => ⟨S2000x20000, .f32⟩
  | 6 => ⟨S2000x20000, .f32⟩
  | 7 => ⟨S2000x4000, .f32⟩
  | 8 => ⟨S2000x4000x1, .f32⟩
  | 9 => ⟨S2000x4000, .f32⟩
  | 10 => ⟨S2000x4000x1, .f32⟩
  | 11 => ⟨S2000x4000, .f32⟩
  | 12 => ⟨S20000, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S20000, .i32⟩
  | 20 => ⟨S20000, .i32⟩
  | 21 => ⟨S_, .i32⟩
  | 22 => ⟨S20000, .i32⟩
  | 23 => ⟨S20000, .i1⟩
  | 24 => ⟨S_, .i32⟩
  | 25 => ⟨S20000, .i32⟩
  | 26 => ⟨S20000, .i1⟩
  | 27 => ⟨S_, .i32⟩
  | 28 => ⟨S_, .i1⟩
  | 29 => ⟨S20000, .i1⟩
  | 30 => ⟨S20000, .i1⟩
  | 31 => ⟨S20000, .i1⟩
  | 32 => ⟨S20000, .i32⟩
  | 33 => ⟨S20000, .i32⟩
  | 34 => ⟨S20000, .i32⟩
  | 35 => ⟨S5, .i32⟩
  | 36 => ⟨S20000x1, .i32⟩
  | 37 => ⟨S1x5, .i32⟩
  | 38 => ⟨S20000x5, .i32⟩
  | 39 => ⟨S20000x5, .i32⟩
  | 40 => ⟨S20000x5, .i1⟩
  | 41 => ⟨S20000x5, .f32⟩
  | 42 => ⟨S8x128, .f32⟩
  | 43 => ⟨S1x5, .f32⟩
  | 44 => ⟨S5, .f32⟩
  | 45 => ⟨S1x5, .f32⟩
  | 46 => ⟨S5, .f32⟩
  | 47 => ⟨S_, .f32⟩
  | 48 => ⟨S5, .f32⟩
  | 49 => ⟨S5, .f32⟩
  | 50 => ⟨S5, .f32⟩
  | 51 => ⟨S5, .f32⟩
  | 52 => ⟨S_, .f32⟩
  | 53 => ⟨S_, .f32⟩
  | 54 => ⟨S1x1, .f32⟩
  | 55 => ⟨S_, .f32⟩
  | 56 => ⟨S1x1, .f32⟩
  | 57 => ⟨S_, .f32⟩
  | 58 => ⟨S1x1, .f32⟩
  | 59 => ⟨S_, .f32⟩
  | 60 => ⟨S1x1, .f32⟩
  | 61 => ⟨S_, .f32⟩
  | 62 => ⟨S_, .f32⟩
  | 63 => ⟨S_, .i1⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .i1⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S2000x4000x1, .f32⟩
  | 81 => ⟨S2000x4000, .f32⟩
  | 82 => ⟨S2000x4000, .f32⟩
  | 83 => ⟨S1999x4000, .f32⟩
  | 84 => ⟨S1999x4000, .f32⟩
  | 85 => ⟨S1999x4000, .f32⟩
  | 86 => ⟨S1999x4000, .f32⟩
  | 87 => ⟨S1999x4000, .f32⟩
  | 88 => ⟨S1999x4000, .f32⟩
  | 89 => ⟨S1999x4000, .i1⟩
  | 90 => ⟨S1999x4000, .i1⟩
  | 91 => ⟨S1999x4000, .i32⟩
  | 92 => ⟨S_, .i32⟩
  | 93 => ⟨S_, .i32⟩
  | 94 => ⟨S1999x4000, .i32⟩
  | 95 => ⟨S4000, .i32⟩
  | 96 => ⟨S1x4000, .i32⟩
  | 97 => ⟨S_, .i32⟩
  | 98 => ⟨S1x4000, .i32⟩
  | 99 => ⟨S1x4000, .i32⟩
  | 100 => ⟨S1999x4000, .i32⟩
  | 101 => ⟨S1999x4000, .i32⟩
  | 102 => ⟨S1999x4000, .f32⟩
  | 103 => ⟨S1999x4000, .f32⟩
  | 104 => ⟨S7996000, .f32⟩
  | 105 => ⟨S7996000, .i32⟩
  | 106 => ⟨S_, .f32⟩
  | 107 => ⟨S8000000, .f32⟩
  | 108 => ⟨S7996000x1, .i32⟩
  | 109 => ⟨S8000000, .f32⟩
  | 110 => ⟨S7996000, .f32⟩
  | 111 => ⟨S7996000, .i32⟩
  | 112 => ⟨S_, .f32⟩
  | 113 => ⟨S8000000, .f32⟩
  | 114 => ⟨S7996000x1, .i32⟩
  | 115 => ⟨S8000000, .f32⟩
  | 116 => ⟨S_, .f32⟩
  | 117 => ⟨S8000000, .f32⟩
  | 118 => ⟨S8000000, .i1⟩
  | 119 => ⟨S_, .f32⟩
  | 120 => ⟨S8000000, .f32⟩
  | 121 => ⟨S8000000, .f32⟩
  | 122 => ⟨S8000000, .f32⟩
  | 123 => ⟨S_, .f32⟩
  | 124 => ⟨S_, .f32⟩
  | 125 => ⟨S8000000, .f32⟩
  | 126 => ⟨S8000000, .f32⟩
  | 127 => ⟨S8000000, .i32⟩
  | _ => ⟨S2000x4000x5, .f32⟩

abbrev hbmTy0_1 (i : Nat) : BufTy := match i % 128 with
  | 0 => ⟨S_, .i32⟩
  | 1 => ⟨S_, .i32⟩
  | 2 => ⟨S_, .f32⟩
  | 3 => ⟨S_, .f32⟩
  | 4 => ⟨S_, .i1⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | _ => ⟨S2000x4000x5, .f32⟩

abbrev hbmTy (i : Nat) : BufTy := match i / 128 with
  | 0 => hbmTy0_0 i
  | 1 => hbmTy0_1 i
  | _ => ⟨S2000x4000x5, .f32⟩

abbrev bufTy : (tb : Table) → Fin (tcTables nBuf tb) → BufTy
  | .hbm, ⟨i, _⟩ => hbmTy i
  | .local _ .vmem, ⟨0, _⟩ => ⟨S40x20000, .f32⟩
  | .local _ .vmem, ⟨1, _⟩ => ⟨S40x20000, .f32⟩
  | .local _ .vmem, ⟨2, _⟩ => ⟨S40x20000, .f32⟩
  | .local _ .vmem, ⟨3, _⟩ => ⟨S40x20000, .f32⟩
  | .local _ .vmem, ⟨4, _⟩ => ⟨S40x4000, .f32⟩
  | .local _ .vmem, ⟨5, _⟩ => ⟨S40x4000, .f32⟩
  | .local _ .vmem, ⟨6, _⟩ => ⟨S40x4000, .f32⟩
  | .local _ .vmem, ⟨7, _⟩ => ⟨S40x4000, .f32⟩
  | .local _ .vmem, ⟨8, _⟩ => ⟨S40x4000, .f32⟩
  | .local _ .vmem, ⟨9, _⟩ => ⟨S40x4000, .f32⟩
  | .local _ .vmem, ⟨10, _⟩ => ⟨S20000x5, .f32⟩
  | .local _ .vmem, ⟨11, _⟩ => ⟨S8x128, .f32⟩
  | _, _ => ⟨S2000x4000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_0 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_1 : Ref sig .tc := ⟨.hbm, 62, rfl⟩
abbrev main_v34 : Ref sig .tc := ⟨.hbm, 63, rfl⟩
abbrev main_cst_2 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_3 : Ref sig .tc := ⟨.hbm, 68, rfl⟩
abbrev main_call1_v0 : Ref sig .tc := ⟨.hbm, 69, rfl⟩
abbrev main_v38 : Ref sig .tc := ⟨.hbm, 70, rfl⟩
abbrev main_cst_4 : Ref sig .tc := ⟨.hbm, 71, rfl⟩
abbrev main_v39 : Ref sig .tc := ⟨.hbm, 72, rfl⟩
abbrev main_cst_5 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst_6 : Ref sig .tc := ⟨.hbm, 77, rfl⟩
abbrev main_call2_v0 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_call3_call0_c : Ref sig .tc := ⟨.hbm, 92, rfl⟩
abbrev main_call3_call0_v0 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_c_7 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_8 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_9 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_cst_10 : Ref sig .tc := ⟨.hbm, 116, rfl⟩
abbrev main_v75 : Ref sig .tc := ⟨.hbm, 117, rfl⟩
abbrev main_v76 : Ref sig .tc := ⟨.hbm, 118, rfl⟩
abbrev main_cst_11 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_12 : Ref sig .tc := ⟨.hbm, 123, rfl⟩
abbrev main_call4_v0 : Ref sig .tc := ⟨.hbm, 124, rfl⟩
abbrev main_call4_v1 : Ref sig .tc := ⟨.hbm, 125, rfl⟩
abbrev main_v80 : Ref sig .tc := ⟨.hbm, 126, rfl⟩
abbrev main_v81 : Ref sig .tc := ⟨.hbm, 127, rfl⟩
abbrev main_c_13 : Ref sig .tc := ⟨.hbm, 128, rfl⟩
abbrev main_v82 : Ref sig .tc := ⟨.hbm, 129, rfl⟩
abbrev main_v83 : Ref sig .tc := ⟨.hbm, 130, rfl⟩
abbrev main_cst_14 : Ref sig .tc := ⟨.hbm, 131, rfl⟩
abbrev main_v84 : Ref sig .tc := ⟨.hbm, 132, rfl⟩
abbrev main_cst_15 : Ref sig .tc := ⟨.hbm, 133, rfl⟩
abbrev main_v85 : Ref sig .tc := ⟨.hbm, 134, rfl⟩
abbrev main_cst_16 : Ref sig .tc := ⟨.hbm, 135, rfl⟩
abbrev main_v86 : Ref sig .tc := ⟨.hbm, 136, rfl⟩
abbrev main_v87 : Ref sig .tc := ⟨.hbm, 137, rfl⟩
abbrev main_cst_17 : Ref sig .tc := ⟨.hbm, 138, rfl⟩
abbrev main_call5_v0 : Ref sig .tc := ⟨.hbm, 139, rfl⟩
abbrev main_v88 : Ref sig .tc := ⟨.hbm, 140, rfl⟩
abbrev main_cst_18 : Ref sig .tc := ⟨.hbm, 141, rfl⟩
abbrev main_v89 : Ref sig .tc := ⟨.hbm, 142, rfl⟩
abbrev main_cst_19 : Ref sig .tc := ⟨.hbm, 143, rfl⟩
abbrev main_v90 : Ref sig .tc := ⟨.hbm, 144, rfl⟩
abbrev main_v91 : Ref sig .tc := ⟨.hbm, 145, rfl⟩
abbrev main_cst_20 : Ref sig .tc := ⟨.hbm, 146, rfl⟩
abbrev main_v92 : Ref sig .tc := ⟨.hbm, 147, rfl⟩
abbrev main_v93 : Ref sig .tc := ⟨.hbm, 148, rfl⟩
abbrev main_cst_21 : Ref sig .tc := ⟨.hbm, 149, rfl⟩
abbrev main_v94 : Ref sig .tc := ⟨.hbm, 150, rfl⟩
abbrev main_v95 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S40x20000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S40x20000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S40x4000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x4000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S40x4000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S20000x5 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  shapeCasts_S2000x4000x5_S2000x20000 : S2000x4000x5.ShapeCasts S2000x20000
  shapeCasts_S2000x4000x1_S2000x4000 : S2000x4000x1.ShapeCasts S2000x4000
  slices_S2000x4000x2_S2000x4000x1_0_0_0 : S2000x4000x2.Slices ![0, 0, 0] S2000x4000x1
  slices_S2000x4000x2_S2000x4000x1_0_0_1 : S2000x4000x2.Slices ![0, 0, 1] S2000x4000x1
  bcast_S_S20000 : S_.BroadcastsInDim S20000 (![] : Fin 0 → Fin S20000.rank)
  bcast_S20000_S20000x1_0 : S20000.BroadcastsInDim S20000x1 (![0] : Fin 1 → Fin S20000x1.rank)
  bcast_S5_S1x5_1 : S5.BroadcastsInDim S1x5 (![1] : Fin 1 → Fin S1x5.rank)
  bcast_S20000x1_S20000x5_0_1 : S20000x1.BroadcastsInDim S20000x5 (![0, 1] : Fin 2 → Fin S20000x5.rank)
  bcast_S1x5_S20000x5_0_1 : S1x5.BroadcastsInDim S20000x5 (![0, 1] : Fin 2 → Fin S20000x5.rank)
  inb_S8x128_S8x128_0_0 : ∀ a, (![0, 0] : Fin 2 → Nat) a + S8x128.size a ≤ S8x128.size a
  h_S8x128 : 0 < S8x128.numel
  inb_S40x20000_S40x20000_0_0 : ∀ a, (![0, 0] : Fin 2 → Nat) a + S40x20000.size a ≤ S40x20000.size a
  h_S40x20000 : 0 < S40x20000.numel
  shapeCasts_S40x20000_S40x20000 : S40x20000.ShapeCasts S40x20000
  natLt_1_32 : 1 < 32
  inb_S20000x5_S20000x5_0_0 : ∀ a, (![0, 0] : Fin 2 → Nat) a + S20000x5.size a ≤ S20000x5.size a
  h_S20000x5 : 0 < S20000x5.numel
  shapeCasts_S20000x5_S20000x5 : S20000x5.ShapeCasts S20000x5
  bitsLt_bf16_f32 : FTy.bits .bf16 < FTy.bits .f32
  reduces_S40x5_S5 : S40x5.Reduces [0] S5
  shapeCasts_S5_S1x5 : S5.ShapeCasts S1x5
  inb_S40x4000_S40x4000_0_0 : ∀ a, (![0, 0] : Fin 2 → Nat) a + S40x4000.size a ≤ S40x4000.size a
  h_S40x4000 : 0 < S40x4000.numel
  shapeCasts_S40x4000_S40x4000 : S40x4000.ShapeCasts S40x4000
  reduces_S40x4000_S40 : S40x4000.Reduces [1] S40
  shapeCasts_S40_S40x1 : S40.ShapeCasts S40x1
  reduces_S40x1_S1 : S40x1.Reduces [0] S1
  shapeCasts_S1_S1x1 : S1.ShapeCasts S1x1
  inb_S8x128_S1x5_0_0 : ∀ a, (![0, 0] : Fin 2 → Nat) a + S1x5.size a ≤ S8x128.size a
  h_S1x5 : 0 < S1x5.numel
  shapeCasts_S1x5_S1x5 : S1x5.ShapeCasts S1x5
  inb_S8x128_S1x5_1_0 : ∀ a, (![1, 0] : Fin 2 → Nat) a + S1x5.size a ≤ S8x128.size a
  inb_S8x128_S1x1_2_0 : ∀ a, (![2, 0] : Fin 2 → Nat) a + S1x1.size a ≤ S8x128.size a
  h_S1x1 : 0 < S1x1.numel
  shapeCasts_S1x1_S1x1 : S1x1.ShapeCasts S1x1
  inb_S8x128_S1x1_2_1 : ∀ a, (![2, 1] : Fin 2 → Nat) a + S1x1.size a ≤ S8x128.size a
  inb_S8x128_S1x1_2_2 : ∀ a, (![2, 2] : Fin 2 → Nat) a + S1x1.size a ≤ S8x128.size a
  inb_S8x128_S1x1_2_3 : ∀ a, (![2, 3] : Fin 2 → Nat) a + S1x1.size a ≤ S8x128.size a
  slices_S8x128_S1x5_0_0 : S8x128.Slices ![0, 0] S1x5
  shapeCasts_S1x5_S5 : S1x5.ShapeCasts S5
  slices_S8x128_S1x5_1_0 : S8x128.Slices ![1, 0] S1x5
  bcast_S_S5 : S_.BroadcastsInDim S5 (![] : Fin 0 → Fin S5.rank)
  reducesTo_S5_S_d0 : S5.ReducesTo [0] S_
  h_S_ : 0 < S_.numel
  slices_S8x128_S1x1_2_0 : S8x128.Slices ![2, 0] S1x1
  shapeCasts_S1x1_S_ : S1x1.ShapeCasts S_
  slices_S8x128_S1x1_2_1 : S8x128.Slices ![2, 1] S1x1
  slices_S8x128_S1x1_2_2 : S8x128.Slices ![2, 2] S1x1
  slices_S8x128_S1x1_2_3 : S8x128.Slices ![2, 3] S1x1
  slices_S2000x4000x5_S2000x4000x1_0_0_0 : S2000x4000x5.Slices ![0, 0, 0] S2000x4000x1
  slices_S2000x4000_S1999x4000_1_0 : S2000x4000.Slices ![1, 0] S1999x4000
  slices_S2000x4000_S1999x4000_0_0 : S2000x4000.Slices ![0, 0] S1999x4000
  bcast_S_S_ : S_.BroadcastsInDim S_ (![] : Fin 0 → Fin S_.rank)
  reduceWindows_S1999x4000_S1999x4000_w1999s1p1998_0_w1s1p0_0 : S1999x4000.ReduceWindows (![1999, 1] : Fin 2 → Nat) ![1, 1] ![1998, 0] ![0, 0] S1999x4000
  bcast_S4000_S1x4000_1 : S4000.BroadcastsInDim S1x4000 (![1] : Fin 1 → Fin S1x4000.rank)
  bcast_S_S1x4000 : S_.BroadcastsInDim S1x4000 (![] : Fin 0 → Fin S1x4000.rank)
  bcast_S1x4000_S1999x4000_0_1 : S1x4000.BroadcastsInDim S1999x4000 (![0, 1] : Fin 2 → Fin S1999x4000.rank)
  shapeCasts_S1999x4000_S7996000 : S1999x4000.ShapeCasts S7996000
  bcast_S_S8000000 : S_.BroadcastsInDim S8000000 (![] : Fin 0 → Fin S8000000.rank)
  bcast_S7996000_S7996000x1_0 : S7996000.BroadcastsInDim S7996000x1 (![0] : Fin 1 → Fin S7996000x1.rank)
  reducesTo_S8000000_S_d0 : S8000000.ReducesTo [0] S_
  dot_S40x20000_S20000x5_S40x5_1_0_0_1_n_n_wf : DotDims.WF S40x20000 S20000x5 S40x5 [1] [0] [0] [1] [] []
  scatter_S8000000_S7996000x1_S7996000_n_0_0_1_wf : ScatterDims.WF S8000000 S7996000x1 S7996000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S40x20000.size a ≤ S2000x20000.size a
  hwx0_0 : ∀ i : grid0.Coords, EltTy.bits .f32 = 32 ∨ (Rect.block (s := S2000x20000) S40x20000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S40x20000.size a ≤ S2000x20000.size a
  hwx0_1 : ∀ i : grid0.Coords, EltTy.bits .f32 = 32 ∨ (Rect.block (s := S2000x20000) S40x20000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S40x4000.size a ≤ S2000x4000.size a
  hwx0_2 : ∀ i : grid0.Coords, EltTy.bits .f32 = 32 ∨ (Rect.block (s := S2000x4000) S40x4000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S40x4000.size a ≤ S2000x4000.size a
  hwx0_3 : ∀ i : grid0.Coords, EltTy.bits .f32 = 32 ∨ (Rect.block (s := S2000x4000) S40x4000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S40x4000.size a ≤ S2000x4000.size a
  hwx0_4 : ∀ i : grid0.Coords, EltTy.bits .f32 = 32 ∨ (Rect.block (s := S2000x4000) S40x4000.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S20000x5.size a ≤ S20000x5.size a
  hwx0_5 : ∀ i : grid0.Coords, EltTy.bits .f32 = 32 ∨ (Rect.block (s := S20000x5) S20000x5.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S8x128.size a
  hwx0_6 : ∀ i : grid0.Coords, EltTy.bits .f32 = 32 ∨ (Rect.block (s := S8x128) S8x128.size (cc0_transform_6 i) (hinb0_6 i)).WholeWords (EltTy.packing .f32)

variable [Facts₀]

def dot_S40x20000_S20000x5_S40x5_1_0_0_1_n_n : DotDims S40x20000 S20000x5 S40x5 where
  lhsContracting := [1]
  rhsContracting := [0]
  lhsNonContracting := [0]
  rhsNonContracting := [1]
  lhsBatch := []
  rhsBatch := []
  wf := dot_S40x20000_S20000x5_S40x5_1_0_0_1_n_n_wf
def scatter_S8000000_S7996000x1_S7996000_n_0_0_1 : ScatterDims S8000000 S7996000x1 S7996000 where
  updateWindowDims := []
  insertedWindowDims := [0]
  scatterDimsToOperandDims := [0]
  indexVectorDim := 1
  wf := scatter_S8000000_S7996000x1_S7996000_n_0_0_1_wf

abbrev win0_0 : Pipeline.Window sig grid0 :=
  Pipeline.Window.ofSpec (Memref.whole main_v0) S40x20000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S40x20000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S40x4000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S40x4000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S40x4000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15) S20000x5.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S8x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2000x4000x5 : Shape := ⟨3, ![2000, 4000, 5]⟩
abbrev S2000x4000x1 : Shape := ⟨3, ![2000, 4000, 1]⟩
abbrev S2000x4000x2 : Shape := ⟨3, ![2000, 4000, 2]⟩
abbrev S_ : Shape := ⟨0, ![]⟩
abbrev S5 : Shape := ⟨1, ![5]⟩
abbrev S2000x4000 : Shape := ⟨2, ![2000, 4000]⟩
abbrev S1999x4000 : Shape := ⟨2, ![1999, 4000]⟩
abbrev S4000 : Shape := ⟨1, ![4000]⟩
abbrev S1x4000 : Shape := ⟨2, ![1, 4000]⟩
abbrev S7996000 : Shape := ⟨1, ![7996000]⟩
abbrev S8000000 : Shape := ⟨1, ![8000000]⟩
abbrev S7996000x1 : Shape := ⟨2, ![7996000, 1]⟩

abbrev nBuf : Space → Nat
  | .hbm => 146
  | .vmem => 0
  | .smem => 0
  | _ => 0

abbrev hbmTy0_0 (i : Nat) : BufTy := match i % 128 with
  | 0 => ⟨S2000x4000x5, .f32⟩
  | 1 => ⟨S2000x4000x5, .f32⟩
  | 2 => ⟨S2000x4000x1, .f32⟩
  | 3 => ⟨S2000x4000x2, .f32⟩
  | 4 => ⟨S2000x4000x1, .f32⟩
  | 5 => ⟨S2000x4000x5, .i1⟩
  | 6 => ⟨S2000x4000x5, .i1⟩
  | 7 => ⟨S_, .f32⟩
  | 8 => ⟨S_, .f32⟩
  | 9 => ⟨S2000x4000x5, .f32⟩
  | 10 => ⟨S2000x4000x5, .f32⟩
  | 11 => ⟨S2000x4000x5, .f32⟩
  | 12 => ⟨S2000x4000x5, .f32⟩
  | 13 => ⟨S_, .f32⟩
  | 14 => ⟨S_, .f32⟩
  | 15 => ⟨S2000x4000x5, .f32⟩
  | 16 => ⟨S2000x4000x5, .f32⟩
  | 17 => ⟨S2000x4000x5, .i32⟩
  | 18 => ⟨S_, .i32⟩
  | 19 => ⟨S5, .i32⟩
  | 20 => ⟨S5, .f32⟩
  | 21 => ⟨S_, .f32⟩
  | 22 => ⟨S5, .f32⟩
  | 23 => ⟨S_, .f32⟩
  | 24 => ⟨S5, .f32⟩
  | 25 => ⟨S5, .f32⟩
  | 26 => ⟨S5, .f32⟩
  | 27 => ⟨S5, .f32⟩
  | 28 => ⟨S_, .f32⟩
  | 29 => ⟨S_, .f32⟩
  | 30 => ⟨S2000x4000, .f32⟩
  | 31 => ⟨S2000x4000x1, .f32⟩
  | 32 => ⟨S2000x4000, .f32⟩
  | 33 => ⟨S2000x4000x1, .f32⟩
  | 34 => ⟨S2000x4000, .f32⟩
  | 35 => ⟨S_, .f32⟩
  | 36 => ⟨S2000x4000, .f32⟩
  | 37 => ⟨S2000x4000, .i1⟩
  | 38 => ⟨S2000x4000, .f32⟩
  | 39 => ⟨S_, .f32⟩
  | 40 => ⟨S_, .f32⟩
  | 41 => ⟨S_, .f32⟩
  | 42 => ⟨S_, .i1⟩
  | 43 => ⟨S2000x4000, .f32⟩
  | 44 => ⟨S2000x4000, .f32⟩
  | 45 => ⟨S2000x4000, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S2000x4000, .f32⟩
  | 57 => ⟨S2000x4000, .i1⟩
  | 58 => ⟨S2000x4000, .f32⟩
  | 59 => ⟨S_, .f32⟩
  | 60 => ⟨S_, .f32⟩
  | 61 => ⟨S_, .f32⟩
  | 62 => ⟨S_, .i1⟩
  | 63 => ⟨S2000x4000, .f32⟩
  | 64 => ⟨S2000x4000, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S2000x4000x1, .f32⟩
  | 75 => ⟨S2000x4000, .f32⟩
  | 76 => ⟨S2000x4000, .f32⟩
  | 77 => ⟨S1999x4000, .f32⟩
  | 78 => ⟨S1999x4000, .f32⟩
  | 79 => ⟨S1999x4000, .f32⟩
  | 80 => ⟨S1999x4000, .f32⟩
  | 81 => ⟨S1999x4000, .f32⟩
  | 82 => ⟨S1999x4000, .f32⟩
  | 83 => ⟨S1999x4000, .i1⟩
  | 84 => ⟨S1999x4000, .i1⟩
  | 85 => ⟨S1999x4000, .i32⟩
  | 86 => ⟨S_, .i32⟩
  | 87 => ⟨S_, .i32⟩
  | 88 => ⟨S1999x4000, .i32⟩
  | 89 => ⟨S4000, .i32⟩
  | 90 => ⟨S1x4000, .i32⟩
  | 91 => ⟨S_, .i32⟩
  | 92 => ⟨S1x4000, .i32⟩
  | 93 => ⟨S1x4000, .i32⟩
  | 94 => ⟨S1999x4000, .i32⟩
  | 95 => ⟨S1999x4000, .i32⟩
  | 96 => ⟨S1999x4000, .f32⟩
  | 97 => ⟨S1999x4000, .f32⟩
  | 98 => ⟨S7996000, .f32⟩
  | 99 => ⟨S7996000, .i32⟩
  | 100 => ⟨S_, .f32⟩
  | 101 => ⟨S8000000, .f32⟩
  | 102 => ⟨S7996000x1, .i32⟩
  | 103 => ⟨S8000000, .f32⟩
  | 104 => ⟨S7996000, .f32⟩
  | 105 => ⟨S7996000, .i32⟩
  | 106 => ⟨S_, .f32⟩
  | 107 => ⟨S8000000, .f32⟩
  | 108 => ⟨S7996000x1, .i32⟩
  | 109 => ⟨S8000000, .f32⟩
  | 110 => ⟨S_, .f32⟩
  | 111 => ⟨S8000000, .f32⟩
  | 112 => ⟨S8000000, .i1⟩
  | 113 => ⟨S_, .f32⟩
  | 114 => ⟨S8000000, .f32⟩
  | 115 => ⟨S8000000, .f32⟩
  | 116 => ⟨S8000000, .f32⟩
  | 117 => ⟨S_, .f32⟩
  | 118 => ⟨S_, .f32⟩
  | 119 => ⟨S8000000, .f32⟩
  | 120 => ⟨S8000000, .f32⟩
  | 121 => ⟨S8000000, .i32⟩
  | 122 => ⟨S_, .i32⟩
  | 123 => ⟨S_, .i32⟩
  | 124 => ⟨S_, .f32⟩
  | 125 => ⟨S_, .f32⟩
  | 126 => ⟨S_, .i1⟩
  | 127 => ⟨S_, .f32⟩
  | _ => ⟨S2000x4000x5, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | _ => ⟨S2000x4000x5, .f32⟩

abbrev hbmTy (i : Nat) : BufTy := match i / 128 with
  | 0 => hbmTy0_0 i
  | 1 => hbmTy0_1 i
  | _ => ⟨S2000x4000x5, .f32⟩

abbrev bufTy : (tb : Table) → Fin (tcTables nBuf tb) → BufTy
  | .hbm, ⟨i, _⟩ => hbmTy i
  | _, _ => ⟨S2000x4000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_call1_v0 : Ref sig .tc := ⟨.hbm, 14, rfl⟩
abbrev main_call1_v1 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_7 : Ref sig .tc := ⟨.hbm, 46, rfl⟩
abbrev main_v28 : Ref sig .tc := ⟨.hbm, 47, rfl⟩
abbrev main_cst_8 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_9 : Ref sig .tc := ⟨.hbm, 52, rfl⟩
abbrev main_call2_v0 : Ref sig .tc := ⟨.hbm, 53, rfl⟩
abbrev main_v32 : Ref sig .tc := ⟨.hbm, 54, rfl⟩
abbrev main_cst_10 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_11 : Ref sig .tc := ⟨.hbm, 59, rfl⟩
abbrev main_v36 : Ref sig .tc := ⟨.hbm, 60, rfl⟩
abbrev main_cst_12 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_13 : Ref sig .tc := ⟨.hbm, 65, rfl⟩
abbrev main_v40 : Ref sig .tc := ⟨.hbm, 66, rfl⟩
abbrev main_cst_14 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_15 : Ref sig .tc := ⟨.hbm, 71, rfl⟩
abbrev main_call3_v0 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_call4_call0_c : Ref sig .tc := ⟨.hbm, 86, rfl⟩
abbrev main_call4_call0_v0 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_c_16 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_17 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_18 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_19 : Ref sig .tc := ⟨.hbm, 110, rfl⟩
abbrev main_v76 : Ref sig .tc := ⟨.hbm, 111, rfl⟩
abbrev main_v77 : Ref sig .tc := ⟨.hbm, 112, rfl⟩
abbrev main_cst_20 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_21 : Ref sig .tc := ⟨.hbm, 117, rfl⟩
abbrev main_call5_v0 : Ref sig .tc := ⟨.hbm, 118, rfl⟩
abbrev main_call5_v1 : Ref sig .tc := ⟨.hbm, 119, rfl⟩
abbrev main_v81 : Ref sig .tc := ⟨.hbm, 120, rfl⟩
abbrev main_v82 : Ref sig .tc := ⟨.hbm, 121, rfl⟩
abbrev main_c_22 : Ref sig .tc := ⟨.hbm, 122, rfl⟩
abbrev main_v83 : Ref sig .tc := ⟨.hbm, 123, rfl⟩
abbrev main_v84 : Ref sig .tc := ⟨.hbm, 124, rfl⟩
abbrev main_cst_23 : Ref sig .tc := ⟨.hbm, 125, rfl⟩
abbrev main_v85 : Ref sig .tc := ⟨.hbm, 126, rfl⟩
abbrev main_cst_24 : Ref sig .tc := ⟨.hbm, 127, rfl⟩
abbrev main_v86 : Ref sig .tc := ⟨.hbm, 128, rfl⟩
abbrev main_cst_25 : Ref sig .tc := ⟨.hbm, 129, rfl⟩
abbrev main_v87 : Ref sig .tc := ⟨.hbm, 130, rfl⟩
abbrev main_v88 : Ref sig .tc := ⟨.hbm, 131, rfl⟩
abbrev main_cst_26 : Ref sig .tc := ⟨.hbm, 132, rfl⟩
abbrev main_call6_v0 : Ref sig .tc := ⟨.hbm, 133, rfl⟩
abbrev main_v89 : Ref sig .tc := ⟨.hbm, 134, rfl⟩
abbrev main_cst_27 : Ref sig .tc := ⟨.hbm, 135, rfl⟩
abbrev main_v90 : Ref sig .tc := ⟨.hbm, 136, rfl⟩
abbrev main_cst_28 : Ref sig .tc := ⟨.hbm, 137, rfl⟩
abbrev main_v91 : Ref sig .tc := ⟨.hbm, 138, rfl⟩
abbrev main_v92 : Ref sig .tc := ⟨.hbm, 139, rfl⟩
abbrev main_cst_29 : Ref sig .tc := ⟨.hbm, 140, rfl⟩
abbrev main_v93 : Ref sig .tc := ⟨.hbm, 141, rfl⟩
abbrev main_v94 : Ref sig .tc := ⟨.hbm, 142, rfl⟩
abbrev main_cst_30 : Ref sig .tc := ⟨.hbm, 143, rfl⟩
abbrev main_v95 : Ref sig .tc := ⟨.hbm, 144, rfl⟩
abbrev main_v96 : Ref sig .tc := ⟨.hbm, 145, rfl⟩

abbrev nD : Nat := 1
abbrev τ : Topo := Topo.v7x

variable {F : FTy → Type} [FloatOps F]

class Facts₀ : Prop where
  bcast_S_S2000x4000x5 : S_.BroadcastsInDim S2000x4000x5 (![] : Fin 0 → Fin S2000x4000x5.rank)
  natLt_1_32 : 1 < 32
  reducesTo_S2000x4000x5_S5_d0_1 : S2000x4000x5.ReducesTo [0, 1] S5
  h_S_ : 0 < S_.numel
  bcast_S_S5 : S_.BroadcastsInDim S5 (![] : Fin 0 → Fin S5.rank)
  reducesTo_S5_S_d0 : S5.ReducesTo [0] S_
  shapeCasts_S2000x4000x1_S2000x4000 : S2000x4000x1.ShapeCasts S2000x4000
  slices_S2000x4000x2_S2000x4000x1_0_0_0 : S2000x4000x2.Slices ![0, 0, 0] S2000x4000x1
  slices_S2000x4000x2_S2000x4000x1_0_0_1 : S2000x4000x2.Slices ![0, 0, 1] S2000x4000x1
  bcast_S_S2000x4000 : S_.BroadcastsInDim S2000x4000 (![] : Fin 0 → Fin S2000x4000.rank)
  reducesTo_S2000x4000_S_d0_1 : S2000x4000.ReducesTo [0, 1] S_
  slices_S2000x4000x5_S2000x4000x1_0_0_0 : S2000x4000x5.Slices ![0, 0, 0] S2000x4000x1
  slices_S2000x4000_S1999x4000_1_0 : S2000x4000.Slices ![1, 0] S1999x4000
  slices_S2000x4000_S1999x4000_0_0 : S2000x4000.Slices ![0, 0] S1999x4000
  bcast_S_S_ : S_.BroadcastsInDim S_ (![] : Fin 0 → Fin S_.rank)
  reduceWindows_S1999x4000_S1999x4000_w1999s1p1998_0_w1s1p0_0 : S1999x4000.ReduceWindows (![1999, 1] : Fin 2 → Nat) ![1, 1] ![1998, 0] ![0, 0] S1999x4000
  bcast_S4000_S1x4000_1 : S4000.BroadcastsInDim S1x4000 (![1] : Fin 1 → Fin S1x4000.rank)
  bcast_S_S1x4000 : S_.BroadcastsInDim S1x4000 (![] : Fin 0 → Fin S1x4000.rank)
  bcast_S1x4000_S1999x4000_0_1 : S1x4000.BroadcastsInDim S1999x4000 (![0, 1] : Fin 2 → Fin S1999x4000.rank)
  shapeCasts_S1999x4000_S7996000 : S1999x4000.ShapeCasts S7996000
  bcast_S_S8000000 : S_.BroadcastsInDim S8000000 (![] : Fin 0 → Fin S8000000.rank)
  bcast_S7996000_S7996000x1_0 : S7996000.BroadcastsInDim S7996000x1 (![0] : Fin 1 → Fin S7996000x1.rank)
  reducesTo_S8000000_S_d0 : S8000000.ReducesTo [0] S_
  scatter_S8000000_S7996000x1_S7996000_n_0_0_1_wf : ScatterDims.WF S8000000 S7996000x1 S7996000 [] [0] [0] 1

variable [Facts₀]

def scatter_S8000000_S7996000x1_S7996000_n_0_0_1 : ScatterDims S8000000 S7996000x1 S7996000 where
  updateWindowDims := []
  insertedWindowDims := [0]
  scatterDimsToOperandDims := [0]
  indexVectorDim := 1
  wf := scatter_S8000000_S7996000x1_S7996000_n_0_0_1_wf

class Facts : Prop extends Facts₀ where

variable [Facts]
-- ==== Proof.FrameK.Lines.lean ====
/-
  The host lines of the kernel's program around its one launch, as two lists of stretches: the thirty-seven
  operations that prepare the launch's operands (the reshapes and slices of the arguments, and the one-hot channel
  selector built from an iota and a remainder), and the hundred and nine that follow it (the three root-mean-square
  terms read off the accumulator block, the segment mean of squared increments computed from the first channel and the
  rain signal, and the weighted total).
-/
import proofs.«169479_j35270271434986_1_alg».proof.Proof.Gen.Kernel.Launch

noncomputable section

namespace Cert.Kernel.Hand

open Idealize.ShloMosaic Idealize.SL.Sem
open Cert.Kernel Cert.Kernel.Gen

variable {F : FTy → Type} [FloatOps F]

/-- The stretches of host operations before the launch, in order. -/
abbrev linesBefore : List (List (HloOp τ sig (Elt F))) := [hostOps0, hostOps0_1, hostOps0_2]

/-- The stretches of host operations after the launch, in order. -/
abbrev linesAfter : List (List (HloOp τ sig (Elt F))) :=
  [hostOps1, hostOps1_1, hostOps1_2, hostOps1_3, hostOps1_4, hostOps1_5, hostOps1_6, hostOps1_7, hostOps1_8, hostOps1_9, hostOps1_10]

end Cert.Kernel.Hand

end
-- ==== Proof.FrameK.Branch.lean ====
/-
  The branch of the loss kernel's body: the accumulator block is reset exactly when the grid coordinate is 0,
  that is at the first of the 50 grid points; and the names of the seven staging memrefs the pipeline hands the
  body at a point.
-/
import proofs.«169479_j35270271434986_1_alg».proof.Proof.Gen.Kernel.Launch
import proofs.«169479_j35270271434986_1_alg».proof.Proof.Gen.Kernel.Skeleton
import proofs.«169479_j35270271434986_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The condition of the body's one conditional, from the grid coordinate: "the coordinate is zero". -/
abbrev isFirst (i : grid0.Coords) : Prop :=
  (Scalar.cmpi .ne (Scalar.extui (Scalar.cmpi .eq (BitVec.ofNat 32 (i 0).val) 0#32)) 0#32) = 1#1

/-- It holds at the first grid point only: decided over the 50 points. -/
theorem isFirst_iff : ∀ t : Fin cfg0.N, isFirst (grid0.coords t) ↔ t.val % 50 = 0 :=
  (by decide +kernel : ∀ t : Fin grid0.N, isFirst (grid0.coords t) ↔ t.val % 50 = 0)

/-- The staging memref of each window at point `t`, as the pipeline passes it to the body, and its wholeness. -/
abbrev mem0 (t : Fin cfg0.N) : Memref sig .tc .vmem S40x20000 .f32 := win0_0.stage (cfg0.slots t 0)
abbrev whole0 (t : Fin cfg0.N) : (mem0 t).IsWhole := hstage0_0 ((cfg0.slots t 0).cast nbuf0_0)
abbrev mem1 (t : Fin cfg0.N) : Memref sig .tc .vmem S40x20000 .f32 := win0_1.stage (cfg0.slots t 1)
abbrev whole1 (t : Fin cfg0.N) : (mem1 t).IsWhole := hstage0_1 ((cfg0.slots t 1).cast nbuf0_1)
abbrev mem2 (t : Fin cfg0.N) : Memref sig .tc .vmem S40x4000 .f32 := win0_2.stage (cfg0.slots t 2)
abbrev whole2 (t : Fin cfg0.N) : (mem2 t).IsWhole := hstage0_2 ((cfg0.slots t 2).cast nbuf0_2)
abbrev mem3 (t : Fin cfg0.N) : Memref sig .tc .vmem S40x4000 .f32 := win0_3.stage (cfg0.slots t 3)
abbrev whole3 (t : Fin cfg0.N) : (mem3 t).IsWhole := hstage0_3 ((cfg0.slots t 3).cast nbuf0_3)
abbrev mem4 (t : Fin cfg0.N) : Memref sig .tc .vmem S40x4000 .f32 := win0_4.stage (cfg0.slots t 4)
abbrev whole4 (t : Fin cfg0.N) : (mem4 t).IsWhole := hstage0_4 ((cfg0.slots t 4).cast nbuf0_4)
abbrev mem5 (t : Fin cfg0.N) : Memref sig .tc .vmem S20000x5 .f32 := win0_5.stage (cfg0.slots t 5)
abbrev whole5 (t : Fin cfg0.N) : (mem5 t).IsWhole := hstage0_5 ((cfg0.slots t 5).cast nbuf0_5)
abbrev mem6 (t : Fin cfg0.N) : Memref sig .tc .vmem S8x128 .f32 := win0_6.stage (cfg0.slots t 6)
abbrev whole6 (t : Fin cfg0.N) : (mem6 t).IsWhole := hstage0_6 ((cfg0.slots t 6).cast nbuf0_6)

end Cert.Kernel.Hand

end
-- ==== Proof.FrameK.Around.lean ====
/-
  The kernel's program around its launch. Before the launch thirty-seven host operations prepare the operands; none
  of them writes an argument array, so the launch finds the five arguments as the program was started with them.
  After it, a hundred and nine operations read the accumulator block and the arguments; each writes only its own
  result buffer, which is neither an argument nor an array the launch stages, allocates nothing, and touches only
  buffers that bypass the launch or arrays it staged. These are the side conditions under which the launch theorem
  for "host lines, one launch, host lines" applies, and under which the program's five arguments end unchanged.
-/
import proofs.«169479_j35270271434986_1_alg».proof.Proof.FrameK.Lines
import proofs.«169479_j35270271434986_1_alg».proof.Proof.FrameK.Branch
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the launch finds -/

/-- Core `c`'s buffers when the launch is entered, as a valuation: the start contents after the earlier lines. -/
abbrev V0 (c : Dev nD) : Valuation τ sig (Elt F) := StableHlo.after (List.flatten linesBefore) (fun b => m (c, b))
/-- The same read at a TensorCore reference. -/
abbrev V (c : Dev nD) (b : Ref sig .tc) : Buf (Elt F) ((c : Thread nD τ).loc b) := V0 m c (Proc.devRef .tc b)

/-- The program's five argument arrays. -/
abbrev argRef : Fin 5 → Ref sig .tc := ![main_arg0, main_arg1, main_arg2, main_arg3, main_arg4]

/-! ## Each stretch: allocates nothing, writes no staged array, writes no argument -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor

theorem hostOps1_keeps : (hostOps1 : List (HloOp τ sig (Elt F))).Forall fun op => ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_1_keeps : (hostOps1_1 : List (HloOp τ sig (Elt F))).Forall fun op => ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_2_keeps : (hostOps1_2 : List (HloOp τ sig (Elt F))).Forall fun op => ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_3_keeps : (hostOps1_3 : List (HloOp τ sig (Elt F))).Forall fun op => ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_4_keeps : (hostOps1_4 : List (HloOp τ sig (Elt F))).Forall fun op => ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_5_keeps : (hostOps1_5 : List (HloOp τ sig (Elt F))).Forall fun op => ∀ w, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_6_keeps : (hostOps1_6 : List (HloOp τ sig (Elt F))).Forall fun op => ∀ w, Proc.devRef .tc (Pipeline.arrRef spec0 w) ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_7_keeps : (hostOps1_7 : List (HloOp τ sig (Elt F))).Forall fun op => ∀ w, Proc.devRef .tc (Pipeline.arrRef spec0 w) ∉ op.writes := by
  simp only [hostOps1_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_8_keeps : (hostOps1_8 : List (HloOp τ sig (Elt F))).Forall fun op => ∀ w, Proc.devRef .tc (Pipeline.arrRef spec0 w) ∉ op.writes := by
  simp only [hostOps1_8, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_9_keeps : (hostOps1_9 : List (HloOp τ sig (Elt F))).Forall fun op => ∀ w, Proc.devRef .tc (Pipeline.arrRef spec0 w) ∉ op.writes := by
  simp only [hostOps1_9, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_10_keeps : (hostOps1_10 : List (HloOp τ sig (Elt F))).Forall fun op => ∀ w, Proc.devRef .tc (Pipeline.arrRef spec0 w) ∉ op.writes := by
  simp only [hostOps1_10, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

theorem hostOps0_args : (hostOps0 : List (HloOp τ sig (Elt F))).Forall fun op => ∀ k : Fin 5, Proc.devRef .tc (argRef k) ∉ op.writes := by
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; fin_cases k <;> exact StableHlo.devRef_ne_of_ne (by decide))
theorem hostOps0_1_args : (hostOps0_1 : List (HloOp τ sig (Elt F))).Forall fun op => ∀ k : Fin 5, Proc.devRef .tc (argRef k) ∉ op.writes := by
  simp only [hostOps0_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; fin_cases k <;> exact StableHlo.devRef_ne_of_ne (by decide))
theorem hostOps0_2_args : (hostOps0_2 : List (HloOp τ sig (Elt F))).Forall fun op => ∀ k : Fin 5, Proc.devRef .tc (argRef k) ∉ op.writes := by
  simp only [hostOps0_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; fin_cases k <;> exact StableHlo.devRef_ne_of_ne (by decide))
theorem hostOps1_args : (hostOps1 : List (HloOp τ sig (Elt F))).Forall fun op => ∀ k : Fin 5, Proc.devRef .tc (argRef k) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; fin_cases k <;> exact StableHlo.devRef_ne_of_ne (by decide))
theorem hostOps1_1_args : (hostOps1_1 : List (HloOp τ sig (Elt F))).Forall fun op => ∀ k : Fin 5, Proc.devRef .tc (argRef k) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; fin_cases k <;> exact StableHlo.devRef_ne_of_ne (by decide))
theorem hostOps1_2_args : (hostOps1_2 : List (HloOp τ sig (Elt F))).Forall fun op => ∀ k : Fin 5, Proc.devRef .tc (argRef k) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; fin_cases k <;> exact StableHlo.devRef_ne_of_ne (by decide))
theorem hostOps1_3_args : (hostOps1_3 : List (HloOp τ sig (Elt F))).Forall fun op => ∀ k : Fin 5, Proc.devRef .tc (argRef k) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; fin_cases k <;> exact StableHlo.devRef_ne_of_ne (by decide))
theorem hostOps1_4_args : (hostOps1_4 : List (HloOp τ sig (Elt F))).Forall fun op => ∀ k : Fin 5, Proc.devRef .tc (argRef k) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; fin_cases k <;> exact StableHlo.devRef_ne_of_ne (by decide))
theorem hostOps1_5_args : (hostOps1_5 : List (HloOp τ sig (Elt F))).Forall fun op => ∀ k : Fin 5, Proc.devRef .tc (argRef k) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; fin_cases k <;> exact StableHlo.devRef_ne_of_ne (by decide))
theorem hostOps1_6_args : (hostOps1_6 : List (HloOp τ sig (Elt F))).Forall fun op => ∀ k : Fin 5, Proc.devRef .tc (argRef k) ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; fin_cases k <;> exact StableHlo.devRef_ne_of_ne (by decide))
theorem hostOps1_7_args : (hostOps1_7 : List (HloOp τ sig (Elt F))).Forall fun op => ∀ k : Fin 5, Proc.devRef .tc (argRef k) ∉ op.writes := by
  simp only [hostOps1_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; fin_cases k <;> exact StableHlo.devRef_ne_of_ne (by decide))
theorem hostOps1_8_args : (hostOps1_8 : List (HloOp τ sig (Elt F))).Forall fun op => ∀ k : Fin 5, Proc.devRef .tc (argRef k) ∉ op.writes := by
  simp only [hostOps1_8, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; fin_cases k <;> exact StableHlo.devRef_ne_of_ne (by decide))
theorem hostOps1_9_args : (hostOps1_9 : List (HloOp τ sig (Elt F))).Forall fun op => ∀ k : Fin 5, Proc.devRef .tc (argRef k) ∉ op.writes := by
  simp only [hostOps1_9, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; fin_cases k <;> exact StableHlo.devRef_ne_of_ne (by decide))
theorem hostOps1_10_args : (hostOps1_10 : List (HloOp τ sig (Elt F))).Forall fun op => ∀ k : Fin 5, Proc.devRef .tc (argRef k) ∉ op.writes := by
  simp only [hostOps1_10, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; fin_cases k <;> exact StableHlo.devRef_ne_of_ne (by decide))

/-- A property of every operation of every later stretch, from the property stretch by stretch. -/
theorem forall_linesAfter {p : HloOp τ sig (Elt F) → Prop}
    (h0 : (hostOps1 : List (HloOp τ sig (Elt F))).Forall p) (h1 : (hostOps1_1 : List (HloOp τ sig (Elt F))).Forall p) (h2 : (hostOps1_2 : List (HloOp τ sig (Elt F))).Forall p) (h3 : (hostOps1_3 : List (HloOp τ sig (Elt F))).Forall p) (h4 : (hostOps1_4 : List (HloOp τ sig (Elt F))).Forall p) (h5 : (hostOps1_5 : List (HloOp τ sig (Elt F))).Forall p) (h6 : (hostOps1_6 : List (HloOp τ sig (Elt F))).Forall p) (h7 : (hostOps1_7 : List (HloOp τ sig (Elt F))).Forall p) (h8 : (hostOps1_8 : List (HloOp τ sig (Elt F))).Forall p) (h9 : (hostOps1_9 : List (HloOp τ sig (Elt F))).Forall p) (h10 : (hostOps1_10 : List (HloOp τ sig (Elt F))).Forall p) :
    ∀ ops ∈ (linesAfter : List (List (HloOp τ sig (Elt F)))), ∀ op ∈ ops, p op := by
  intro ops hops op hop
  simp only [List.mem_cons, List.mem_nil_iff, or_false] at hops
  rcases hops with rfl | rfl | rfl | rfl | rfl | rfl | rfl | rfl | rfl | rfl | rfl
  · exact (List.forall_iff_forall_mem.mp h0) op hop
  · exact (List.forall_iff_forall_mem.mp h1) op hop
  · exact (List.forall_iff_forall_mem.mp h2) op hop
  · exact (List.forall_iff_forall_mem.mp h3) op hop
  · exact (List.forall_iff_forall_mem.mp h4) op hop
  · exact (List.forall_iff_forall_mem.mp h5) op hop
  · exact (List.forall_iff_forall_mem.mp h6) op hop
  · exact (List.forall_iff_forall_mem.mp h7) op hop
  · exact (List.forall_iff_forall_mem.mp h8) op hop
  · exact (List.forall_iff_forall_mem.mp h9) op hop
  · exact (List.forall_iff_forall_mem.mp h10) op hop

/-! ## @main is: the earlier lines, the launch, the later lines -/

theorem hmain (𝒱₀ : Variants) : Pipeline.HMainK (Ix := Unit) (Name := ℕ) (U := UR sig nD τ) (Lvl := ℕ) cfgs 0 defs₀ 𝒱₀ m (main (F := F)) (V m)
      (fun _ => Pipeline.chain ((linesAfter (F := F)).map StableHlo.seq)) :=
  Pipeline.hmain_around cfgs 0 defs₀ 𝒱₀ m main linesBefore linesAfter
    (by simp only [List.Forall]; exact ⟨hostOps0_sub, hostOps0_1_sub, hostOps0_2_sub⟩)
    (by simp only [List.Forall]; exact ⟨hostOps0_fresh, hostOps0_1_fresh, hostOps0_2_fresh⟩) main_chain

/-- The later lines touch only arrays the launch staged and buffers that bypass it. -/
theorem after_sub : ∀ ops ∈ (linesAfter : List (List (HloOp τ sig (Elt F)))), ∀ op ∈ ops,
    op.bufs ⊆ Pipeline.tailRefs sig Pipeline.Prefetch.none spec0 := by
  rw [Pipeline.tailRefs_none spec0 launch0.win.arr_unscoped]
  exact forall_linesAfter
    ((List.forall_iff_forall_mem.mpr fun op hop => Pipeline.sub_ucRefs op ((List.forall_iff_forall_mem.mp hostOps1_sub) op hop)))
    ((List.forall_iff_forall_mem.mpr fun op hop => Pipeline.sub_ucRefs op ((List.forall_iff_forall_mem.mp hostOps1_1_sub) op hop)))
    ((List.forall_iff_forall_mem.mpr fun op hop => Pipeline.sub_ucRefs op ((List.forall_iff_forall_mem.mp hostOps1_2_sub) op hop)))
    ((List.forall_iff_forall_mem.mpr fun op hop => Pipeline.sub_ucRefs op ((List.forall_iff_forall_mem.mp hostOps1_3_sub) op hop)))
    ((List.forall_iff_forall_mem.mpr fun op hop => Pipeline.sub_ucRefs op ((List.forall_iff_forall_mem.mp hostOps1_4_sub) op hop)))
    ((List.forall_iff_forall_mem.mpr fun op hop => Pipeline.sub_ucRefs op ((List.forall_iff_forall_mem.mp hostOps1_5_sub) op hop)))
    ((List.forall_iff_forall_mem.mpr fun op hop => Pipeline.sub_ucRefs op ((List.forall_iff_forall_mem.mp hostOps1_6_sub) op hop)))
    ((List.forall_iff_forall_mem.mpr fun op hop => Pipeline.sub_ucRefs op ((List.forall_iff_forall_mem.mp hostOps1_7_sub) op hop)))
    ((List.forall_iff_forall_mem.mpr fun op hop => Pipeline.sub_ucRefs op ((List.forall_iff_forall_mem.mp hostOps1_8_sub) op hop)))
    ((List.forall_iff_forall_mem.mpr fun op hop => Pipeline.sub_ucRefs op ((List.forall_iff_forall_mem.mp hostOps1_9_sub) op hop)))
    ((List.forall_iff_forall_mem.mpr fun op hop => Pipeline.sub_ucRefs op ((List.forall_iff_forall_mem.mp hostOps1_10_sub) op hop)))
/-- They allocate nothing. -/
theorem after_fresh : ∀ ops ∈ (linesAfter : List (List (HloOp τ sig (Elt F)))), ∀ op ∈ ops, op.fresh = ∅ :=
  forall_linesAfter hostOps1_fresh hostOps1_1_fresh hostOps1_2_fresh hostOps1_3_fresh hostOps1_4_fresh hostOps1_5_fresh hostOps1_6_fresh hostOps1_7_fresh hostOps1_8_fresh hostOps1_9_fresh hostOps1_10_fresh
/-- And write no array the launch staged. -/
theorem after_keeps : ∀ ops ∈ (linesAfter : List (List (HloOp τ sig (Elt F)))), ∀ op ∈ ops,
    ∀ w, Proc.devRef .tc (Pipeline.arrRef spec0 w) ∉ op.writes :=
  forall_linesAfter hostOps1_keeps hostOps1_1_keeps hostOps1_2_keeps hostOps1_3_keeps hostOps1_4_keeps hostOps1_5_keeps hostOps1_6_keeps hostOps1_7_keeps hostOps1_8_keeps hostOps1_9_keeps hostOps1_10_keeps

/-! ## The arguments are never written -/

/-- No earlier line writes an argument: the launch finds it as the program was started with it. -/
theorem V_arg (c : Dev nD) (k : Fin 5) : V m c (argRef k) = m ((c : Thread nD τ).loc (argRef k)) :=
  StableHlo.after_of_forall_not_mem (b := Proc.devRef .tc (argRef k)) _ _ (by
    intro op hop
    simp only [linesBefore, List.flatten_cons, List.flatten_nil, List.append_nil, List.mem_append] at hop
    rcases hop with hop | hop | hop
    · exact (List.forall_iff_forall_mem.mp hostOps0_args) op hop k
    · exact (List.forall_iff_forall_mem.mp hostOps0_1_args) op hop k
    · exact (List.forall_iff_forall_mem.mp hostOps0_2_args) op hop k)

/-- No later line writes an argument either: it ends as the program was started with it. -/
theorem W_arg (dats : (p : Fin _) → (c : Dev nD) → Dat τ (Elt F) Unit ℕ (UR sig nD τ) ℕ (cfgs p) c) (c : Dev nD) (k : Fin 5) :
    Pipeline.afterTail₀ cfgs dats 0 (V0 m) linesAfter c (argRef k) = m ((c : Thread nD τ).loc (argRef k)) := by
  unfold Pipeline.afterTail₀
  rw [StableHlo.after_of_forall_not_mem (b := Proc.devRef .tc (argRef k)) _ _ (by
      intro op hop
      obtain ⟨ops, hops, hop'⟩ := List.mem_flatten.mp hop
      exact forall_linesAfter (p := fun op => ∀ k : Fin 5, Proc.devRef .tc (argRef k) ∉ op.writes)
        hostOps1_args hostOps1_1_args hostOps1_2_args hostOps1_3_args hostOps1_4_args hostOps1_5_args hostOps1_6_args hostOps1_7_args hostOps1_8_args hostOps1_9_args hostOps1_10_args ops hops op hop' k),
    Pipeline.withArrays_of_ne _ c (V0 m c) _ (argRef k) (by
      revert k; exact (by decide : ∀ (k : Fin 5) (w : Fin 7), Pipeline.arrRef spec0 w ≠ argRef k))]
  exact V_arg m c k

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the launch-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the launch-entry contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the launch-entry contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is the launch-entry contents and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof data
    whose array is the launch-entry contents and whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof data
    whose array is the launch-entry contents and whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## From the launch theorem's conclusion to "the arguments end unchanged" -/

theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) linesAfter))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (W_arg m dats c 0),
     ((h c).2 main_arg1 (Pipeline.mem_restRefs_of main_arg1 (by decide) (by decide))).trans (W_arg m dats c 1),
     ((h c).2 main_arg2 (Pipeline.mem_restRefs_of main_arg2 (by decide) (by decide))).trans (W_arg m dats c 2),
     ((h c).2 main_arg3 (Pipeline.mem_restRefs_of main_arg3 (by decide) (by decide))).trans (W_arg m dats c 3),
     ((h c).2 main_arg4 (Pipeline.mem_restRefs_of main_arg4 (by decide) (by decide))).trans (W_arg m dats c 4)⟩) h

end Cert.Kernel.Hand

end
-- ==== Proof.FrameK.RunFirst.lean ====
/-
  The loss kernel's body at the first grid point. The accumulator's staging buffer comes in holding anything; the
  body first stores zeros over the whole 8×128 block, then stores the same six small rectangles as at every other
  point — rows 0 and 1 at columns 0..4, and the four cells of row 2 at columns 0..3 — each now the zero just
  stored plus this block's partial sum. The six input staging buffers are handed back untouched.
-/
import proofs.«169479_j35270271434986_1_alg».proof.Proof.FrameK.Branch

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body stores into the accumulator's buffer at the first point (last store first; the whole-block
    store of zeros is the last entry), with the proof that from whole staging buffers — the inputs at the given
    contents, the accumulator at anything — the body runs to its continuation holding the inputs as they were and the
    accumulator's buffer overwritten by those pieces. -/
noncomputable def runFirst (c : Dev nD) (i : grid0.Coords) (a1 : Memref sig .tc .vmem S40x20000 .f32) (h1 : a1.IsWhole) (a2 : Memref sig .tc .vmem S40x20000 .f32) (h2 : a2.IsWhole) (a3 : Memref sig .tc .vmem S40x4000 .f32) (h3 : a3.IsWhole) (a4 : Memref sig .tc .vmem S40x4000 .f32) (h4 : a4.IsWhole) (a5 : Memref sig .tc .vmem S40x4000 .f32) (h5 : a5.IsWhole) (a6 : Memref sig .tc .vmem S20000x5 .f32) (h6 : a6.IsWhole) (a7 : Memref sig .tc .vmem S8x128 .f32) (h7 : a7.IsWhole)
    (hc : isFirst i) (x1 : Vec F S40x20000 .f32) (x2 : Vec F S40x20000 .f32) (x3 : Vec F S40x4000 .f32) (x4 : Vec F S40x4000 .f32) (x5 : Vec F S40x4000 .f32) (x6 : Vec F S20000x5 .f32) :
    { L : List (View.Piece (Elt F) S8x128 .f32) //
      ∀ (E : Set ℕ) (K : PUnit → sProp 𝕄),
        iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d)
            ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ f, a7.view.loc (c : Thread nD τ) ↦[a7.view.set]{fullShare} a7.view.writes (Elt F) f L)) -∗ K ⟨⟩))
          ⊢ wp frame (wpE (defs₀ (F := F)) Variants.none c none) E (cc0__loss0_kernel i a1 h1 a2 h2 a3 h3 a4 h4 a5 h5 a6 h6 a7 h7) K } := by
  refine ⟨?_, fun E K => ?run⟩
  case run =>
    simp only [cc0__loss0_kernel_eq_skeleton]; unfold cc0__loss0_kernel_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := h1.eq_unread hf1; obtain rfl := h2.eq_unread hf2; obtain rfl := h3.eq_unread hf3
    obtain rfl := h4.eq_unread hf4; obtain rfl := h5.eq_unread hf5; obtain rfl := h6.eq_unread hf6
    sl_exec (disch := first | exact hc)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    iexists _; iexact H7

end Cert.Kernel.Hand

end
-- ==== Proof.FrameK.RunLater.lean ====
/-
  The loss kernel's body at a grid point after the first. The six input staging buffers hold their blocks and are
  handed back untouched; the accumulator's staging buffer comes in holding what the point before left (`acc`) and
  goes out with six small rectangles stored over it: row 0 and row 1, columns 0..4 (the per-channel sums of squares
  and counts, each the old entry plus this block's partial sum), and the four cells of row 2, columns 0..3 (the two
  masked sums of squares and the two mask counts). Nothing else of the block is written.
-/
import proofs.«169479_j35270271434986_1_alg».proof.Proof.FrameK.Branch

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body stores into the accumulator's buffer at a later point (last store first), with the proof that
    from whole staging buffers at the given contents the body runs to its continuation holding the inputs as they
    were and the accumulator's buffer at `acc` overwritten by exactly those pieces. -/
noncomputable def runLater (c : Dev nD) (i : grid0.Coords) (a1 : Memref sig .tc .vmem S40x20000 .f32) (h1 : a1.IsWhole) (a2 : Memref sig .tc .vmem S40x20000 .f32) (h2 : a2.IsWhole) (a3 : Memref sig .tc .vmem S40x4000 .f32) (h3 : a3.IsWhole) (a4 : Memref sig .tc .vmem S40x4000 .f32) (h4 : a4.IsWhole) (a5 : Memref sig .tc .vmem S40x4000 .f32) (h5 : a5.IsWhole) (a6 : Memref sig .tc .vmem S20000x5 .f32) (h6 : a6.IsWhole) (a7 : Memref sig .tc .vmem S8x128 .f32) (h7 : a7.IsWhole)
    (hc : ¬isFirst i) (x1 : Vec F S40x20000 .f32) (x2 : Vec F S40x20000 .f32) (x3 : Vec F S40x4000 .f32) (x4 : Vec F S40x4000 .f32) (x5 : Vec F S40x4000 .f32) (x6 : Vec F S20000x5 .f32) (acc : Vec F S8x128 .f32) :
    { L : List (View.Piece (Elt F) S8x128 .f32) //
      ∀ (E : Set ℕ) (K : PUnit → sProp 𝕄),
        iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare acc
            ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (a7.view.loc (c : Thread nD τ) ↦[a7.view.set]{fullShare} a7.view.writes (Elt F) (h7.unread acc) L)) -∗ K ⟨⟩))
          ⊢ wp frame (wpE (defs₀ (F := F)) Variants.none c none) E (cc0__loss0_kernel i a1 h1 a2 h2 a3 h3 a4 h4 a5 h5 a6 h6 a7 h7) K } := by
  refine ⟨?_, fun E K => ?run⟩
  case run =>
    simp only [cc0__loss0_kernel_eq_skeleton]; unfold cc0__loss0_kernel_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := h1.eq_unread hf1; obtain rfl := h2.eq_unread hf2; obtain rfl := h3.eq_unread hf3
    obtain rfl := h4.eq_unread hf4; obtain rfl := h5.eq_unread hf5; obtain rfl := h6.eq_unread hf6
    obtain rfl := h7.eq_unread hf7
    sl_exec (disch := first | exact hc)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    iexact H7

end Cert.Kernel.Hand

end
-- ==== Proof.FrameK.Frame.lean ====
/-
  The accumulator across the grid, and the kernel program's run.

  After the first grid point the accumulator's staging buffer holds a zero block with the first block's partial sums
  added into fourteen of its cells; after every later point it holds what the point before left, with that point's
  partial sums added into the same fourteen cells. The buffer is written back to the result array once, after the
  last of the fifty points. With this as the proof data the body's obligation holds at every point — at the first
  the buffer may come in holding anything, at a later one it holds what the point before left, because it was not
  written back in between — and the launch theorem for "host lines, one launch, host lines" gives the run: every
  weakly fair execution terminates without fault, the staged arrays end at what the proof data computes, every other
  buffer at what the later host lines compute, and the five arguments end unchanged.
-/
import proofs.«169479_j35270271434986_1_alg».proof.Proof.FrameK.Around
import proofs.«169479_j35270271434986_1_alg».proof.Proof.FrameK.RunFirst
import proofs.«169479_j35270271434986_1_alg».proof.Proof.FrameK.RunLater

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the accumulator's window, through which the first point's contents are stated (the first
    point's stores cover the block, so the choice does not matter). -/
abbrev accView : View sig .tc .vmem S8x128 .f32 := (Memref.whole cc0_stg6_0 : Memref sig .tc .vmem S8x128 .f32).view

/-- The first point's stores cover the accumulator's block: the store of the zero block alone does. -/
theorem coverFirst (c : Dev nD) (i : grid0.Coords) (a1 : Memref sig .tc .vmem S40x20000 .f32) (h1 : a1.IsWhole) (a2 : Memref sig .tc .vmem S40x20000 .f32) (h2 : a2.IsWhole) (a3 : Memref sig .tc .vmem S40x4000 .f32) (h3 : a3.IsWhole) (a4 : Memref sig .tc .vmem S40x4000 .f32) (h4 : a4.IsWhole) (a5 : Memref sig .tc .vmem S40x4000 .f32) (h5 : a5.IsWhole) (a6 : Memref sig .tc .vmem S20000x5 .f32) (h6 : a6.IsWhole) (a7 : Memref sig .tc .vmem S8x128 .f32) (h7 : a7.IsWhole)
    (hc : isFirst i) (x1 : Vec F S40x20000 .f32) (x2 : Vec F S40x20000 .f32) (x3 : Vec F S40x4000 .f32) (x4 : Vec F S40x4000 .f32) (x5 : Vec F S40x4000 .f32) (x6 : Vec F S20000x5 .f32) (y : S8x128.Idx) :
    ∃ pc ∈ (runFirst c i a1 h1 a2 h2 a3 h3 a4 h4 a5 h5 a6 h6 a7 h7 hc x1 x2 x3 x4 x5 x6).1, y ∈ pc.1.set :=
  View.cover_of_tiledL (runFirst c i a1 h1 a2 h2 a3 h3 a4 h4 a5 h5 a6 h6 a7 h7 hc x1 x2 x3 x4 x5 x6).1 S8x128.size (by sl_kernel_rfl) y

/-- What the first point leaves in the accumulator's buffer: its stores read back. -/
def outFirst (c : Dev nD) (i : grid0.Coords) (a1 : Memref sig .tc .vmem S40x20000 .f32) (h1 : a1.IsWhole) (a2 : Memref sig .tc .vmem S40x20000 .f32) (h2 : a2.IsWhole) (a3 : Memref sig .tc .vmem S40x4000 .f32) (h3 : a3.IsWhole) (a4 : Memref sig .tc .vmem S40x4000 .f32) (h4 : a4.IsWhole) (a5 : Memref sig .tc .vmem S40x4000 .f32) (h5 : a5.IsWhole) (a6 : Memref sig .tc .vmem S20000x5 .f32) (h6 : a6.IsWhole) (a7 : Memref sig .tc .vmem S8x128 .f32) (h7 : a7.IsWhole)
    (hc : isFirst i) (x1 : Vec F S40x20000 .f32) (x2 : Vec F S40x20000 .f32) (x3 : Vec F S40x4000 .f32) (x4 : Vec F S40x4000 .f32) (x5 : Vec F S40x4000 .f32) (x6 : Vec F S20000x5 .f32) : Vec F S8x128 .f32 :=
  accView.read (Elt F) (accView.writes (Elt F) accView.junk (runFirst c i a1 h1 a2 h2 a3 h3 a4 h4 a5 h5 a6 h6 a7 h7 hc x1 x2 x3 x4 x5 x6).1)

/-- What a later point leaves in the accumulator's buffer, which came in holding `acc`: its six stores over `acc`,
    read back. -/
def outLater (c : Dev nD) (i : grid0.Coords) (a1 : Memref sig .tc .vmem S40x20000 .f32) (h1 : a1.IsWhole) (a2 : Memref sig .tc .vmem S40x20000 .f32) (h2 : a2.IsWhole) (a3 : Memref sig .tc .vmem S40x4000 .f32) (h3 : a3.IsWhole) (a4 : Memref sig .tc .vmem S40x4000 .f32) (h4 : a4.IsWhole) (a5 : Memref sig .tc .vmem S40x4000 .f32) (h5 : a5.IsWhole) (a6 : Memref sig .tc .vmem S20000x5 .f32) (h6 : a6.IsWhole) (a7 : Memref sig .tc .vmem S8x128 .f32) (h7 : a7.IsWhole)
    (hc : ¬isFirst i) (x1 : Vec F S40x20000 .f32) (x2 : Vec F S40x20000 .f32) (x3 : Vec F S40x4000 .f32) (x4 : Vec F S40x4000 .f32) (x5 : Vec F S40x4000 .f32) (x6 : Vec F S20000x5 .f32) (acc : Vec F S8x128 .f32) : Vec F S8x128 .f32 :=
  a7.view.read (Elt F) (a7.view.writes (Elt F) (h7.unread acc) (runLater c i a1 h1 a2 h2 a3 h3 a4 h4 a5 h5 a6 h6 a7 h7 hc x1 x2 x3 x4 x5 x6 acc).1)

/-- A point with a predecessor is not the first. -/
theorem later_of_succ {n : ℕ} (hn : n + 1 < cfg0.N) : ¬isFirst (grid0.coords ⟨n + 1, hn⟩) := fun h => by
  have h50 : n + 1 < 50 := lt_of_lt_of_eq hn N_0
  have := (isFirst_iff ⟨n + 1, hn⟩).mp h
  dsimp only at this
  omega

/-- THE ACCUMULATION: what the accumulator's staging buffer holds after the body at point `n`. -/
def accAt (c : Dev nD) : (n : ℕ) → n < cfg0.N → Vec F S8x128 .f32
  | 0, hn => outFirst c (grid0.coords ⟨0, hn⟩) (mem0 ⟨0, hn⟩) (whole0 ⟨0, hn⟩) (mem1 ⟨0, hn⟩) (whole1 ⟨0, hn⟩) (mem2 ⟨0, hn⟩) (whole2 ⟨0, hn⟩) (mem3 ⟨0, hn⟩) (whole3 ⟨0, hn⟩) (mem4 ⟨0, hn⟩) (whole4 ⟨0, hn⟩) (mem5 ⟨0, hn⟩) (whole5 ⟨0, hn⟩) (mem6 ⟨0, hn⟩) (whole6 ⟨0, hn⟩)
      ((isFirst_iff ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn => outLater c (grid0.coords ⟨n + 1, hn⟩) (mem0 ⟨n + 1, hn⟩) (whole0 ⟨n + 1, hn⟩) (mem1 ⟨n + 1, hn⟩) (whole1 ⟨n + 1, hn⟩) (mem2 ⟨n + 1, hn⟩) (whole2 ⟨n + 1, hn⟩) (mem3 ⟨n + 1, hn⟩) (whole3 ⟨n + 1, hn⟩) (mem4 ⟨n + 1, hn⟩) (whole4 ⟨n + 1, hn⟩) (mem5 ⟨n + 1, hn⟩) (whole5 ⟨n + 1, hn⟩) (mem6 ⟨n + 1, hn⟩) (whole6 ⟨n + 1, hn⟩)
      (later_of_succ hn) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (accAt c n (Nat.lt_of_succ_lt hn))

/-- At the first point. -/
theorem accAt_first (c : Dev nD) (t : Fin cfg0.N) (h0 : t.val % 50 = 0) :
    accAt m c t.val t.isLt = outFirst c (grid0.coords t) (mem0 t) (whole0 t) (mem1 t) (whole1 t) (mem2 t) (whole2 t) (mem3 t) (whole3 t) (mem4 t) (whole4 t) (mem5 t) (whole5 t) (mem6 t) (whole6 t)
      ((isFirst_iff t).mpr h0) (iblk m c 0 t) (iblk m c 1 t) (iblk m c 2 t) (iblk m c 3 t) (iblk m c 4 t) (iblk m c 5 t) := by
  obtain ⟨n, hn⟩ := t
  have h50 : n < 50 := lt_of_lt_of_eq hn N_0
  cases n with
  | zero => rfl
  | succ n => exfalso; dsimp only at h0; omega

/-- At a later point: over what the point before left. -/
theorem accAt_later (c : Dev nD) (t : Fin cfg0.N) (h0 : ¬t.val % 50 = 0) :
    accAt m c t.val t.isLt = outLater c (grid0.coords t) (mem0 t) (whole0 t) (mem1 t) (whole1 t) (mem2 t) (whole2 t) (mem3 t) (whole3 t) (mem4 t) (whole4 t) (mem5 t) (whole5 t) (mem6 t) (whole6 t)
      (fun h => h0 ((isFirst_iff t).mp h)) (iblk m c 0 t) (iblk m c 1 t) (iblk m c 2 t) (iblk m c 3 t) (iblk m c 4 t) (iblk m c 5 t)
      (accAt m c (t.val - 1) (Nat.lt_of_le_of_lt (Nat.sub_le _ _) t.isLt)) := by
  obtain ⟨n, hn⟩ := t
  cases n with
  | zero => exact absurd (Nat.zero_mod _) h0
  | succ n => rfl

/-! ## The proof data -/

/-- The arrays as the launch finds them; after the body at point `t` each input's buffer at its block and the
    accumulator's at `accAt`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = accAt m c t.val t.isLt := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-- At a later point the accumulator's staging buffer holds what the body left at the point before: the point is
    not the first, and the buffer was not written back in between (it is written back after the last point only). -/
theorem before6_later (c : Dev nD) (t : Fin cfg0.N) (h0 : ¬t.val % 50 = 0) (d) :
    (dats m 0 c).before 6 t d = accAt m c (t.val - 1) (Nat.lt_of_le_of_lt (Nat.sub_le _ _) t.isLt) := by
  have hN : t.val < 50 := lt_of_lt_of_eq t.isLt (show cfg0.N = 50 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d))
    ∗ (∃ d, owns (c : Thread nD τ) (mem6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (mem0 t) fullShare ((dats m 0 c).after 0 t)
    ∗ owns (c : Thread nD τ) (mem1 t) fullShare ((dats m 0 c).after 1 t)
    ∗ owns (c : Thread nD τ) (mem2 t) fullShare ((dats m 0 c).after 2 t)
    ∗ owns (c : Thread nD τ) (mem3 t) fullShare ((dats m 0 c).after 3 t)
    ∗ owns (c : Thread nD τ) (mem4 t) fullShare ((dats m 0 c).after 4 t)
    ∗ owns (c : Thread nD τ) (mem5 t) fullShare ((dats m 0 c).after 5 t)
    ∗ owns (c : Thread nD τ) (mem6 t) fullShare ((dats m 0 c).after 6 t))

set_option maxHeartbeats 1600000 in
/-- The body at any point: the inputs' buffers hold their blocks; at the first point the accumulator's buffer holds
    anything and the first run applies, at a later one it holds what the point before left and the later run
    applies; the invariant passes through untouched; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  have hN : t.val < 50 := lt_of_lt_of_eq t.isLt (show cfg0.N = 50 from N_0)
  by_cases h0 : t.val % 50 = 0
  · rw [accAt_first m c t h0]
    unfold outFirst
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runFirst c (grid0.coords t) _ _ _ _ _ _ _ _ _ _ _ _ _ _ ((isFirst_iff t).mpr h0) (iblk m c 0 t) (iblk m c 1 t) (iblk m c 2 t) (iblk m c 3 t) (iblk m c 4 t) (iblk m c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverFirst c _ _ _ _ _ _ _ _ _ _ _ _ _ _ _ _ _ _ _ _ _ _)
  · rw [accAt_later m c t h0]
    simp only [before6_later m c t h0]
    unfold outLater
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runLater c (grid0.coords t) _ _ _ _ _ _ _ _ _ _ _ _ _ _ (fun h => h0 ((isFirst_iff t).mp h)) (iblk m c 0 t) (iblk m c 1 t) (iblk m c 2 t) (iblk m c 3 t) (iblk m c 4 t) (iblk m c 5 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; rfl

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters: every weakly fair execution of @main terminates without fault; every staged
    array ends at what the proof data computes and every other unscoped buffer at what the later host lines compute. -/
theorem run_main : θ_run defs (onTc (τ := τ) (main (F := F))) (s₀ m ρ)
    (Pipeline.FramePost cfgs (dats m) 0 (Pipeline.afterTail₀ cfgs (dats m) 0 (V0 m) linesAfter)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := linesAfter) (hsub := after_sub) (hfresh := after_fresh) (hkeep := after_keeps)
    (hmain := hmain m Variants.none) (hA := A_eq m) (hΦ := fun _ _ => rfl)

/-- The frame: the program runs to the end, faults nowhere, and its five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.Kernel.Hand

end
-- ==== Proof.FrameKI.Lines.lean ====
/-
  The host lines of the kernel's program around its one launch, as two lists of stretches: the thirty-seven
  operations that prepare the launch's operands (the reshapes and slices of the arguments, and the one-hot channel
  selector built from an iota and a remainder), and the hundred and nine that follow it (the three root-mean-square
  terms read off the accumulator block, the segment mean of squared increments computed from the first channel and the
  rain signal, and the weighted total).
-/
import proofs.«169479_j35270271434986_1_alg».proof.Proof.Gen.KernelIdeal.Launch

noncomputable section

namespace Cert.KernelIdeal.Hand

open Idealize.ShloMosaic Idealize.SL.Sem
open Cert.KernelIdeal Cert.KernelIdeal.Gen

variable {F : FTy → Type} [FloatOps F]

/-- The stretches of host operations before the launch, in order. -/
abbrev linesBefore : List (List (HloOp τ sig (Elt F))) := [hostOps0, hostOps0_1, hostOps0_2]

/-- The stretches of host operations after the launch, in order. -/
abbrev linesAfter : List (List (HloOp τ sig (Elt F))) :=
  [hostOps1, hostOps1_1, hostOps1_2, hostOps1_3, hostOps1_4, hostOps1_5, hostOps1_6, hostOps1_7, hostOps1_8, hostOps1_9, hostOps1_10]

end Cert.KernelIdeal.Hand

end
-- ==== Proof.FrameKI.Branch.lean ====
/-
  The branch of the loss kernel's body: the accumulator block is reset exactly when the grid coordinate is 0,
  that is at the first of the 50 grid points; and the names of the seven staging memrefs the pipeline hands the
  body at a point.
-/
import proofs.«169479_j35270271434986_1_alg».proof.Proof.Gen.KernelIdeal.Launch
import proofs.«169479_j35270271434986_1_alg».proof.Proof.Gen.KernelIdeal.Skeleton
import proofs.«169479_j35270271434986_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The condition of the body's one conditional, from the grid coordinate: "the coordinate is zero". -/
abbrev isFirst (i : grid0.Coords) : Prop :=
  (Scalar.cmpi .ne (Scalar.extui (Scalar.cmpi .eq (BitVec.ofNat 32 (i 0).val) 0#32)) 0#32) = 1#1

/-- It holds at the first grid point only: decided over the 50 points. -/
theorem isFirst_iff : ∀ t : Fin cfg0.N, isFirst (grid0.coords t) ↔ t.val % 50 = 0 :=
  (by decide +kernel : ∀ t : Fin grid0.N, isFirst (grid0.coords t) ↔ t.val % 50 = 0)

/-- The staging memref of each window at point `t`, as the pipeline passes it to the body, and its wholeness. -/
abbrev mem0 (t : Fin cfg0.N) : Memref sig .tc .vmem S40x20000 .f32 := win0_0.stage (cfg0.slots t 0)
abbrev whole0 (t : Fin cfg0.N) : (mem0 t).IsWhole := hstage0_0 ((cfg0.slots t 0).cast nbuf0_0)
abbrev mem1 (t : Fin cfg0.N) : Memref sig .tc .vmem S40x20000 .f32 := win0_1.stage (cfg0.slots t 1)
abbrev whole1 (t : Fin cfg0.N) : (mem1 t).IsWhole := hstage0_1 ((cfg0.slots t 1).cast nbuf0_1)
abbrev mem2 (t : Fin cfg0.N) : Memref sig .tc .vmem S40x4000 .f32 := win0_2.stage (cfg0.slots t 2)
abbrev whole2 (t : Fin cfg0.N) : (mem2 t).IsWhole := hstage0_2 ((cfg0.slots t 2).cast nbuf0_2)
abbrev mem3 (t : Fin cfg0.N) : Memref sig .tc .vmem S40x4000 .f32 := win0_3.stage (cfg0.slots t 3)
abbrev whole3 (t : Fin cfg0.N) : (mem3 t).IsWhole := hstage0_3 ((cfg0.slots t 3).cast nbuf0_3)
abbrev mem4 (t : Fin cfg0.N) : Memref sig .tc .vmem S40x4000 .f32 := win0_4.stage (cfg0.slots t 4)
abbrev whole4 (t : Fin cfg0.N) : (mem4 t).IsWhole := hstage0_4 ((cfg0.slots t 4).cast nbuf0_4)
abbrev mem5 (t : Fin cfg0.N) : Memref sig .tc .vmem S20000x5 .f32 := win0_5.stage (cfg0.slots t 5)
abbrev whole5 (t : Fin cfg0.N) : (mem5 t).IsWhole := hstage0_5 ((cfg0.slots t 5).cast nbuf0_5)
abbrev mem6 (t : Fin cfg0.N) : Memref sig .tc .vmem S8x128 .f32 := win0_6.stage (cfg0.slots t 6)
abbrev whole6 (t : Fin cfg0.N) : (mem6 t).IsWhole := hstage0_6 ((cfg0.slots t 6).cast nbuf0_6)

end Cert.KernelIdeal.Hand

end
-- ==== Proof.FrameKI.Around.lean ====
/-
  The kernel's program around its launch. Before the launch thirty-seven host operations prepare the operands; none
  of them writes an argument array, so the launch finds the five arguments as the program was started with them.
  After it, a hundred and nine operations read the accumulator block and the arguments; each writes only its own
  result buffer, which is neither an argument nor an array the launch stages, allocates nothing, and touches only
  buffers that bypass the launch or arrays it staged. These are the side conditions under which the launch theorem
  for "host lines, one launch, host lines" applies, and under which the program's five arguments end unchanged.
-/
import proofs.«169479_j35270271434986_1_alg».proof.Proof.FrameKI.Lines
import proofs.«169479_j35270271434986_1_alg».proof.Proof.FrameKI.Branch
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the launch finds -/

/-- Core `c`'s buffers when the launch is entered, as a valuation: the start contents after the earlier lines. -/
abbrev V0 (c : Dev nD) : Valuation τ sig (Elt F) := StableHlo.after (List.flatten linesBefore) (fun b => m (c, b))
/-- The same read at a TensorCore reference. -/
abbrev V (c : Dev nD) (b : Ref sig .tc) : Buf (Elt F) ((c : Thread nD τ).loc b) := V0 m c (Proc.devRef .tc b)

/-- The program's five argument arrays. -/
abbrev argRef : Fin 5 → Ref sig .tc := ![main_arg0, main_arg1, main_arg2, main_arg3, main_arg4]

/-! ## Each stretch: allocates nothing, writes no staged array, writes no argument -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor

theorem hostOps1_keeps : (hostOps1 : List (HloOp τ sig (Elt F))).Forall fun op => ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_1_keeps : (hostOps1_1 : List (HloOp τ sig (Elt F))).Forall fun op => ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_2_keeps : (hostOps1_2 : List (HloOp τ sig (Elt F))).Forall fun op => ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_3_keeps : (hostOps1_3 : List (HloOp τ sig (Elt F))).Forall fun op => ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_4_keeps : (hostOps1_4 : List (HloOp τ sig (Elt F))).Forall fun op => ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_5_keeps : (hostOps1_5 : List (HloOp τ sig (Elt F))).Forall fun op => ∀ w, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_6_keeps : (hostOps1_6 : List (HloOp τ sig (Elt F))).Forall fun op => ∀ w, Proc.devRef .tc (Pipeline.arrRef spec0 w) ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_7_keeps : (hostOps1_7 : List (HloOp τ sig (Elt F))).Forall fun op => ∀ w, Proc.devRef .tc (Pipeline.arrRef spec0 w) ∉ op.writes := by
  simp only [hostOps1_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_8_keeps : (hostOps1_8 : List (HloOp τ sig (Elt F))).Forall fun op => ∀ w, Proc.devRef .tc (Pipeline.arrRef spec0 w) ∉ op.writes := by
  simp only [hostOps1_8, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_9_keeps : (hostOps1_9 : List (HloOp τ sig (Elt F))).Forall fun op => ∀ w, Proc.devRef .tc (Pipeline.arrRef spec0 w) ∉ op.writes := by
  simp only [hostOps1_9, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_10_keeps : (hostOps1_10 : List (HloOp τ sig (Elt F))).Forall fun op => ∀ w, Proc.devRef .tc (Pipeline.arrRef spec0 w) ∉ op.writes := by
  simp only [hostOps1_10, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

theorem hostOps0_args : (hostOps0 : List (HloOp τ sig (Elt F))).Forall fun op => ∀ k : Fin 5, Proc.devRef .tc (argRef k) ∉ op.writes := by
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; fin_cases k <;> exact StableHlo.devRef_ne_of_ne (by decide))
theorem hostOps0_1_args : (hostOps0_1 : List (HloOp τ sig (Elt F))).Forall fun op => ∀ k : Fin 5, Proc.devRef .tc (argRef k) ∉ op.writes := by
  simp only [hostOps0_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; fin_cases k <;> exact StableHlo.devRef_ne_of_ne (by decide))
theorem hostOps0_2_args : (hostOps0_2 : List (HloOp τ sig (Elt F))).Forall fun op => ∀ k : Fin 5, Proc.devRef .tc (argRef k) ∉ op.writes := by
  simp only [hostOps0_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; fin_cases k <;> exact StableHlo.devRef_ne_of_ne (by decide))
theorem hostOps1_args : (hostOps1 : List (HloOp τ sig (Elt F))).Forall fun op => ∀ k : Fin 5, Proc.devRef .tc (argRef k) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; fin_cases k <;> exact StableHlo.devRef_ne_of_ne (by decide))
theorem hostOps1_1_args : (hostOps1_1 : List (HloOp τ sig (Elt F))).Forall fun op => ∀ k : Fin 5, Proc.devRef .tc (argRef k) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; fin_cases k <;> exact StableHlo.devRef_ne_of_ne (by decide))
theorem hostOps1_2_args : (hostOps1_2 : List (HloOp τ sig (Elt F))).Forall fun op => ∀ k : Fin 5, Proc.devRef .tc (argRef k) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; fin_cases k <;> exact StableHlo.devRef_ne_of_ne (by decide))
theorem hostOps1_3_args : (hostOps1_3 : List (HloOp τ sig (Elt F))).Forall fun op => ∀ k : Fin 5, Proc.devRef .tc (argRef k) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; fin_cases k <;> exact StableHlo.devRef_ne_of_ne (by decide))
theorem hostOps1_4_args : (hostOps1_4 : List (HloOp τ sig (Elt F))).Forall fun op => ∀ k : Fin 5, Proc.devRef .tc (argRef k) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; fin_cases k <;> exact StableHlo.devRef_ne_of_ne (by decide))
theorem hostOps1_5_args : (hostOps1_5 : List (HloOp τ sig (Elt F))).Forall fun op => ∀ k : Fin 5, Proc.devRef .tc (argRef k) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; fin_cases k <;> exact StableHlo.devRef_ne_of_ne (by decide))
theorem hostOps1_6_args : (hostOps1_6 : List (HloOp τ sig (Elt F))).Forall fun op => ∀ k : Fin 5, Proc.devRef .tc (argRef k) ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; fin_cases k <;> exact StableHlo.devRef_ne_of_ne (by decide))
theorem hostOps1_7_args : (hostOps1_7 : List (HloOp τ sig (Elt F))).Forall fun op => ∀ k : Fin 5, Proc.devRef .tc (argRef k) ∉ op.writes := by
  simp only [hostOps1_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; fin_cases k <;> exact StableHlo.devRef_ne_of_ne (by decide))
theorem hostOps1_8_args : (hostOps1_8 : List (HloOp τ sig (Elt F))).Forall fun op => ∀ k : Fin 5, Proc.devRef .tc (argRef k) ∉ op.writes := by
  simp only [hostOps1_8, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; fin_cases k <;> exact StableHlo.devRef_ne_of_ne (by decide))
theorem hostOps1_9_args : (hostOps1_9 : List (HloOp τ sig (Elt F))).Forall fun op => ∀ k : Fin 5, Proc.devRef .tc (argRef k) ∉ op.writes := by
  simp only [hostOps1_9, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; fin_cases k <;> exact StableHlo.devRef_ne_of_ne (by decide))
theorem hostOps1_10_args : (hostOps1_10 : List (HloOp τ sig (Elt F))).Forall fun op => ∀ k : Fin 5, Proc.devRef .tc (argRef k) ∉ op.writes := by
  simp only [hostOps1_10, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; fin_cases k <;> exact StableHlo.devRef_ne_of_ne (by decide))

/-- A property of every operation of every later stretch, from the property stretch by stretch. -/
theorem forall_linesAfter {p : HloOp τ sig (Elt F) → Prop}
    (h0 : (hostOps1 : List (HloOp τ sig (Elt F))).Forall p) (h1 : (hostOps1_1 : List (HloOp τ sig (Elt F))).Forall p) (h2 : (hostOps1_2 : List (HloOp τ sig (Elt F))).Forall p) (h3 : (hostOps1_3 : List (HloOp τ sig (Elt F))).Forall p) (h4 : (hostOps1_4 : List (HloOp τ sig (Elt F))).Forall p) (h5 : (hostOps1_5 : List (HloOp τ sig (Elt F))).Forall p) (h6 : (hostOps1_6 : List (HloOp τ sig (Elt F))).Forall p) (h7 : (hostOps1_7 : List (HloOp τ sig (Elt F))).Forall p) (h8 : (hostOps1_8 : List (HloOp τ sig (Elt F))).Forall p) (h9 : (hostOps1_9 : List (HloOp τ sig (Elt F))).Forall p) (h10 : (hostOps1_10 : List (HloOp τ sig (Elt F))).Forall p) :
    ∀ ops ∈ (linesAfter : List (List (HloOp τ sig (Elt F)))), ∀ op ∈ ops, p op := by
  intro ops hops op hop
  simp only [List.mem_cons, List.mem_nil_iff, or_false] at hops
  rcases hops with rfl | rfl | rfl | rfl | rfl | rfl | rfl | rfl | rfl | rfl | rfl
  · exact (List.forall_iff_forall_mem.mp h0) op hop
  · exact (List.forall_iff_forall_mem.mp h1) op hop
  · exact (List.forall_iff_forall_mem.mp h2) op hop
  · exact (List.forall_iff_forall_mem.mp h3) op hop
  · exact (List.forall_iff_forall_mem.mp h4) op hop
  · exact (List.forall_iff_forall_mem.mp h5) op hop
  · exact (List.forall_iff_forall_mem.mp h6) op hop
  · exact (List.forall_iff_forall_mem.mp h7) op hop
  · exact (List.forall_iff_forall_mem.mp h8) op hop
  · exact (List.forall_iff_forall_mem.mp h9) op hop
  · exact (List.forall_iff_forall_mem.mp h10) op hop

/-! ## @main is: the earlier lines, the launch, the later lines -/

theorem hmain (𝒱₀ : Variants) : Pipeline.HMainK (Ix := Unit) (Name := ℕ) (U := UR sig nD τ) (Lvl := ℕ) cfgs 0 defs₀ 𝒱₀ m (main (F := F)) (V m)
      (fun _ => Pipeline.chain ((linesAfter (F := F)).map StableHlo.seq)) :=
  Pipeline.hmain_around cfgs 0 defs₀ 𝒱₀ m main linesBefore linesAfter
    (by simp only [List.Forall]; exact ⟨hostOps0_sub, hostOps0_1_sub, hostOps0_2_sub⟩)
    (by simp only [List.Forall]; exact ⟨hostOps0_fresh, hostOps0_1_fresh, hostOps0_2_fresh⟩) main_chain

/-- The later lines touch only arrays the launch staged and buffers that bypass it. -/
theorem after_sub : ∀ ops ∈ (linesAfter : List (List (HloOp τ sig (Elt F)))), ∀ op ∈ ops,
    op.bufs ⊆ Pipeline.tailRefs sig Pipeline.Prefetch.none spec0 := by
  rw [Pipeline.tailRefs_none spec0 launch0.win.arr_unscoped]
  exact forall_linesAfter
    ((List.forall_iff_forall_mem.mpr fun op hop => Pipeline.sub_ucRefs op ((List.forall_iff_forall_mem.mp hostOps1_sub) op hop)))
    ((List.forall_iff_forall_mem.mpr fun op hop => Pipeline.sub_ucRefs op ((List.forall_iff_forall_mem.mp hostOps1_1_sub) op hop)))
    ((List.forall_iff_forall_mem.mpr fun op hop => Pipeline.sub_ucRefs op ((List.forall_iff_forall_mem.mp hostOps1_2_sub) op hop)))
    ((List.forall_iff_forall_mem.mpr fun op hop => Pipeline.sub_ucRefs op ((List.forall_iff_forall_mem.mp hostOps1_3_sub) op hop)))
    ((List.forall_iff_forall_mem.mpr fun op hop => Pipeline.sub_ucRefs op ((List.forall_iff_forall_mem.mp hostOps1_4_sub) op hop)))
    ((List.forall_iff_forall_mem.mpr fun op hop => Pipeline.sub_ucRefs op ((List.forall_iff_forall_mem.mp hostOps1_5_sub) op hop)))
    ((List.forall_iff_forall_mem.mpr fun op hop => Pipeline.sub_ucRefs op ((List.forall_iff_forall_mem.mp hostOps1_6_sub) op hop)))
    ((List.forall_iff_forall_mem.mpr fun op hop => Pipeline.sub_ucRefs op ((List.forall_iff_forall_mem.mp hostOps1_7_sub) op hop)))
    ((List.forall_iff_forall_mem.mpr fun op hop => Pipeline.sub_ucRefs op ((List.forall_iff_forall_mem.mp hostOps1_8_sub) op hop)))
    ((List.forall_iff_forall_mem.mpr fun op hop => Pipeline.sub_ucRefs op ((List.forall_iff_forall_mem.mp hostOps1_9_sub) op hop)))
    ((List.forall_iff_forall_mem.mpr fun op hop => Pipeline.sub_ucRefs op ((List.forall_iff_forall_mem.mp hostOps1_10_sub) op hop)))
/-- They allocate nothing. -/
theorem after_fresh : ∀ ops ∈ (linesAfter : List (List (HloOp τ sig (Elt F)))), ∀ op ∈ ops, op.fresh = ∅ :=
  forall_linesAfter hostOps1_fresh hostOps1_1_fresh hostOps1_2_fresh hostOps1_3_fresh hostOps1_4_fresh hostOps1_5_fresh hostOps1_6_fresh hostOps1_7_fresh hostOps1_8_fresh hostOps1_9_fresh hostOps1_10_fresh
/-- And write no array the launch staged. -/
theorem after_keeps : ∀ ops ∈ (linesAfter : List (List (HloOp τ sig (Elt F)))), ∀ op ∈ ops,
    ∀ w, Proc.devRef .tc (Pipeline.arrRef spec0 w) ∉ op.writes :=
  forall_linesAfter hostOps1_keeps hostOps1_1_keeps hostOps1_2_keeps hostOps1_3_keeps hostOps1_4_keeps hostOps1_5_keeps hostOps1_6_keeps hostOps1_7_keeps hostOps1_8_keeps hostOps1_9_keeps hostOps1_10_keeps

/-! ## The arguments are never written -/

/-- No earlier line writes an argument: the launch finds it as the program was started with it. -/
theorem V_arg (c : Dev nD) (k : Fin 5) : V m c (argRef k) = m ((c : Thread nD τ).loc (argRef k)) :=
  StableHlo.after_of_forall_not_mem (b := Proc.devRef .tc (argRef k)) _ _ (by
    intro op hop
    simp only [linesBefore, List.flatten_cons, List.flatten_nil, List.append_nil, List.mem_append] at hop
    rcases hop with hop | hop | hop
    · exact (List.forall_iff_forall_mem.mp hostOps0_args) op hop k
    · exact (List.forall_iff_forall_mem.mp hostOps0_1_args) op hop k
    · exact (List.forall_iff_forall_mem.mp hostOps0_2_args) op hop k)

/-- No later line writes an argument either: it ends as the program was started with it. -/
theorem W_arg (dats : (p : Fin _) → (c : Dev nD) → Dat τ (Elt F) Unit ℕ (UR sig nD τ) ℕ (cfgs p) c) (c : Dev nD) (k : Fin 5) :
    Pipeline.afterTail₀ cfgs dats 0 (V0 m) linesAfter c (argRef k) = m ((c : Thread nD τ).loc (argRef k)) := by
  unfold Pipeline.afterTail₀
  rw [StableHlo.after_of_forall_not_mem (b := Proc.devRef .tc (argRef k)) _ _ (by
      intro op hop
      obtain ⟨ops, hops, hop'⟩ := List.mem_flatten.mp hop
      exact forall_linesAfter (p := fun op => ∀ k : Fin 5, Proc.devRef .tc (argRef k) ∉ op.writes)
        hostOps1_args hostOps1_1_args hostOps1_2_args hostOps1_3_args hostOps1_4_args hostOps1_5_args hostOps1_6_args hostOps1_7_args hostOps1_8_args hostOps1_9_args hostOps1_10_args ops hops op hop' k),
    Pipeline.withArrays_of_ne _ c (V0 m c) _ (argRef k) (by
      revert k; exact (by decide : ∀ (k : Fin 5) (w : Fin 7), Pipeline.arrRef spec0 w ≠ argRef k))]
  exact V_arg m c k

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the launch-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the launch-entry contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the launch-entry contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is the launch-entry contents and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof data
    whose array is the launch-entry contents and whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof data
    whose array is the launch-entry contents and whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## From the launch theorem's conclusion to "the arguments end unchanged" -/

theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) linesAfter))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (W_arg m dats c 0),
     ((h c).2 main_arg1 (Pipeline.mem_restRefs_of main_arg1 (by decide) (by decide))).trans (W_arg m dats c 1),
     ((h c).2 main_arg2 (Pipeline.mem_restRefs_of main_arg2 (by decide) (by decide))).trans (W_arg m dats c 2),
     ((h c).2 main_arg3 (Pipeline.mem_restRefs_of main_arg3 (by decide) (by decide))).trans (W_arg m dats c 3),
     ((h c).2 main_arg4 (Pipeline.mem_restRefs_of main_arg4 (by decide) (by decide))).trans (W_arg m dats c 4)⟩) h

end Cert.KernelIdeal.Hand

end
-- ==== Proof.FrameKI.RunFirst.lean ====
/-
  The loss kernel's body at the first grid point. The accumulator's staging buffer comes in holding anything; the
  body first stores zeros over the whole 8×128 block, then stores the same six small rectangles as at every other
  point — rows 0 and 1 at columns 0..4, and the four cells of row 2 at columns 0..3 — each now the zero just
  stored plus this block's partial sum. The six input staging buffers are handed back untouched.
-/
import proofs.«169479_j35270271434986_1_alg».proof.Proof.FrameKI.Branch

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body stores into the accumulator's buffer at the first point (last store first; the whole-block
    store of zeros is the last entry), with the proof that from whole staging buffers — the inputs at the given
    contents, the accumulator at anything — the body runs to its continuation holding the inputs as they were and the
    accumulator's buffer overwritten by those pieces. -/
noncomputable def runFirst (c : Dev nD) (i : grid0.Coords) (a1 : Memref sig .tc .vmem S40x20000 .f32) (h1 : a1.IsWhole) (a2 : Memref sig .tc .vmem S40x20000 .f32) (h2 : a2.IsWhole) (a3 : Memref sig .tc .vmem S40x4000 .f32) (h3 : a3.IsWhole) (a4 : Memref sig .tc .vmem S40x4000 .f32) (h4 : a4.IsWhole) (a5 : Memref sig .tc .vmem S40x4000 .f32) (h5 : a5.IsWhole) (a6 : Memref sig .tc .vmem S20000x5 .f32) (h6 : a6.IsWhole) (a7 : Memref sig .tc .vmem S8x128 .f32) (h7 : a7.IsWhole)
    (hc : isFirst i) (x1 : Vec F S40x20000 .f32) (x2 : Vec F S40x20000 .f32) (x3 : Vec F S40x4000 .f32) (x4 : Vec F S40x4000 .f32) (x5 : Vec F S40x4000 .f32) (x6 : Vec F S20000x5 .f32) :
    { L : List (View.Piece (Elt F) S8x128 .f32) //
      ∀ (E : Set ℕ) (K : PUnit → sProp 𝕄),
        iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d)
            ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ f, a7.view.loc (c : Thread nD τ) ↦[a7.view.set]{fullShare} a7.view.writes (Elt F) f L)) -∗ K ⟨⟩))
          ⊢ wp frame (wpE (defs₀ (F := F)) Variants.none c none) E (cc0__loss0_kernel i a1 h1 a2 h2 a3 h3 a4 h4 a5 h5 a6 h6 a7 h7) K } := by
  refine ⟨?_, fun E K => ?run⟩
  case run =>
    simp only [cc0__loss0_kernel_eq_skeleton]; unfold cc0__loss0_kernel_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := h1.eq_unread hf1; obtain rfl := h2.eq_unread hf2; obtain rfl := h3.eq_unread hf3
    obtain rfl := h4.eq_unread hf4; obtain rfl := h5.eq_unread hf5; obtain rfl := h6.eq_unread hf6
    sl_exec (disch := first | exact hc)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    iexists _; iexact H7

end Cert.KernelIdeal.Hand

end
-- ==== Proof.FrameKI.RunLater.lean ====
/-
  The loss kernel's body at a grid point after the first. The six input staging buffers hold their blocks and are
  handed back untouched; the accumulator's staging buffer comes in holding what the point before left (`acc`) and
  goes out with six small rectangles stored over it: row 0 and row 1, columns 0..4 (the per-channel sums of squares
  and counts, each the old entry plus this block's partial sum), and the four cells of row 2, columns 0..3 (the two
  masked sums of squares and the two mask counts). Nothing else of the block is written.
-/
import proofs.«169479_j35270271434986_1_alg».proof.Proof.FrameKI.Branch

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body stores into the accumulator's buffer at a later point (last store first), with the proof that
    from whole staging buffers at the given contents the body runs to its continuation holding the inputs as they
    were and the accumulator's buffer at `acc` overwritten by exactly those pieces. -/
noncomputable def runLater (c : Dev nD) (i : grid0.Coords) (a1 : Memref sig .tc .vmem S40x20000 .f32) (h1 : a1.IsWhole) (a2 : Memref sig .tc .vmem S40x20000 .f32) (h2 : a2.IsWhole) (a3 : Memref sig .tc .vmem S40x4000 .f32) (h3 : a3.IsWhole) (a4 : Memref sig .tc .vmem S40x4000 .f32) (h4 : a4.IsWhole) (a5 : Memref sig .tc .vmem S40x4000 .f32) (h5 : a5.IsWhole) (a6 : Memref sig .tc .vmem S20000x5 .f32) (h6 : a6.IsWhole) (a7 : Memref sig .tc .vmem S8x128 .f32) (h7 : a7.IsWhole)
    (hc : ¬isFirst i) (x1 : Vec F S40x20000 .f32) (x2 : Vec F S40x20000 .f32) (x3 : Vec F S40x4000 .f32) (x4 : Vec F S40x4000 .f32) (x5 : Vec F S40x4000 .f32) (x6 : Vec F S20000x5 .f32) (acc : Vec F S8x128 .f32) :
    { L : List (View.Piece (Elt F) S8x128 .f32) //
      ∀ (E : Set ℕ) (K : PUnit → sProp 𝕄),
        iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare acc
            ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (a7.view.loc (c : Thread nD τ) ↦[a7.view.set]{fullShare} a7.view.writes (Elt F) (h7.unread acc) L)) -∗ K ⟨⟩))
          ⊢ wp frame (wpE (defs₀ (F := F)) Variants.none c none) E (cc0__loss0_kernel i a1 h1 a2 h2 a3 h3 a4 h4 a5 h5 a6 h6 a7 h7) K } := by
  refine ⟨?_, fun E K => ?run⟩
  case run =>
    simp only [cc0__loss0_kernel_eq_skeleton]; unfold cc0__loss0_kernel_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := h1.eq_unread hf1; obtain rfl := h2.eq_unread hf2; obtain rfl := h3.eq_unread hf3
    obtain rfl := h4.eq_unread hf4; obtain rfl := h5.eq_unread hf5; obtain rfl := h6.eq_unread hf6
    obtain rfl := h7.eq_unread hf7
    sl_exec (disch := first | exact hc)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    iexact H7

end Cert.KernelIdeal.Hand

end
-- ==== Proof.FrameKI.Frame.lean ====
/-
  The accumulator across the grid, and the kernel program's run.

  After the first grid point the accumulator's staging buffer holds a zero block with the first block's partial sums
  added into fourteen of its cells; after every later point it holds what the point before left, with that point's
  partial sums added into the same fourteen cells. The buffer is written back to the result array once, after the
  last of the fifty points. With this as the proof data the body's obligation holds at every point — at the first
  the buffer may come in holding anything, at a later one it holds what the point before left, because it was not
  written back in between — and the launch theorem for "host lines, one launch, host lines" gives the run: every
  weakly fair execution terminates without fault, the staged arrays end at what the proof data computes, every other
  buffer at what the later host lines compute, and the five arguments end unchanged.
-/
import proofs.«169479_j35270271434986_1_alg».proof.Proof.FrameKI.Around
import proofs.«169479_j35270271434986_1_alg».proof.Proof.FrameKI.RunFirst
import proofs.«169479_j35270271434986_1_alg».proof.Proof.FrameKI.RunLater

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the accumulator's window, through which the first point's contents are stated (the first
    point's stores cover the block, so the choice does not matter). -/
abbrev accView : View sig .tc .vmem S8x128 .f32 := (Memref.whole cc0_stg6_0 : Memref sig .tc .vmem S8x128 .f32).view

/-- The first point's stores cover the accumulator's block: the store of the zero block alone does. -/
theorem coverFirst (c : Dev nD) (i : grid0.Coords) (a1 : Memref sig .tc .vmem S40x20000 .f32) (h1 : a1.IsWhole) (a2 : Memref sig .tc .vmem S40x20000 .f32) (h2 : a2.IsWhole) (a3 : Memref sig .tc .vmem S40x4000 .f32) (h3 : a3.IsWhole) (a4 : Memref sig .tc .vmem S40x4000 .f32) (h4 : a4.IsWhole) (a5 : Memref sig .tc .vmem S40x4000 .f32) (h5 : a5.IsWhole) (a6 : Memref sig .tc .vmem S20000x5 .f32) (h6 : a6.IsWhole) (a7 : Memref sig .tc .vmem S8x128 .f32) (h7 : a7.IsWhole)
    (hc : isFirst i) (x1 : Vec F S40x20000 .f32) (x2 : Vec F S40x20000 .f32) (x3 : Vec F S40x4000 .f32) (x4 : Vec F S40x4000 .f32) (x5 : Vec F S40x4000 .f32) (x6 : Vec F S20000x5 .f32) (y : S8x128.Idx) :
    ∃ pc ∈ (runFirst c i a1 h1 a2 h2 a3 h3 a4 h4 a5 h5 a6 h6 a7 h7 hc x1 x2 x3 x4 x5 x6).1, y ∈ pc.1.set :=
  View.cover_of_tiledL (runFirst c i a1 h1 a2 h2 a3 h3 a4 h4 a5 h5 a6 h6 a7 h7 hc x1 x2 x3 x4 x5 x6).1 S8x128.size (by sl_kernel_rfl) y

/-- What the first point leaves in the accumulator's buffer: its stores read back. -/
def outFirst (c : Dev nD) (i : grid0.Coords) (a1 : Memref sig .tc .vmem S40x20000 .f32) (h1 : a1.IsWhole) (a2 : Memref sig .tc .vmem S40x20000 .f32) (h2 : a2.IsWhole) (a3 : Memref sig .tc .vmem S40x4000 .f32) (h3 : a3.IsWhole) (a4 : Memref sig .tc .vmem S40x4000 .f32) (h4 : a4.IsWhole) (a5 : Memref sig .tc .vmem S40x4000 .f32) (h5 : a5.IsWhole) (a6 : Memref sig .tc .vmem S20000x5 .f32) (h6 : a6.IsWhole) (a7 : Memref sig .tc .vmem S8x128 .f32) (h7 : a7.IsWhole)
    (hc : isFirst i) (x1 : Vec F S40x20000 .f32) (x2 : Vec F S40x20000 .f32) (x3 : Vec F S40x4000 .f32) (x4 : Vec F S40x4000 .f32) (x5 : Vec F S40x4000 .f32) (x6 : Vec F S20000x5 .f32) : Vec F S8x128 .f32 :=
  accView.read (Elt F) (accView.writes (Elt F) accView.junk (runFirst c i a1 h1 a2 h2 a3 h3 a4 h4 a5 h5 a6 h6 a7 h7 hc x1 x2 x3 x4 x5 x6).1)

/-- What a later point leaves in the accumulator's buffer, which came in holding `acc`: its six stores over `acc`,
    read back. -/
def outLater (c : Dev nD) (i : grid0.Coords) (a1 : Memref sig .tc .vmem S40x20000 .f32) (h1 : a1.IsWhole) (a2 : Memref sig .tc .vmem S40x20000 .f32) (h2 : a2.IsWhole) (a3 : Memref sig .tc .vmem S40x4000 .f32) (h3 : a3.IsWhole) (a4 : Memref sig .tc .vmem S40x4000 .f32) (h4 : a4.IsWhole) (a5 : Memref sig .tc .vmem S40x4000 .f32) (h5 : a5.IsWhole) (a6 : Memref sig .tc .vmem S20000x5 .f32) (h6 : a6.IsWhole) (a7 : Memref sig .tc .vmem S8x128 .f32) (h7 : a7.IsWhole)
    (hc : ¬isFirst i) (x1 : Vec F S40x20000 .f32) (x2 : Vec F S40x20000 .f32) (x3 : Vec F S40x4000 .f32) (x4 : Vec F S40x4000 .f32) (x5 : Vec F S40x4000 .f32) (x6 : Vec F S20000x5 .f32) (acc : Vec F S8x128 .f32) : Vec F S8x128 .f32 :=
  a7.view.read (Elt F) (a7.view.writes (Elt F) (h7.unread acc) (runLater c i a1 h1 a2 h2 a3 h3 a4 h4 a5 h5 a6 h6 a7 h7 hc x1 x2 x3 x4 x5 x6 acc).1)

/-- A point with a predecessor is not the first. -/
theorem later_of_succ {n : ℕ} (hn : n + 1 < cfg0.N) : ¬isFirst (grid0.coords ⟨n + 1, hn⟩) := fun h => by
  have h50 : n + 1 < 50 := lt_of_lt_of_eq hn N_0
  have := (isFirst_iff ⟨n + 1, hn⟩).mp h
  dsimp only at this
  omega

/-- THE ACCUMULATION: what the accumulator's staging buffer holds after the body at point `n`. -/
def accAt (c : Dev nD) : (n : ℕ) → n < cfg0.N → Vec F S8x128 .f32
  | 0, hn => outFirst c (grid0.coords ⟨0, hn⟩) (mem0 ⟨0, hn⟩) (whole0 ⟨0, hn⟩) (mem1 ⟨0, hn⟩) (whole1 ⟨0, hn⟩) (mem2 ⟨0, hn⟩) (whole2 ⟨0, hn⟩) (mem3 ⟨0, hn⟩) (whole3 ⟨0, hn⟩) (mem4 ⟨0, hn⟩) (whole4 ⟨0, hn⟩) (mem5 ⟨0, hn⟩) (whole5 ⟨0, hn⟩) (mem6 ⟨0, hn⟩) (whole6 ⟨0, hn⟩)
      ((isFirst_iff ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn => outLater c (grid0.coords ⟨n + 1, hn⟩) (mem0 ⟨n + 1, hn⟩) (whole0 ⟨n + 1, hn⟩) (mem1 ⟨n + 1, hn⟩) (whole1 ⟨n + 1, hn⟩) (mem2 ⟨n + 1, hn⟩) (whole2 ⟨n + 1, hn⟩) (mem3 ⟨n + 1, hn⟩) (whole3 ⟨n + 1, hn⟩) (mem4 ⟨n + 1, hn⟩) (whole4 ⟨n + 1, hn⟩) (mem5 ⟨n + 1, hn⟩) (whole5 ⟨n + 1, hn⟩) (mem6 ⟨n + 1, hn⟩) (whole6 ⟨n + 1, hn⟩)
      (later_of_succ hn) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (accAt c n (Nat.lt_of_succ_lt hn))

/-- At the first point. -/
theorem accAt_first (c : Dev nD) (t : Fin cfg0.N) (h0 : t.val % 50 = 0) :
    accAt m c t.val t.isLt = outFirst c (grid0.coords t) (mem0 t) (whole0 t) (mem1 t) (whole1 t) (mem2 t) (whole2 t) (mem3 t) (whole3 t) (mem4 t) (whole4 t) (mem5 t) (whole5 t) (mem6 t) (whole6 t)
      ((isFirst_iff t).mpr h0) (iblk m c 0 t) (iblk m c 1 t) (iblk m c 2 t) (iblk m c 3 t) (iblk m c 4 t) (iblk m c 5 t) := by
  obtain ⟨n, hn⟩ := t
  have h50 : n < 50 := lt_of_lt_of_eq hn N_0
  cases n with
  | zero => rfl
  | succ n => exfalso; dsimp only at h0; omega

/-- At a later point: over what the point before left. -/
theorem accAt_later (c : Dev nD) (t : Fin cfg0.N) (h0 : ¬t.val % 50 = 0) :
    accAt m c t.val t.isLt = outLater c (grid0.coords t) (mem0 t) (whole0 t) (mem1 t) (whole1 t) (mem2 t) (whole2 t) (mem3 t) (whole3 t) (mem4 t) (whole4 t) (mem5 t) (whole5 t) (mem6 t) (whole6 t)
      (fun h => h0 ((isFirst_iff t).mp h)) (iblk m c 0 t) (iblk m c 1 t) (iblk m c 2 t) (iblk m c 3 t) (iblk m c 4 t) (iblk m c 5 t)
      (accAt m c (t.val - 1) (Nat.lt_of_le_of_lt (Nat.sub_le _ _) t.isLt)) := by
  obtain ⟨n, hn⟩ := t
  cases n with
  | zero => exact absurd (Nat.zero_mod _) h0
  | succ n => rfl

/-! ## The proof data -/

/-- The arrays as the launch finds them; after the body at point `t` each input's buffer at its block and the
    accumulator's at `accAt`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = accAt m c t.val t.isLt := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-- At a later point the accumulator's staging buffer holds what the body left at the point before: the point is
    not the first, and the buffer was not written back in between (it is written back after the last point only). -/
theorem before6_later (c : Dev nD) (t : Fin cfg0.N) (h0 : ¬t.val % 50 = 0) (d) :
    (dats m 0 c).before 6 t d = accAt m c (t.val - 1) (Nat.lt_of_le_of_lt (Nat.sub_le _ _) t.isLt) := by
  have hN : t.val < 50 := lt_of_lt_of_eq t.isLt (show cfg0.N = 50 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d))
    ∗ (∃ d, owns (c : Thread nD τ) (mem6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (mem0 t) fullShare ((dats m 0 c).after 0 t)
    ∗ owns (c : Thread nD τ) (mem1 t) fullShare ((dats m 0 c).after 1 t)
    ∗ owns (c : Thread nD τ) (mem2 t) fullShare ((dats m 0 c).after 2 t)
    ∗ owns (c : Thread nD τ) (mem3 t) fullShare ((dats m 0 c).after 3 t)
    ∗ owns (c : Thread nD τ) (mem4 t) fullShare ((dats m 0 c).after 4 t)
    ∗ owns (c : Thread nD τ) (mem5 t) fullShare ((dats m 0 c).after 5 t)
    ∗ owns (c : Thread nD τ) (mem6 t) fullShare ((dats m 0 c).after 6 t))

set_option maxHeartbeats 1600000 in
/-- The body at any point: the inputs' buffers hold their blocks; at the first point the accumulator's buffer holds
    anything and the first run applies, at a later one it holds what the point before left and the later run
    applies; the invariant passes through untouched; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  have hN : t.val < 50 := lt_of_lt_of_eq t.isLt (show cfg0.N = 50 from N_0)
  by_cases h0 : t.val % 50 = 0
  · rw [accAt_first m c t h0]
    unfold outFirst
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runFirst c (grid0.coords t) _ _ _ _ _ _ _ _ _ _ _ _ _ _ ((isFirst_iff t).mpr h0) (iblk m c 0 t) (iblk m c 1 t) (iblk m c 2 t) (iblk m c 3 t) (iblk m c 4 t) (iblk m c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverFirst c _ _ _ _ _ _ _ _ _ _ _ _ _ _ _ _ _ _ _ _ _ _)
  · rw [accAt_later m c t h0]
    simp only [before6_later m c t h0]
    unfold outLater
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runLater c (grid0.coords t) _ _ _ _ _ _ _ _ _ _ _ _ _ _ (fun h => h0 ((isFirst_iff t).mp h)) (iblk m c 0 t) (iblk m c 1 t) (iblk m c 2 t) (iblk m c 3 t) (iblk m c 4 t) (iblk m c 5 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; rfl

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters: every weakly fair execution of @main terminates without fault; every staged
    array ends at what the proof data computes and every other unscoped buffer at what the later host lines compute. -/
theorem run_main : θ_run defs (onTc (τ := τ) (main (F := F))) (s₀ m ρ)
    (Pipeline.FramePost cfgs (dats m) 0 (Pipeline.afterTail₀ cfgs (dats m) 0 (V0 m) linesAfter)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := linesAfter) (hsub := after_sub) (hfresh := after_fresh) (hkeep := after_keeps)
    (hmain := hmain m Variants.none) (hA := A_eq m) (hΦ := fun _ _ => rfl)

/-- The frame: the program runs to the end, faults nowhere, and its five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.KernelIdeal.Hand

end
-- ==== Proof.LibMatProduct.lean ====
/-
  The row-by-column product of two matrices over the extended reals, as one function of the two arrays index by index,
  and the three places it is met: the host's dot_general at the plain dimension numbers (rows by contraction, times
  contraction by columns); a matrix unit's product accumulated into a zero splat; and a product of two BLOCKS (a band of
  rows of the left matrix, a band of columns of the right one), which is the corresponding block of the whole product
  because the contracted axis is not cut. Also: multiplying by a transposed matrix is contracting with its columns.
-/
import Idealize.ShloMosaic.Lib.StackMember
import Idealize.ShloMosaic.Lib.ValueLayout

noncomputable section

namespace Cert.Lib.MatProduct

open Idealize.ShloMosaic Idealize.ShloMosaic.ValueIdx

variable {M K N : Nat}

/-- (l r)[a, b] is the sum over k of l[a, k] r[k, b]. -/
def matProd (l : (⟨2, ![M, K]⟩ : Shape).Idx → EReal) (r : (⟨2, ![K, N]⟩ : Shape).Idx → EReal) :
    (⟨2, ![M, N]⟩ : Shape).Idx → EReal :=
  fun i => ∑ k : Fin K, l (ix2 ⟨(i 0).val, idx2_lt0 i⟩ k) * r (ix2 k ⟨(i 1).val, idx2_lt1 i⟩)

theorem matProd_ix2 (l : (⟨2, ![M, K]⟩ : Shape).Idx → EReal) (r : (⟨2, ![K, N]⟩ : Shape).Idx → EReal) (a : Fin M) (b : Fin N) :
    matProd l r (ix2 a b) = ∑ k : Fin K, l (ix2 a k) * r (ix2 k b) := rfl

/-- The host's plain dot_general, at the ideal values, is the product. -/
theorem dotGeneral_plain_eq {φ₁ φ₂ : FTy} (prec : Option ContractPrecision) (A : FVec Ideal ⟨2, ![M, K]⟩ φ₁)
    (B : FVec Ideal ⟨2, ![K, N]⟩ φ₂) : Host.dotGeneral (DotDims.plain M K N) prec A B = matProd A B := by
  funext i
  obtain ⟨a, b, rfl⟩ : ∃ (a : Fin M) (b : Fin N), i = ix2 a b := ⟨i 0, i 1, eq_ix2 i⟩
  rw [StackMember.dotGeneral_plain_apply, matProd_ix2]

/-- A matrix unit's plain product into the zero splat, at the ideal values, is the product. -/
theorem matmul_plain_zero_eq {φ₁ φ₂ : FTy} (prec : Option ContractPrecision) (A : FVec Ideal ⟨2, ![M, K]⟩ φ₁)
    (B : FVec Ideal ⟨2, ![K, N]⟩ φ₂) :
    matmul (DotDims.plain M K N) prec A B (constant ⟨2, ![M, N]⟩ .f32 0x00000000#32) = matProd A B := by
  rw [matmul_zero_eq_dotGeneral, dotGeneral_plain_eq]

/-- A band of rows times a band of columns is the block of the whole product: if the left block's row p is row a of l and
    the right block's column q is column b of r, entry (p, q) of the blocks' product is entry (a, b) of l r. -/
theorem matProd_block {M' N' : Nat} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (p : Fin M') (q : Fin N') (a : Fin M) (b : Fin N)
    (hl : ∀ k : Fin K, l' (ix2 p k) = l (ix2 a k)) (hr : ∀ k : Fin K, r' (ix2 k q) = r (ix2 k b)) :
    matProd l' r' (ix2 p q) = matProd l r (ix2 a b) := by
  rw [matProd_ix2, matProd_ix2]
  exact Finset.sum_congr rfl fun k _ => by rw [hl k, hr k]

/-- The same at any two indices: the blocks' product at j is the whole product at i as soon as row (j 0) of the left
    block is row (i 0) of l and column (j 1) of the right block is column (i 1) of r. -/
theorem matProd_block_idx {M' N' : Nat} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j : (⟨2, ![M', N']⟩ : Shape).Idx) (i : (⟨2, ![M, N]⟩ : Shape).Idx)
    (hl : ∀ k : Fin K, l' (ix2 ⟨(j 0).val, idx2_lt0 j⟩ k) = l (ix2 ⟨(i 0).val, idx2_lt0 i⟩ k))
    (hr : ∀ k : Fin K, r' (ix2 k ⟨(j 1).val, idx2_lt1 j⟩) = r (ix2 k ⟨(i 1).val, idx2_lt1 i⟩)) :
    matProd l' r' j = matProd l r i := by
  unfold matProd
  exact Finset.sum_congr rfl fun k _ => by rw [hl k, hr k]

/-- Two right factors that are each other's transposes entry by entry give the same product. -/
theorem matProd_congr_right (l : (⟨2, ![M, K]⟩ : Shape).Idx → EReal) (r r' : (⟨2, ![K, N]⟩ : Shape).Idx → EReal)
    (h : ∀ (k : Fin K) (b : Fin N), r (ix2 k b) = r' (ix2 k b)) : matProd l r = matProd l r' := by
  funext i
  obtain ⟨a, b, rfl⟩ : ∃ (a : Fin M) (b : Fin N), i = ix2 a b := ⟨i 0, i 1, eq_ix2 i⟩
  rw [matProd_ix2, matProd_ix2]
  exact Finset.sum_congr rfl fun k _ => by rw [h k b]

end Cert.Lib.MatProduct

end
-- ==== Proof.Spec.lean ====
/-
  What the loss needs of its inputs, as plain sums over the extended reals.

  The inputs are a prediction and a target array of 2000 days × 4000 regions × 5 channels, a second prediction of one
  channel, a two-channel array whose channel 0 is a target value and whose channel 1 is a mark in {0, 1, 2}. Over all
  days and regions: per channel the sum of squared differences of prediction and target; the number of entries with
  mark 1 and the sum over them of the squared difference of the second prediction and its target; the number of
  entries with mark 2 and the sum over them of the squared second prediction. (The count of entries per channel that
  are not NaN is the constant 8,000,000: an extended real is never NaN.)
-/
import Idealize.ShloMosaic.PureOps.Ideal
import Idealize.ShloMosaic.Lib.ValueIdx

noncomputable section

namespace Cert.Spec

open Idealize.ShloMosaic Idealize.ShloMosaic.ValueIdx

/-- The squared difference. -/
def sqd (u v : EReal) : EReal := (u - v) * (u - v)

/-- One where the value is the number the 32-bit pattern denotes, zero elsewhere. -/
def ind (lit : BitVec 32) (v : EReal) : EReal := if v = Ideal.ofBits .f32 lit then 1 else 0

abbrev Arr5 := (⟨3, ![2000, 4000, 5]⟩ : Shape).Idx → EReal
abbrev Arr1 := (⟨3, ![2000, 4000, 1]⟩ : Shape).Idx → EReal
abbrev Arr2 := (⟨3, ![2000, 4000, 2]⟩ : Shape).Idx → EReal

/-- Channel `ch`'s sum of squared differences over all days and regions. -/
def sumSq (x0 x1 : Arr5) (ch : Fin 5) : EReal :=
  ∑ a : Fin 2000, ∑ b : Fin 4000, sqd (x0 (ix3 a b ch)) (x1 (ix3 a b ch))

/-- Every channel has 2000 · 4000 entries. -/
def count : EReal := ((8000000 : ℝ) : EReal)

/-- The number of entries whose mark is 1. -/
def n1 (x3 : Arr2) : EReal := ∑ a : Fin 2000, ∑ b : Fin 4000, ind 0x3F800000#32 (x3 (ix3 a b 1))

/-- Over the entries whose mark is 1, the sum of squared differences of the second prediction and its target. -/
def s1 (x2 : Arr1) (x3 : Arr2) : EReal :=
  ∑ a : Fin 2000, ∑ b : Fin 4000,
    ind 0x3F800000#32 (x3 (ix3 a b 1)) * (x2 (ix3 a b 0) - x3 (ix3 a b 0)) * (x2 (ix3 a b 0) - x3 (ix3 a b 0))

/-- The number of entries whose mark is 2. -/
def n2 (x3 : Arr2) : EReal := ∑ a : Fin 2000, ∑ b : Fin 4000, ind 0x40000000#32 (x3 (ix3 a b 1))

/-- Over the entries whose mark is 2, the sum of the squared second prediction. -/
def s2 (x2 : Arr1) (x3 : Arr2) : EReal :=
  ∑ a : Fin 2000, ∑ b : Fin 4000, ind 0x40000000#32 (x3 (ix3 a b 1)) * x2 (ix3 a b 0) * x2 (ix3 a b 0)

end Cert.Spec

end
-- ==== Proof.ValKI.Payloads.lean ====
/-
  The arithmetic of the kernel's body at the ideal values, entry by entry, as plain sums over the extended reals.

  The body holds a 40 × 20000 tile of predictions x and of targets y, a 20000 × 5 selection matrix s, and three
  40 × 4000 tiles: a second prediction p, its target q and a mark mk. It forms

    • per channel ch the sum over the tile of (x − y)² · s, the product of the 40 × 20000 matrix of squared
      differences with s followed by the sum of the 40 rows of the product; the squared difference is taken under the
      mask "y is not different from itself", which holds of every extended real, so the mask is one everywhere and
      both selections under it keep their first operand;
    • per channel the same sum with the mask itself, the constant one, in place of the squared difference;
    • the number of tile entries whose mark is 1, the number whose mark is 2, the sum of p² over the entries with
      mark 2 and the sum of (p − q)² over those with mark 1: each a sum along the 4000 entries of a row, the 40 row
      sums stood up as a column, and the column summed;

  and it adds each of these to the value it finds in its accumulator cell; on its first visit it fills the accumulator
  with zeros. A change of number format is the identity on extended reals, a condition bit widened to a word and
  converted as a signed integer is the real number 1 or 0, and a product into a zero accumulator is a row-by-column sum.
-/
import proofs.«169479_j35270271434986_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«169479_j35270271434986_1_alg».proof.Proof.LibMatProduct
import proofs.«169479_j35270271434986_1_alg».proof.Proof.Spec

noncomputable section

namespace Cert.KernelIdeal.Hand

open Cert.KernelIdeal Cert.KernelIdeal.Gen Idealize.ShloMosaic Idealize.ShloMosaic.ValueIdx
open Cert.Spec

/-! ## Sums along one axis of a matrix, and a vector stood up as a column -/

section Generic
variable {α : Type}

/-- A vector of length a cast to a column [a, 1] reads, at (i, u), the vector at i: both sit at row-major place i. -/
private theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Summing an a × b matrix along axis 1: entry r of the result is the sum of the b entries of row r. -/
private theorem sumAxis1_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction (F := Ideal) .add [1] ⟨1, ![a]⟩ src acc h hφ hacc (ix1 r) = ∑ j : Fin b, src (ix2 r j) := by
  refine (Ideal.multiReduction_add_single src acc h hφ hacc (ix1 r)).trans ?_
  refine Finset.sum_congr rfl fun j _ => congrArg src ?_
  funext c
  refine Fin.ext ?_
  match c with
  | ⟨0, _⟩ => rfl
  | ⟨1, _⟩ => rfl

/-- Summing an a × b matrix along axis 0: entry c of the result is the sum of the a entries of column c. -/
private theorem sumAxis0_apply {a b : ℕ} (src : FVec Ideal ⟨2, ![a, b]⟩ .f32) (acc : BitVec 32)
    (h : (⟨2, ![a, b]⟩ : Shape).Reduces [0] ⟨1, ![b]⟩) (hφ : FKind.Formats .f32)
    (hacc : acc = FKind.add.neutral .f32 hφ) (c : Fin b) :
    multiReduction (F := Ideal) .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src ?_
  funext d
  refine Fin.ext ?_
  match d with
  | ⟨0, _⟩ => rfl
  | ⟨1, _⟩ => rfl

/-- The rows of an a × b matrix summed, the a row sums stood up as a column, the column summed, and the one number
    kept as a 1 × 1 matrix: its entry is the sum over the whole matrix, rows outside, row entries inside. -/
private theorem tileSum_cell {a b : ℕ} (src : FVec Ideal ⟨2, ![a, b]⟩ .f32) (acc : BitVec 32)
    (h1 : (⟨2, ![a, b]⟩ : Shape).Reduces [1] ⟨1, ![a]⟩) (hc1 : (⟨1, ![a]⟩ : Shape).ShapeCasts ⟨2, ![a, 1]⟩)
    (h2 : (⟨2, ![a, 1]⟩ : Shape).Reduces [0] ⟨1, ![1]⟩) (hc2 : (⟨1, ![1]⟩ : Shape).ShapeCasts ⟨2, ![1, 1]⟩)
    (hφ : FKind.Formats .f32) (hacc : acc = FKind.add.neutral .f32 hφ) :
    shapeCast ⟨2, ![1, 1]⟩
        (multiReduction (F := Ideal) .add [0] ⟨1, ![1]⟩
          (shapeCast ⟨2, ![a, 1]⟩ (multiReduction (F := Ideal) .add [1] ⟨1, ![a]⟩ src acc h1 hφ hacc) hc1)
          acc h2 hφ hacc)
        hc2 (ix2 0 0)
      = ∑ r : Fin a, ∑ j : Fin b, src (ix2 r j) := by
  refine (shapeCast_a_1a_apply _ _ 0 0).trans ?_
  refine (sumAxis0_apply _ _ _ _ _ 0).trans ?_
  refine Finset.sum_congr rfl fun r _ => ?_
  refine (shapeCast_a_a1_apply _ _ r 0).trans ?_
  exact sumAxis1_apply _ _ _ _ _ r

end Generic

/-! ## Condition bits at the ideal values -/

/-- No extended real differs from itself, so the complement of "v ≠ v" is the bit one. -/
private theorem selfMask_bit (v : EReal) :
    IntOp.xori (FloatOps.cmpf (F := Ideal) (φ := .f32) .one v v) 1#1 = 1#1 := by
  show IntOp.xori (Ideal.cmp .one v v) 1#1 = 1#1
  simp [Ideal.cmp, IntOp.xori]

/-- A bit widened to a 32-bit word and converted as a signed integer is the real number 1 or 0. -/
private theorem bitToReal (b : Bool) :
    FloatOps.sitofp (F := Ideal) .f32 ((BitVec.ofBool b).setWidth 32) = if b then (1 : EReal) else 0 := by
  show ((((BitVec.ofBool b).setWidth 32).toInt : ℝ) : EReal) = _
  cases b <;> simp

/-- "v is the number the pattern denotes", as a bit, widened and converted: the indicator of that number. -/
private theorem eqBit_apply (lit : BitVec 32) (v : EReal) :
    FloatOps.sitofp (F := Ideal) .f32
        ((FloatOps.cmpf (F := Ideal) (φ := .f32) .oeq v (Scalar.ofBits (F := Ideal) .f32 lit)).setWidth 32)
      = ind lit v := by
  show FloatOps.sitofp (F := Ideal) .f32 ((BitVec.ofBool (decide (v = Ideal.ofBits .f32 lit))).setWidth 32) = _
  rw [bitToReal]
  unfold ind
  by_cases h : v = Ideal.ofBits .f32 lit <;> simp [h]

/-! ## The body's pointwise values -/

/-- The mask over the targets is one at every entry. -/
private theorem pay6_apply (y : Vec Ideal S40x20000 .f32) (i : S40x20000.Idx) : k0_pay6 (F := Ideal) y i = 1#1 := by
  unfold k0_pay6 k0_pay5
  exact selfMask_bit _

/-- The selection matrix in the narrower format is the selection matrix. -/
private theorem pay7_apply (s : Vec Ideal S20000x5 .f32) (i : S20000x5.Idx) : k0_pay7 (F := Ideal) s i = s i := by
  unfold k0_pay7
  show shapeCast S20000x5 s shapeCasts_S20000x5_S20000x5 i = s i
  rw [shapeCast_self]

private theorem pay10_apply (p : Vec Ideal S40x4000 .f32) (i : S40x4000.Idx) : k0_pay10 (F := Ideal) p i = p i := by
  unfold k0_pay10
  show shapeCast S40x4000 p shapeCasts_S40x4000_S40x4000 i = p i
  rw [shapeCast_self]

private theorem pay11_apply (q : Vec Ideal S40x4000 .f32) (i : S40x4000.Idx) : k0_pay11 (F := Ideal) q i = q i := by
  unfold k0_pay11
  show shapeCast S40x4000 q shapeCasts_S40x4000_S40x4000 i = q i
  rw [shapeCast_self]

/-- The mask as a number is 1 at every entry. -/
private theorem onesMasked_apply (y : Vec Ideal S40x20000 .f32) (i : S40x20000.Idx) :
    FloatOps.sitofp (F := Ideal) .f32 ((k0_pay6 (F := Ideal) y i).setWidth 32) = 1 := by
  rw [pay6_apply]
  have h := bitToReal true
  simpa using h

/-- The masked squared difference at an entry: under a mask that is one, (x − y)². -/
private theorem sqMasked_apply (x y : Vec Ideal S40x20000 .f32) (i : S40x20000.Idx) :
    Scalar.select (k0_pay6 (F := Ideal) y i)
        ((x i - Scalar.select (k0_pay6 (F := Ideal) y i) (y i) (Ideal.ofBits .f32 0x00000000#32))
          * (x i - Scalar.select (k0_pay6 (F := Ideal) y i) (y i) (Ideal.ofBits .f32 0x00000000#32)))
        (Ideal.ofBits .f32 0x00000000#32)
      = sqd (x i) (y i) := by
  rw [pay6_apply, select_one, select_one]
  rfl

/-- "The mark is 1" as a number: the indicator of the value 1.0 at the mark. -/
private theorem pay14_apply (mk : Vec Ideal S40x4000 .f32) (i : S40x4000.Idx) :
    k0_pay14 (F := Ideal) (k0_pay13 (F := Ideal) mk) i = ind 0x3F800000#32 (mk i) := by
  unfold k0_pay14 k0_pay13 k0_pay12
  show FloatOps.sitofp (F := Ideal) .f32
      ((FloatOps.cmpf (F := Ideal) (φ := .f32) .oeq (shapeCast S40x4000 mk shapeCasts_S40x4000_S40x4000 i)
        (Scalar.ofBits (F := Ideal) .f32 0x3F800000#32)).setWidth 32) = _
  rw [shapeCast_self]
  exact eqBit_apply _ _

/-- "The mark is 2" as a number: the indicator of the value 2.0 at the mark. -/
private theorem pay15_apply (mk : Vec Ideal S40x4000 .f32) (i : S40x4000.Idx) :
    k0_pay15 (F := Ideal) (k0_pay12 (F := Ideal) mk) i = ind 0x40000000#32 (mk i) := by
  unfold k0_pay15 k0_pay12
  show FloatOps.sitofp (F := Ideal) .f32
      ((FloatOps.cmpf (F := Ideal) (φ := .f32) .oeq (shapeCast S40x4000 mk shapeCasts_S40x4000_S40x4000 i)
        (Scalar.ofBits (F := Ideal) .f32 0x40000000#32)).setWidth 32) = _
  rw [shapeCast_self]
  exact eqBit_apply _ _

/-- The 40 × 20000 by 20000 × 5 product into a zero accumulator, at (r, ch): the sum over the 20000 contracted
    places of row r of the left factor against column ch of the right one. -/
private theorem matmul_cell (A : FVec Ideal S40x20000 .bf16) (B : FVec Ideal S20000x5 .bf16) (r : Fin 40) (ch : Fin 5) :
    matmul dot_S40x20000_S20000x5_S40x5_1_0_0_1_n_n none A B (constant (F := Ideal) S40x5 .f32 0x00000000#32) (ix2 r ch)
      = ∑ k : Fin 20000, A (ix2 r k) * B (ix2 k ch) := by
  have hD : dot_S40x20000_S20000x5_S40x5_1_0_0_1_n_n = DotDims.plain 40 20000 5 := rfl
  rw [hD, Cert.Lib.MatProduct.matmul_plain_zero_eq, Cert.Lib.MatProduct.matProd_ix2]

/-! ## The two five-channel sums -/

/-- Channel ch of the first sum: over the 40 rows and the 20000 row entries, the squared difference times the
    selection matrix's entry for that place and channel. -/
theorem pay8_cell (x y : Vec Ideal S40x20000 .f32) (s : Vec Ideal S20000x5 .f32) (ch : Fin 5) :
    k0_pay8 (F := Ideal) x y s (ix2 0 ch)
      = ∑ r : Fin 40, ∑ k : Fin 20000, sqd (x (ix2 r k)) (y (ix2 r k)) * s (ix2 k ch) := by
  unfold k0_pay8
  refine (shapeCast_a_1a_apply _ _ 0 ch).trans ?_
  refine (sumAxis0_apply _ _ _ _ _ ch).trans ?_
  refine Finset.sum_congr rfl fun r _ => ?_
  refine (matmul_cell _ _ r ch).trans ?_
  refine Finset.sum_congr rfl fun k _ => ?_
  rw [pay7_apply]
  refine congrArg (· * s (ix2 k ch)) ?_
  have hx : shapeCast S40x20000 x shapeCasts_S40x20000_S40x20000 = x := shapeCast_self _ _
  have hy : k0_pay5 (F := Ideal) y = y := by unfold k0_pay5; exact shapeCast_self _ _
  show Scalar.select (k0_pay6 (F := Ideal) y (ix2 r k))
        ((shapeCast S40x20000 x shapeCasts_S40x20000_S40x20000 (ix2 r k)
            - Scalar.select (k0_pay6 (F := Ideal) y (ix2 r k)) (k0_pay5 (F := Ideal) y (ix2 r k))
                (Ideal.ofBits .f32 0x00000000#32))
          * (shapeCast S40x20000 x shapeCasts_S40x20000_S40x20000 (ix2 r k)
            - Scalar.select (k0_pay6 (F := Ideal) y (ix2 r k)) (k0_pay5 (F := Ideal) y (ix2 r k))
                (Ideal.ofBits .f32 0x00000000#32)))
        (Ideal.ofBits .f32 0x00000000#32) = _
  rw [hx, hy]
  exact sqMasked_apply x y (ix2 r k)

/-- Channel ch of the second sum: the mask is the number 1, so what is left is the selection matrix's entries. -/
theorem pay9_cell (y : Vec Ideal S40x20000 .f32) (s : Vec Ideal S20000x5 .f32) (ch : Fin 5) :
    k0_pay9 (F := Ideal) y s (ix2 0 ch) = ∑ r : Fin 40, ∑ k : Fin 20000, s (ix2 k ch) := by
  unfold k0_pay9
  refine (shapeCast_a_1a_apply _ _ 0 ch).trans ?_
  refine (sumAxis0_apply _ _ _ _ _ ch).trans ?_
  refine Finset.sum_congr rfl fun r _ => ?_
  refine (matmul_cell _ _ r ch).trans ?_
  refine Finset.sum_congr rfl fun k _ => ?_
  rw [pay7_apply]
  show FloatOps.sitofp (F := Ideal) .f32 ((k0_pay6 (F := Ideal) y (ix2 r k)).setWidth 32) * s (ix2 k ch) = _
  rw [onesMasked_apply, one_mul]

/-! ## The four sums over the 40 × 4000 tile -/

/-- The number of entries whose mark is 1. -/
theorem pay16_cell (mk : Vec Ideal S40x4000 .f32) :
    k0_pay16 (F := Ideal) (k0_pay13 (F := Ideal) mk) (ix2 0 0)
      = ∑ r : Fin 40, ∑ j : Fin 4000, ind 0x3F800000#32 (mk (ix2 r j)) := by
  unfold k0_pay16
  refine (tileSum_cell _ _ _ _ _ _ _ _).trans ?_
  exact Finset.sum_congr rfl fun r _ => Finset.sum_congr rfl fun j _ => pay14_apply mk (ix2 r j)

/-- The number of entries whose mark is 2. -/
theorem pay18_cell (mk : Vec Ideal S40x4000 .f32) :
    k0_pay18 (F := Ideal) (k0_pay12 (F := Ideal) mk) (ix2 0 0)
      = ∑ r : Fin 40, ∑ j : Fin 4000, ind 0x40000000#32 (mk (ix2 r j)) := by
  unfold k0_pay18
  refine (tileSum_cell _ _ _ _ _ _ _ _).trans ?_
  exact Finset.sum_congr rfl fun r _ => Finset.sum_congr rfl fun j _ => pay15_apply mk (ix2 r j)

/-- Over the entries whose mark is 2, the sum of the squared second prediction. -/
theorem pay17_cell (p mk : Vec Ideal S40x4000 .f32) :
    k0_pay17 (F := Ideal) (k0_pay10 (F := Ideal) p) (k0_pay12 (F := Ideal) mk) (ix2 0 0)
      = ∑ r : Fin 40, ∑ j : Fin 4000, ind 0x40000000#32 (mk (ix2 r j)) * p (ix2 r j) * p (ix2 r j) := by
  unfold k0_pay17
  refine (tileSum_cell _ _ _ _ _ _ _ _).trans ?_
  refine Finset.sum_congr rfl fun r _ => Finset.sum_congr rfl fun j _ => ?_
  show k0_pay15 (F := Ideal) (k0_pay12 (F := Ideal) mk) (ix2 r j) * k0_pay10 (F := Ideal) p (ix2 r j)
      * k0_pay10 (F := Ideal) p (ix2 r j) = _
  rw [pay15_apply, pay10_apply]

/-- The accumulator cell's old value plus, over the entries whose mark is 1, the sum of the squared difference of the
    second prediction and its target. -/
theorem pay21_cell (p q mk : Vec Ideal S40x4000 .f32) (old : Vec Ideal S1x1 .f32) :
    k0_pay21 (F := Ideal) (k0_pay10 (F := Ideal) p) (k0_pay11 (F := Ideal) q) (k0_pay13 (F := Ideal) mk) old (ix2 0 0)
      = old (ix2 0 0) + ∑ r : Fin 40, ∑ j : Fin 4000,
          ind 0x3F800000#32 (mk (ix2 r j)) * (p (ix2 r j) - q (ix2 r j)) * (p (ix2 r j) - q (ix2 r j)) := by
  unfold k0_pay21
  show shapeCast S1x1 old shapeCasts_S1x1_S1x1 (ix2 0 0) + _ = _
  rw [shapeCast_self]
  refine congrArg (old (ix2 0 0) + ·) ?_
  refine (tileSum_cell _ _ _ _ _ _ _ _).trans ?_
  refine Finset.sum_congr rfl fun r _ => Finset.sum_congr rfl fun j _ => ?_
  show k0_pay14 (F := Ideal) (k0_pay13 (F := Ideal) mk) (ix2 r j)
        * (k0_pay10 (F := Ideal) p (ix2 r j) - k0_pay11 (F := Ideal) q (ix2 r j))
        * (k0_pay10 (F := Ideal) p (ix2 r j) - k0_pay11 (F := Ideal) q (ix2 r j)) = _
  rw [pay14_apply, pay10_apply, pay11_apply]

/-! ## What is written back: the old value plus the new term, and the zero fill -/

theorem pay19_apply (v : FVec Ideal S1x5 .f32) (old : Vec Ideal S1x5 .f32) (j : S1x5.Idx) :
    k0_pay19 (F := Ideal) v old j = old j + v j := by
  unfold k0_pay19
  show shapeCast S1x5 old shapeCasts_S1x5_S1x5 j + v j = _
  rw [shapeCast_self]

theorem pay20_apply (v : FVec Ideal S1x5 .f32) (old : Vec Ideal S1x5 .f32) (j : S1x5.Idx) :
    k0_pay20 (F := Ideal) v old j = old j + v j := by
  unfold k0_pay20
  show shapeCast S1x5 old shapeCasts_S1x5_S1x5 j + v j = _
  rw [shapeCast_self]

theorem pay1_apply (v : FVec Ideal S1x1 .f32) (old : Vec Ideal S1x1 .f32) (j : S1x1.Idx) :
    k0_pay1 (F := Ideal) v old j = old j + v j := by
  unfold k0_pay1
  show shapeCast S1x1 old shapeCasts_S1x1_S1x1 j + v j = _
  rw [shapeCast_self]

theorem pay2_apply (v : FVec Ideal S1x1 .f32) (old : Vec Ideal S1x1 .f32) (j : S1x1.Idx) :
    k0_pay2 (F := Ideal) v old j = old j + v j := by
  unfold k0_pay2
  show shapeCast S1x1 old shapeCasts_S1x1_S1x1 j + v j = _
  rw [shapeCast_self]

theorem pay3_apply (v : FVec Ideal S1x1 .f32) (old : Vec Ideal S1x1 .f32) (j : S1x1.Idx) :
    k0_pay3 (F := Ideal) v old j = old j + v j := by
  unfold k0_pay3
  show shapeCast S1x1 old shapeCasts_S1x1_S1x1 j + v j = _
  rw [shapeCast_self]

/-- The first visit's fill is the number zero at every entry. -/
theorem pay4_apply (j : S8x128.Idx) : k0_pay4 (F := Ideal) j = 0 := by
  unfold k0_pay4
  show Ideal.ofBits .f32 0x00000000#32 = 0
  exact Ideal.ofBits_zero_f32

end Cert.KernelIdeal.Hand

end
-- ==== Proof.ValKI.Cells.lean ====
/-
  The accumulator block, read cell by cell.

  The body writes fourteen cells of the 8×128 accumulator block: rows 0 and 1 at columns 0..4 (per channel, the
  running sum of squares and the running count) and row 2 at columns 0..3 (two masked sums of squares and the two
  mask counts). Its six stores go through pairwise disjoint rectangles, so a cell reads the payload of the one
  rectangle that holds it: it lies outside every rectangle stored after that one on a single axis — the row, for
  rows 0 and 1; the column, within row 2. At a later grid point each payload is the cell's old entry plus this
  block's partial sum. At the first grid point the whole block is zeroed before the six stores, and the old entry a
  payload reads back is the zero just stored, because the rectangles stored in between miss the cell, again on a
  single axis.
-/
import proofs.«169479_j35270271434986_1_alg».proof.Proof.FrameKI.Frame
import Idealize.ShloMosaic.Lib.WritesUnit
import Idealize.ShloMosaic.Lib.ValueIdx
import Idealize.ShloMosaic.Lib.Pipeline.Value
import Idealize.ShloMosaic.Lib.Pipeline.FrameBody
import Idealize.ShloMosaic.Lib.Tactic
import Idealize.ShloMosaic.PureOps.Ideal.Laws

set_option maxRecDepth 16384

noncomputable section

namespace Cert.KernelIdeal.Hand

open Cert.KernelIdeal Cert.KernelIdeal.Gen Idealize.ShloMosaic Idealize.ShloMosaic.ValueIdx Idealize.ShloMosaic.Tactic

/-! ## The fourteen cells -/

/-- Row 0, column `ch`: channel `ch`'s running sum of squares. -/
abbrev cellSq (ch : Fin 5) : S8x128.Idx := ix2 (0 : Fin 8) (⟨ch.val, by omega⟩ : Fin 128)
/-- Row 1, column `ch`: channel `ch`'s running count. -/
abbrev cellCnt (ch : Fin 5) : S8x128.Idx := ix2 (1 : Fin 8) (⟨ch.val, by omega⟩ : Fin 128)
/-- Row 2, column 0: the first masked sum of squares. -/
abbrev cellS1 : S8x128.Idx := ix2 (2 : Fin 8) (0 : Fin 128)
/-- Row 2, column 1: the first mask's count. -/
abbrev cellN1 : S8x128.Idx := ix2 (2 : Fin 8) (1 : Fin 128)
/-- Row 2, column 2: the second masked sum of squares. -/
abbrev cellS2 : S8x128.Idx := ix2 (2 : Fin 8) (2 : Fin 128)
/-- Row 2, column 3: the second mask's count. -/
abbrev cellN2 : S8x128.Idx := ix2 (2 : Fin 8) (3 : Fin 128)

/-! ## Small facts -/

private theorem zeroOffsets : (![0, 0] : Fin 2 → ℕ) = fun _ => 0 := funext fun a => by fin_cases a <;> rfl

/-- An index of the block is itself plus zero offsets. -/
private theorem zeroOff_add (y : S8x128.Idx) : ∀ a : Fin 2, (y a).val = (![0, 0] : Fin 2 → ℕ) a + (y a).val :=
  Fin.forall_fin_two.mpr ⟨(Nat.zero_add _).symm, (Nat.zero_add _).symm⟩

private theorem add_congr {a a' b b' : Ideal .f32} (ha : a = a') (hb : b = b') : a + b = a' + b' := by rw [ha, hb]

/-- A 1×1 block has one position. -/
private theorem eq_ix00 (j : S1x1.Idx) : j = ix2 (0 : Fin 1) (0 : Fin 1) := by
  funext a
  apply Fin.ext
  match a with
  | ⟨0, _⟩ => have h : (j 0).val < 1 := (j 0).isLt; show (j 0).val = 0; omega
  | ⟨1, _⟩ => have h : (j 1).val < 1 := (j 1).isLt; show (j 1).val = 0; omega

/-- The zero block is zero everywhere. -/
private theorem zero_apply (y : S8x128.Idx) : k0_pay4 (F := Ideal) y = (0 : Ideal .f32) := by
  unfold k0_pay4
  exact Ideal.ofBits_zero_f32

/-- Each of the five updating payloads is the old entry plus the new partial sum, entry by entry. -/
private theorem pay19_apply (v : FVec Ideal S1x5 .f32) (old : Vec Ideal S1x5 .f32) (j : S1x5.Idx) :
    k0_pay19 (F := Ideal) v old j = old j + v j := by
  unfold k0_pay19
  simp only [shapeCast_self]
  rfl
private theorem pay20_apply (v : FVec Ideal S1x5 .f32) (old : Vec Ideal S1x5 .f32) (j : S1x5.Idx) :
    k0_pay20 (F := Ideal) v old j = old j + v j := by
  unfold k0_pay20
  simp only [shapeCast_self]
  rfl
private theorem pay1_apply (v : FVec Ideal S1x1 .f32) (old : Vec Ideal S1x1 .f32) (j : S1x1.Idx) :
    k0_pay1 (F := Ideal) v old j = old j + v j := by
  unfold k0_pay1
  simp only [shapeCast_self]
  rfl
private theorem pay2_apply (v : FVec Ideal S1x1 .f32) (old : Vec Ideal S1x1 .f32) (j : S1x1.Idx) :
    k0_pay2 (F := Ideal) v old j = old j + v j := by
  unfold k0_pay2
  simp only [shapeCast_self]
  rfl
private theorem pay3_apply (v : FVec Ideal S1x1 .f32) (old : Vec Ideal S1x1 .f32) (j : S1x1.Idx) :
    k0_pay3 (F := Ideal) v old j = old j + v j := by
  unfold k0_pay3
  simp only [shapeCast_self]
  rfl

/-- A position of a unit-stride rectangle of the block sits at the offsets plus the position. -/
private theorem unit_idx {off size : Fin 2 → ℕ} (inb : ∀ a, off a + size a ≤ S8x128.size a)
    (j : (Rect.unit (s := S8x128) off size inb).shape.Idx) (r : Fin 8) (cl : Fin 128)
    (h0 : r.val = off 0 + (j (0 : Fin 2)).val) (h1 : cl.val = off 1 + (j (1 : Fin 2)).val) :
    (Rect.unit (s := S8x128) off size inb).idx j = ix2 r cl := by
  funext a
  apply Fin.ext
  match a with
  | ⟨0, _⟩ => show off 0 + 1 * (j (0 : Fin 2)).val = r.val; omega
  | ⟨1, _⟩ => show off 1 + 1 * (j (1 : Fin 2)).val = cl.val; omega

/-- What a load reads after a list of stores is the read of those stores over arbitrary contents, at the load's
    index. -/
private theorem readCov_apply {κ : Kind} {sp : Space} (v : View sig κ sp S8x128 .f32)
    (L : List (View.Piece (Elt Ideal) S8x128 .f32)) (B : LoadRect S8x128) (j : B.shape.Idx) :
    v.readCov L B j = v.read (Elt Ideal) (v.writes (Elt Ideal) v.junk L) (B.idx j) := rfl

/-- Under the store of the zero block alone every cell reads zero. -/
private theorem read_zero {κ : Kind} {sp : Space} (v : View sig κ sp S8x128 .f32) (f : v.ty.Contents (Elt Ideal))
    (y : S8x128.Idx) :
    v.read (Elt Ideal) (v.writes (Elt Ideal) f
      [(⟨Rect.unit (s := S8x128) ![0, 0] S8x128.size inb_S8x128_S8x128_0_0, k0_pay4 (F := Ideal)⟩ : View.Piece (Elt Ideal) S8x128 .f32)]) y
      = (0 : Ideal .f32) :=
  (View.read_writes_cons_unit_of_mem v f inb_S8x128_S8x128_0_0 (k0_pay4 (F := Ideal)) [] y y rfl (zeroOff_add y)).trans (zero_apply y)

/-! ## A later point: each cell is what the point before left plus this block's partial sum -/

theorem outLater_sq (c : Dev nD) (i : grid0.Coords) (a1 : Memref sig .tc .vmem S40x20000 .f32) (h1 : a1.IsWhole) (a2 : Memref sig .tc .vmem S40x20000 .f32) (h2 : a2.IsWhole) (a3 : Memref sig .tc .vmem S40x4000 .f32) (h3 : a3.IsWhole) (a4 : Memref sig .tc .vmem S40x4000 .f32) (h4 : a4.IsWhole) (a5 : Memref sig .tc .vmem S40x4000 .f32) (h5 : a5.IsWhole) (a6 : Memref sig .tc .vmem S20000x5 .f32) (h6 : a6.IsWhole) (a7 : Memref sig .tc .vmem S8x128 .f32) (h7 : a7.IsWhole)
    (hc : ¬isFirst i) (x1 : Vec Ideal S40x20000 .f32) (x2 : Vec Ideal S40x20000 .f32) (x3 : Vec Ideal S40x4000 .f32) (x4 : Vec Ideal S40x4000 .f32) (x5 : Vec Ideal S40x4000 .f32) (x6 : Vec Ideal S20000x5 .f32) (acc : Vec Ideal S8x128 .f32) (ch : Fin 5) :
    outLater (F := Ideal) c i a1 h1 a2 h2 a3 h3 a4 h4 a5 h5 a6 h6 a7 h7 hc x1 x2 x3 x4 x5 x6 acc (cellSq ch) = acc (cellSq ch) + k0_pay8 (F := Ideal) x1 x2 x6 (ix2 0 ch) := by
  unfold outLater
  unfold runLater
  dsimp only
  sl_unfold_words
  refine (View.read_writes_cons_unit_of_not_mem _ _ _ _ _ _ rfl (0 : Fin 2) (Or.inl (show (0 : ℕ) < 2 from by omega))).trans ?_
  refine (View.read_writes_cons_unit_of_not_mem _ _ _ _ _ _ rfl (0 : Fin 2) (Or.inl (show (0 : ℕ) < 2 from by omega))).trans ?_
  refine (View.read_writes_cons_unit_of_not_mem _ _ _ _ _ _ rfl (0 : Fin 2) (Or.inl (show (0 : ℕ) < 2 from by omega))).trans ?_
  refine (View.read_writes_cons_unit_of_not_mem _ _ _ _ _ _ rfl (0 : Fin 2) (Or.inl (show (0 : ℕ) < 2 from by omega))).trans ?_
  refine (View.read_writes_cons_unit_of_not_mem _ _ _ _ _ _ rfl (0 : Fin 2) (Or.inl (show (0 : ℕ) < 1 from by omega))).trans ?_
  refine (View.read_writes_cons_unit_of_mem _ _ _ _ _ _ (ix2 (0 : Fin 1) ch) rfl ?_).trans ?_
  · exact Fin.forall_fin_two.mpr ⟨rfl, (Nat.zero_add _).symm⟩
  refine (pay19_apply _ _ _).trans (add_congr ?_ ?_)
  · exact ((View.readAt_apply _ _ _).trans ((congrFun (h7.read_unread acc) _).trans (congrArg acc (unit_idx _ _ _ _ rfl (Nat.zero_add _).symm))))
  · simp only [View.readAt_eq_ld, h1.read_unread, h2.read_unread, h6.read_unread, View.ld_unit_zero (S := S40x20000) zeroOffsets, View.ld_unit_zero (S := S20000x5) zeroOffsets]

theorem outLater_cnt (c : Dev nD) (i : grid0.Coords) (a1 : Memref sig .tc .vmem S40x20000 .f32) (h1 : a1.IsWhole) (a2 : Memref sig .tc .vmem S40x20000 .f32) (h2 : a2.IsWhole) (a3 : Memref sig .tc .vmem S40x4000 .f32) (h3 : a3.IsWhole) (a4 : Memref sig .tc .vmem S40x4000 .f32) (h4 : a4.IsWhole) (a5 : Memref sig .tc .vmem S40x4000 .f32) (h5 : a5.IsWhole) (a6 : Memref sig .tc .vmem S20000x5 .f32) (h6 : a6.IsWhole) (a7 : Memref sig .tc .vmem S8x128 .f32) (h7 : a7.IsWhole)
    (hc : ¬isFirst i) (x1 : Vec Ideal S40x20000 .f32) (x2 : Vec Ideal S40x20000 .f32) (x3 : Vec Ideal S40x4000 .f32) (x4 : Vec Ideal S40x4000 .f32) (x5 : Vec Ideal S40x4000 .f32) (x6 : Vec Ideal S20000x5 .f32) (acc : Vec Ideal S8x128 .f32) (ch : Fin 5) :
    outLater (F := Ideal) c i a1 h1 a2 h2 a3 h3 a4 h4 a5 h5 a6 h6 a7 h7 hc x1 x2 x3 x4 x5 x6 acc (cellCnt ch) = acc (cellCnt ch) + k0_pay9 (F := Ideal) x2 x6 (ix2 0 ch) := by
  unfold outLater
  unfold runLater
  dsimp only
  sl_unfold_words
  refine (View.read_writes_cons_unit_of_not_mem _ _ _ _ _ _ rfl (0 : Fin 2) (Or.inl (show (1 : ℕ) < 2 from by omega))).trans ?_
  refine (View.read_writes_cons_unit_of_not_mem _ _ _ _ _ _ rfl (0 : Fin 2) (Or.inl (show (1 : ℕ) < 2 from by omega))).trans ?_
  refine (View.read_writes_cons_unit_of_not_mem _ _ _ _ _ _ rfl (0 : Fin 2) (Or.inl (show (1 : ℕ) < 2 from by omega))).trans ?_
  refine (View.read_writes_cons_unit_of_not_mem _ _ _ _ _ _ rfl (0 : Fin 2) (Or.inl (show (1 : ℕ) < 2 from by omega))).trans ?_
  refine (View.read_writes_cons_unit_of_mem _ _ _ _ _ _ (ix2 (0 : Fin 1) ch) rfl ?_).trans ?_
  · exact Fin.forall_fin_two.mpr ⟨rfl, (Nat.zero_add _).symm⟩
  refine (pay20_apply _ _ _).trans (add_congr ?_ ?_)
  · exact ((View.readAt_apply _ _ _).trans ((congrFun (h7.read_unread acc) _).trans (congrArg acc (unit_idx _ _ _ _ rfl (Nat.zero_add _).symm))))
  · simp only [View.readAt_eq_ld, h2.read_unread, h6.read_unread, View.ld_unit_zero (S := S40x20000) zeroOffsets, View.ld_unit_zero (S := S20000x5) zeroOffsets]

theorem outLater_s1 (c : Dev nD) (i : grid0.Coords) (a1 : Memref sig .tc .vmem S40x20000 .f32) (h1 : a1.IsWhole) (a2 : Memref sig .tc .vmem S40x20000 .f32) (h2 : a2.IsWhole) (a3 : Memref sig .tc .vmem S40x4000 .f32) (h3 : a3.IsWhole) (a4 : Memref sig .tc .vmem S40x4000 .f32) (h4 : a4.IsWhole) (a5 : Memref sig .tc .vmem S40x4000 .f32) (h5 : a5.IsWhole) (a6 : Memref sig .tc .vmem S20000x5 .f32) (h6 : a6.IsWhole) (a7 : Memref sig .tc .vmem S8x128 .f32) (h7 : a7.IsWhole)
    (hc : ¬isFirst i) (x1 : Vec Ideal S40x20000 .f32) (x2 : Vec Ideal S40x20000 .f32) (x3 : Vec Ideal S40x4000 .f32) (x4 : Vec Ideal S40x4000 .f32) (x5 : Vec Ideal S40x4000 .f32) (x6 : Vec Ideal S20000x5 .f32) (acc : Vec Ideal S8x128 .f32) :
    outLater (F := Ideal) c i a1 h1 a2 h2 a3 h3 a4 h4 a5 h5 a6 h6 a7 h7 hc x1 x2 x3 x4 x5 x6 acc cellS1 = k0_pay21 (F := Ideal) (k0_pay10 (F := Ideal) x3) (k0_pay11 (F := Ideal) x4) (k0_pay13 (F := Ideal) x5) (fun _ => acc cellS1) (ix2 0 0) := by
  unfold outLater
  unfold runLater
  dsimp only
  sl_unfold_words
  refine (View.read_writes_cons_unit_of_not_mem _ _ _ _ _ _ rfl (1 : Fin 2) (Or.inl (show (0 : ℕ) < 3 from by omega))).trans ?_
  refine (View.read_writes_cons_unit_of_not_mem _ _ _ _ _ _ rfl (1 : Fin 2) (Or.inl (show (0 : ℕ) < 2 from by omega))).trans ?_
  refine (View.read_writes_cons_unit_of_not_mem _ _ _ _ _ _ rfl (1 : Fin 2) (Or.inl (show (0 : ℕ) < 1 from by omega))).trans ?_
  refine (View.read_writes_cons_unit_of_mem _ _ _ _ _ _ (ix2 (0 : Fin 1) (0 : Fin 1)) rfl ?_).trans ?_
  · exact Fin.forall_fin_two.mpr ⟨rfl, rfl⟩
  have hold : View.readAt (Elt Ideal) a7.view (Rect.unit (s := S8x128) ![2, 0] S1x1.size inb_S8x128_S1x1_2_0).toLoadRect (h7.unread acc)
      = fun _ => acc cellS1 := funext fun j => by
    obtain rfl := eq_ix00 j
    exact ((View.readAt_apply _ _ _).trans ((congrFun (h7.read_unread acc) _).trans (congrArg acc (unit_idx _ _ _ _ rfl rfl))))
  rw [hold]
  simp only [View.readAt_eq_ld, h3.read_unread, h4.read_unread, h5.read_unread, View.ld_unit_zero (S := S40x4000) zeroOffsets]
  rfl

theorem outLater_n1 (c : Dev nD) (i : grid0.Coords) (a1 : Memref sig .tc .vmem S40x20000 .f32) (h1 : a1.IsWhole) (a2 : Memref sig .tc .vmem S40x20000 .f32) (h2 : a2.IsWhole) (a3 : Memref sig .tc .vmem S40x4000 .f32) (h3 : a3.IsWhole) (a4 : Memref sig .tc .vmem S40x4000 .f32) (h4 : a4.IsWhole) (a5 : Memref sig .tc .vmem S40x4000 .f32) (h5 : a5.IsWhole) (a6 : Memref sig .tc .vmem S20000x5 .f32) (h6 : a6.IsWhole) (a7 : Memref sig .tc .vmem S8x128 .f32) (h7 : a7.IsWhole)
    (hc : ¬isFirst i) (x1 : Vec Ideal S40x20000 .f32) (x2 : Vec Ideal S40x20000 .f32) (x3 : Vec Ideal S40x4000 .f32) (x4 : Vec Ideal S40x4000 .f32) (x5 : Vec Ideal S40x4000 .f32) (x6 : Vec Ideal S20000x5 .f32) (acc : Vec Ideal S8x128 .f32) :
    outLater (F := Ideal) c i a1 h1 a2 h2 a3 h3 a4 h4 a5 h5 a6 h6 a7 h7 hc x1 x2 x3 x4 x5 x6 acc cellN1 = acc cellN1 + k0_pay16 (F := Ideal) (k0_pay13 (F := Ideal) x5) (ix2 0 0) := by
  unfold outLater
  unfold runLater
  dsimp only
  sl_unfold_words
  refine (View.read_writes_cons_unit_of_not_mem _ _ _ _ _ _ rfl (1 : Fin 2) (Or.inl (show (1 : ℕ) < 3 from by omega))).trans ?_
  refine (View.read_writes_cons_unit_of_not_mem _ _ _ _ _ _ rfl (1 : Fin 2) (Or.inl (show (1 : ℕ) < 2 from by omega))).trans ?_
  refine (View.read_writes_cons_unit_of_mem _ _ _ _ _ _ (ix2 (0 : Fin 1) (0 : Fin 1)) rfl ?_).trans ?_
  · exact Fin.forall_fin_two.mpr ⟨rfl, rfl⟩
  refine (pay1_apply _ _ _).trans (add_congr ?_ ?_)
  · exact ((View.readAt_apply _ _ _).trans ((congrFun (h7.read_unread acc) _).trans (congrArg acc (unit_idx _ _ _ _ rfl rfl))))
  · simp only [View.readAt_eq_ld, h5.read_unread, View.ld_unit_zero (S := S40x4000) zeroOffsets]

theorem outLater_s2 (c : Dev nD) (i : grid0.Coords) (a1 : Memref sig .tc .vmem S40x20000 .f32) (h1 : a1.IsWhole) (a2 : Memref sig .tc .vmem S40x20000 .f32) (h2 : a2.IsWhole) (a3 : Memref sig .tc .vmem S40x4000 .f32) (h3 : a3.IsWhole) (a4 : Memref sig .tc .vmem S40x4000 .f32) (h4 : a4.IsWhole) (a5 : Memref sig .tc .vmem S40x4000 .f32) (h5 : a5.IsWhole) (a6 : Memref sig .tc .vmem S20000x5 .f32) (h6 : a6.IsWhole) (a7 : Memref sig .tc .vmem S8x128 .f32) (h7 : a7.IsWhole)
    (hc : ¬isFirst i) (x1 : Vec Ideal S40x20000 .f32) (x2 : Vec Ideal S40x20000 .f32) (x3 : Vec Ideal S40x4000 .f32) (x4 : Vec Ideal S40x4000 .f32) (x5 : Vec Ideal S40x4000 .f32) (x6 : Vec Ideal S20000x5 .f32) (acc : Vec Ideal S8x128 .f32) :
    outLater (F := Ideal) c i a1 h1 a2 h2 a3 h3 a4 h4 a5 h5 a6 h6 a7 h7 hc x1 x2 x3 x4 x5 x6 acc cellS2 = acc cellS2 + k0_pay17 (F := Ideal) (k0_pay10 (F := Ideal) x3) (k0_pay12 (F := Ideal) x5) (ix2 0 0) := by
  unfold outLater
  unfold runLater
  dsimp only
  sl_unfold_words
  refine (View.read_writes_cons_unit_of_not_mem _ _ _ _ _ _ rfl (1 : Fin 2) (Or.inl (show (2 : ℕ) < 3 from by omega))).trans ?_
  refine (View.read_writes_cons_unit_of_mem _ _ _ _ _ _ (ix2 (0 : Fin 1) (0 : Fin 1)) rfl ?_).trans ?_
  · exact Fin.forall_fin_two.mpr ⟨rfl, rfl⟩
  refine (pay2_apply _ _ _).trans (add_congr ?_ ?_)
  · exact ((View.readAt_apply _ _ _).trans ((congrFun (h7.read_unread acc) _).trans (congrArg acc (unit_idx _ _ _ _ rfl rfl))))
  · simp only [View.readAt_eq_ld, h3.read_unread, h5.read_unread, View.ld_unit_zero (S := S40x4000) zeroOffsets]

theorem outLater_n2 (c : Dev nD) (i : grid0.Coords) (a1 : Memref sig .tc .vmem S40x20000 .f32) (h1 : a1.IsWhole) (a2 : Memref sig .tc .vmem S40x20000 .f32) (h2 : a2.IsWhole) (a3 : Memref sig .tc .vmem S40x4000 .f32) (h3 : a3.IsWhole) (a4 : Memref sig .tc .vmem S40x4000 .f32) (h4 : a4.IsWhole) (a5 : Memref sig .tc .vmem S40x4000 .f32) (h5 : a5.IsWhole) (a6 : Memref sig .tc .vmem S20000x5 .f32) (h6 : a6.IsWhole) (a7 : Memref sig .tc .vmem S8x128 .f32) (h7 : a7.IsWhole)
    (hc : ¬isFirst i) (x1 : Vec Ideal S40x20000 .f32) (x2 : Vec Ideal S40x20000 .f32) (x3 : Vec Ideal S40x4000 .f32) (x4 : Vec Ideal S40x4000 .f32) (x5 : Vec Ideal S40x4000 .f32) (x6 : Vec Ideal S20000x5 .f32) (acc : Vec Ideal S8x128 .f32) :
    outLater (F := Ideal) c i a1 h1 a2 h2 a3 h3 a4 h4 a5 h5 a6 h6 a7 h7 hc x1 x2 x3 x4 x5 x6 acc cellN2 = acc cellN2 + k0_pay18 (F := Ideal) (k0_pay12 (F := Ideal) x5) (ix2 0 0) := by
  unfold outLater
  unfold runLater
  dsimp only
  sl_unfold_words
  refine (View.read_writes_cons_unit_of_mem _ _ _ _ _ _ (ix2 (0 : Fin 1) (0 : Fin 1)) rfl ?_).trans ?_
  · exact Fin.forall_fin_two.mpr ⟨rfl, rfl⟩
  refine (pay3_apply _ _ _).trans (add_congr ?_ ?_)
  · exact ((View.readAt_apply _ _ _).trans ((congrFun (h7.read_unread acc) _).trans (congrArg acc (unit_idx _ _ _ _ rfl rfl))))
  · simp only [View.readAt_eq_ld, h5.read_unread, View.ld_unit_zero (S := S40x4000) zeroOffsets]

/-! ## The first point: the block is zeroed first, so each cell is zero plus this block's partial sum -/

theorem outFirst_sq (c : Dev nD) (i : grid0.Coords) (a1 : Memref sig .tc .vmem S40x20000 .f32) (h1 : a1.IsWhole) (a2 : Memref sig .tc .vmem S40x20000 .f32) (h2 : a2.IsWhole) (a3 : Memref sig .tc .vmem S40x4000 .f32) (h3 : a3.IsWhole) (a4 : Memref sig .tc .vmem S40x4000 .f32) (h4 : a4.IsWhole) (a5 : Memref sig .tc .vmem S40x4000 .f32) (h5 : a5.IsWhole) (a6 : Memref sig .tc .vmem S20000x5 .f32) (h6 : a6.IsWhole) (a7 : Memref sig .tc .vmem S8x128 .f32) (h7 : a7.IsWhole)
    (hc : isFirst i) (x1 : Vec Ideal S40x20000 .f32) (x2 : Vec Ideal S40x20000 .f32) (x3 : Vec Ideal S40x4000 .f32) (x4 : Vec Ideal S40x4000 .f32) (x5 : Vec Ideal S40x4000 .f32) (x6 : Vec Ideal S20000x5 .f32) (ch : Fin 5) :
    outFirst (F := Ideal) c i a1 h1 a2 h2 a3 h3 a4 h4 a5 h5 a6 h6 a7 h7 hc x1 x2 x3 x4 x5 x6 (cellSq ch) = 0 + k0_pay8 (F := Ideal) x1 x2 x6 (ix2 0 ch) := by
  unfold outFirst
  unfold runFirst
  dsimp only
  sl_unfold_words
  refine (View.read_writes_cons_unit_of_not_mem _ _ _ _ _ _ rfl (0 : Fin 2) (Or.inl (show (0 : ℕ) < 2 from by omega))).trans ?_
  refine (View.read_writes_cons_unit_of_not_mem _ _ _ _ _ _ rfl (0 : Fin 2) (Or.inl (show (0 : ℕ) < 2 from by omega))).trans ?_
  refine (View.read_writes_cons_unit_of_not_mem _ _ _ _ _ _ rfl (0 : Fin 2) (Or.inl (show (0 : ℕ) < 2 from by omega))).trans ?_
  refine (View.read_writes_cons_unit_of_not_mem _ _ _ _ _ _ rfl (0 : Fin 2) (Or.inl (show (0 : ℕ) < 2 from by omega))).trans ?_
  refine (View.read_writes_cons_unit_of_not_mem _ _ _ _ _ _ rfl (0 : Fin 2) (Or.inl (show (0 : ℕ) < 1 from by omega))).trans ?_
  refine (View.read_writes_cons_unit_of_mem _ _ _ _ _ _ (ix2 (0 : Fin 1) ch) rfl ?_).trans ?_
  · exact Fin.forall_fin_two.mpr ⟨rfl, (Nat.zero_add _).symm⟩
  refine (pay19_apply _ _ _).trans (add_congr ?_ ?_)
  · exact (readCov_apply _ _ _ _).trans (read_zero _ _ _)
  · simp only [View.readAt_eq_ld, h1.read_unread, h2.read_unread, h6.read_unread, View.ld_unit_zero (S := S40x20000) zeroOffsets, View.ld_unit_zero (S := S20000x5) zeroOffsets]

theorem outFirst_cnt (c : Dev nD) (i : grid0.Coords) (a1 : Memref sig .tc .vmem S40x20000 .f32) (h1 : a1.IsWhole) (a2 : Memref sig .tc .vmem S40x20000 .f32) (h2 : a2.IsWhole) (a3 : Memref sig .tc .vmem S40x4000 .f32) (h3 : a3.IsWhole) (a4 : Memref sig .tc .vmem S40x4000 .f32) (h4 : a4.IsWhole) (a5 : Memref sig .tc .vmem S40x4000 .f32) (h5 : a5.IsWhole) (a6 : Memref sig .tc .vmem S20000x5 .f32) (h6 : a6.IsWhole) (a7 : Memref sig .tc .vmem S8x128 .f32) (h7 : a7.IsWhole)
    (hc : isFirst i) (x1 : Vec Ideal S40x20000 .f32) (x2 : Vec Ideal S40x20000 .f32) (x3 : Vec Ideal S40x4000 .f32) (x4 : Vec Ideal S40x4000 .f32) (x5 : Vec Ideal S40x4000 .f32) (x6 : Vec Ideal S20000x5 .f32) (ch : Fin 5) :
    outFirst (F := Ideal) c i a1 h1 a2 h2 a3 h3 a4 h4 a5 h5 a6 h6 a7 h7 hc x1 x2 x3 x4 x5 x6 (cellCnt ch) = 0 + k0_pay9 (F := Ideal) x2 x6 (ix2 0 ch) := by
  unfold outFirst
  unfold runFirst
  dsimp only
  sl_unfold_words
  refine (View.read_writes_cons_unit_of_not_mem _ _ _ _ _ _ rfl (0 : Fin 2) (Or.inl (show (1 : ℕ) < 2 from by omega))).trans ?_
  refine (View.read_writes_cons_unit_of_not_mem _ _ _ _ _ _ rfl (0 : Fin 2) (Or.inl (show (1 : ℕ) < 2 from by omega))).trans ?_
  refine (View.read_writes_cons_unit_of_not_mem _ _ _ _ _ _ rfl (0 : Fin 2) (Or.inl (show (1 : ℕ) < 2 from by omega))).trans ?_
  refine (View.read_writes_cons_unit_of_not_mem _ _ _ _ _ _ rfl (0 : Fin 2) (Or.inl (show (1 : ℕ) < 2 from by omega))).trans ?_
  refine (View.read_writes_cons_unit_of_mem _ _ _ _ _ _ (ix2 (0 : Fin 1) ch) rfl ?_).trans ?_
  · exact Fin.forall_fin_two.mpr ⟨rfl, (Nat.zero_add _).symm⟩
  refine (pay20_apply _ _ _).trans (add_congr ?_ ?_)
  ·
    refine (readCov_apply _ _ _ _).trans ?_
    refine (View.read_writes_cons_unit_of_not_mem _ _ _ _ _ _ rfl (0 : Fin 2) (Or.inr (show (1 : ℕ) ≤ 1 from by omega))).trans ?_
    exact read_zero _ _ _
  · simp only [View.readAt_eq_ld, h2.read_unread, h6.read_unread, View.ld_unit_zero (S := S40x20000) zeroOffsets, View.ld_unit_zero (S := S20000x5) zeroOffsets]

theorem outFirst_s1 (c : Dev nD) (i : grid0.Coords) (a1 : Memref sig .tc .vmem S40x20000 .f32) (h1 : a1.IsWhole) (a2 : Memref sig .tc .vmem S40x20000 .f32) (h2 : a2.IsWhole) (a3 : Memref sig .tc .vmem S40x4000 .f32) (h3 : a3.IsWhole) (a4 : Memref sig .tc .vmem S40x4000 .f32) (h4 : a4.IsWhole) (a5 : Memref sig .tc .vmem S40x4000 .f32) (h5 : a5.IsWhole) (a6 : Memref sig .tc .vmem S20000x5 .f32) (h6 : a6.IsWhole) (a7 : Memref sig .tc .vmem S8x128 .f32) (h7 : a7.IsWhole)
    (hc : isFirst i) (x1 : Vec Ideal S40x20000 .f32) (x2 : Vec Ideal S40x20000 .f32) (x3 : Vec Ideal S40x4000 .f32) (x4 : Vec Ideal S40x4000 .f32) (x5 : Vec Ideal S40x4000 .f32) (x6 : Vec Ideal S20000x5 .f32) :
    outFirst (F := Ideal) c i a1 h1 a2 h2 a3 h3 a4 h4 a5 h5 a6 h6 a7 h7 hc x1 x2 x3 x4 x5 x6 cellS1 = k0_pay21 (F := Ideal) (k0_pay10 (F := Ideal) x3) (k0_pay11 (F := Ideal) x4) (k0_pay13 (F := Ideal) x5) (fun _ => 0) (ix2 0 0) := by
  unfold outFirst
  unfold runFirst
  dsimp only
  sl_unfold_words
  refine (View.read_writes_cons_unit_of_not_mem _ _ _ _ _ _ rfl (1 : Fin 2) (Or.inl (show (0 : ℕ) < 3 from by omega))).trans ?_
  refine (View.read_writes_cons_unit_of_not_mem _ _ _ _ _ _ rfl (1 : Fin 2) (Or.inl (show (0 : ℕ) < 2 from by omega))).trans ?_
  refine (View.read_writes_cons_unit_of_not_mem _ _ _ _ _ _ rfl (1 : Fin 2) (Or.inl (show (0 : ℕ) < 1 from by omega))).trans ?_
  refine (View.read_writes_cons_unit_of_mem _ _ _ _ _ _ (ix2 (0 : Fin 1) (0 : Fin 1)) rfl ?_).trans ?_
  · exact Fin.forall_fin_two.mpr ⟨rfl, rfl⟩
  refine (congrFun (congrArg (k0_pay21 (F := Ideal) _ _ _)
    (show _ = (fun _ => (0 : Ideal .f32)) from funext fun j => ?_)) (ix2 0 0)).trans ?_
  · obtain rfl := eq_ix00 j
    refine (readCov_apply _ _ _ _).trans ?_
    refine (View.read_writes_cons_unit_of_not_mem _ _ _ _ _ _ rfl (0 : Fin 2) (Or.inr (show (2 : ℕ) ≤ 2 from by omega))).trans ?_
    refine (View.read_writes_cons_unit_of_not_mem _ _ _ _ _ _ rfl (0 : Fin 2) (Or.inr (show (1 : ℕ) ≤ 2 from by omega))).trans ?_
    exact read_zero _ _ _
  · simp only [View.readAt_eq_ld, h3.read_unread, h4.read_unread, h5.read_unread, View.ld_unit_zero (S := S40x4000) zeroOffsets]

theorem outFirst_n1 (c : Dev nD) (i : grid0.Coords) (a1 : Memref sig .tc .vmem S40x20000 .f32) (h1 : a1.IsWhole) (a2 : Memref sig .tc .vmem S40x20000 .f32) (h2 : a2.IsWhole) (a3 : Memref sig .tc .vmem S40x4000 .f32) (h3 : a3.IsWhole) (a4 : Memref sig .tc .vmem S40x4000 .f32) (h4 : a4.IsWhole) (a5 : Memref sig .tc .vmem S40x4000 .f32) (h5 : a5.IsWhole) (a6 : Memref sig .tc .vmem S20000x5 .f32) (h6 : a6.IsWhole) (a7 : Memref sig .tc .vmem S8x128 .f32) (h7 : a7.IsWhole)
    (hc : isFirst i) (x1 : Vec Ideal S40x20000 .f32) (x2 : Vec Ideal S40x20000 .f32) (x3 : Vec Ideal S40x4000 .f32) (x4 : Vec Ideal S40x4000 .f32) (x5 : Vec Ideal S40x4000 .f32) (x6 : Vec Ideal S20000x5 .f32) :
    outFirst (F := Ideal) c i a1 h1 a2 h2 a3 h3 a4 h4 a5 h5 a6 h6 a7 h7 hc x1 x2 x3 x4 x5 x6 cellN1 = 0 + k0_pay16 (F := Ideal) (k0_pay13 (F := Ideal) x5) (ix2 0 0) := by
  unfold outFirst
  unfold runFirst
  dsimp only
  sl_unfold_words
  refine (View.read_writes_cons_unit_of_not_mem _ _ _ _ _ _ rfl (1 : Fin 2) (Or.inl (show (1 : ℕ) < 3 from by omega))).trans ?_
  refine (View.read_writes_cons_unit_of_not_mem _ _ _ _ _ _ rfl (1 : Fin 2) (Or.inl (show (1 : ℕ) < 2 from by omega))).trans ?_
  refine (View.read_writes_cons_unit_of_mem _ _ _ _ _ _ (ix2 (0 : Fin 1) (0 : Fin 1)) rfl ?_).trans ?_
  · exact Fin.forall_fin_two.mpr ⟨rfl, rfl⟩
  refine (pay1_apply _ _ _).trans (add_congr ?_ ?_)
  ·
    refine (readCov_apply _ _ _ _).trans ?_
    refine (View.read_writes_cons_unit_of_not_mem _ _ _ _ _ _ rfl (1 : Fin 2) (Or.inr (show (1 : ℕ) ≤ 1 from by omega))).trans ?_
    refine (View.read_writes_cons_unit_of_not_mem _ _ _ _ _ _ rfl (0 : Fin 2) (Or.inr (show (2 : ℕ) ≤ 2 from by omega))).trans ?_
    refine (View.read_writes_cons_unit_of_not_mem _ _ _ _ _ _ rfl (0 : Fin 2) (Or.inr (show (1 : ℕ) ≤ 2 from by omega))).trans ?_
    exact read_zero _ _ _
  · simp only [View.readAt_eq_ld, h5.read_unread, View.ld_unit_zero (S := S40x4000) zeroOffsets]

theorem outFirst_s2 (c : Dev nD) (i : grid0.Coords) (a1 : Memref sig .tc .vmem S40x20000 .f32) (h1 : a1.IsWhole) (a2 : Memref sig .tc .vmem S40x20000 .f32) (h2 : a2.IsWhole) (a3 : Memref sig .tc .vmem S40x4000 .f32) (h3 : a3.IsWhole) (a4 : Memref sig .tc .vmem S40x4000 .f32) (h4 : a4.IsWhole) (a5 : Memref sig .tc .vmem S40x4000 .f32) (h5 : a5.IsWhole) (a6 : Memref sig .tc .vmem S20000x5 .f32) (h6 : a6.IsWhole) (a7 : Memref sig .tc .vmem S8x128 .f32) (h7 : a7.IsWhole)
    (hc : isFirst i) (x1 : Vec Ideal S40x20000 .f32) (x2 : Vec Ideal S40x20000 .f32) (x3 : Vec Ideal S40x4000 .f32) (x4 : Vec Ideal S40x4000 .f32) (x5 : Vec Ideal S40x4000 .f32) (x6 : Vec Ideal S20000x5 .f32) :
    outFirst (F := Ideal) c i a1 h1 a2 h2 a3 h3 a4 h4 a5 h5 a6 h6 a7 h7 hc x1 x2 x3 x4 x5 x6 cellS2 = 0 + k0_pay17 (F := Ideal) (k0_pay10 (F := Ideal) x3) (k0_pay12 (F := Ideal) x5) (ix2 0 0) := by
  unfold outFirst
  unfold runFirst
  dsimp only
  sl_unfold_words
  refine (View.read_writes_cons_unit_of_not_mem _ _ _ _ _ _ rfl (1 : Fin 2) (Or.inl (show (2 : ℕ) < 3 from by omega))).trans ?_
  refine (View.read_writes_cons_unit_of_mem _ _ _ _ _ _ (ix2 (0 : Fin 1) (0 : Fin 1)) rfl ?_).trans ?_
  · exact Fin.forall_fin_two.mpr ⟨rfl, rfl⟩
  refine (pay2_apply _ _ _).trans (add_congr ?_ ?_)
  ·
    refine (readCov_apply _ _ _ _).trans ?_
    refine (View.read_writes_cons_unit_of_not_mem _ _ _ _ _ _ rfl (1 : Fin 2) (Or.inr (show (2 : ℕ) ≤ 2 from by omega))).trans ?_
    refine (View.read_writes_cons_unit_of_not_mem _ _ _ _ _ _ rfl (1 : Fin 2) (Or.inr (show (1 : ℕ) ≤ 2 from by omega))).trans ?_
    refine (View.read_writes_cons_unit_of_not_mem _ _ _ _ _ _ rfl (0 : Fin 2) (Or.inr (show (2 : ℕ) ≤ 2 from by omega))).trans ?_
    refine (View.read_writes_cons_unit_of_not_mem _ _ _ _ _ _ rfl (0 : Fin 2) (Or.inr (show (1 : ℕ) ≤ 2 from by omega))).trans ?_
    exact read_zero _ _ _
  · simp only [View.readAt_eq_ld, h3.read_unread, h5.read_unread, View.ld_unit_zero (S := S40x4000) zeroOffsets]

theorem outFirst_n2 (c : Dev nD) (i : grid0.Coords) (a1 : Memref sig .tc .vmem S40x20000 .f32) (h1 : a1.IsWhole) (a2 : Memref sig .tc .vmem S40x20000 .f32) (h2 : a2.IsWhole) (a3 : Memref sig .tc .vmem S40x4000 .f32) (h3 : a3.IsWhole) (a4 : Memref sig .tc .vmem S40x4000 .f32) (h4 : a4.IsWhole) (a5 : Memref sig .tc .vmem S40x4000 .f32) (h5 : a5.IsWhole) (a6 : Memref sig .tc .vmem S20000x5 .f32) (h6 : a6.IsWhole) (a7 : Memref sig .tc .vmem S8x128 .f32) (h7 : a7.IsWhole)
    (hc : isFirst i) (x1 : Vec Ideal S40x20000 .f32) (x2 : Vec Ideal S40x20000 .f32) (x3 : Vec Ideal S40x4000 .f32) (x4 : Vec Ideal S40x4000 .f32) (x5 : Vec Ideal S40x4000 .f32) (x6 : Vec Ideal S20000x5 .f32) :
    outFirst (F := Ideal) c i a1 h1 a2 h2 a3 h3 a4 h4 a5 h5 a6 h6 a7 h7 hc x1 x2 x3 x4 x5 x6 cellN2 = 0 + k0_pay18 (F := Ideal) (k0_pay12 (F := Ideal) x5) (ix2 0 0) := by
  unfold outFirst
  unfold runFirst
  dsimp only
  sl_unfold_words
  refine (View.read_writes_cons_unit_of_mem _ _ _ _ _ _ (ix2 (0 : Fin 1) (0 : Fin 1)) rfl ?_).trans ?_
  · exact Fin.forall_fin_two.mpr ⟨rfl, rfl⟩
  refine (pay3_apply _ _ _).trans (add_congr ?_ ?_)
  ·
    refine (readCov_apply _ _ _ _).trans ?_
    refine (View.read_writes_cons_unit_of_not_mem _ _ _ _ _ _ rfl (1 : Fin 2) (Or.inr (show (3 : ℕ) ≤ 3 from by omega))).trans ?_
    refine (View.read_writes_cons_unit_of_not_mem _ _ _ _ _ _ rfl (1 : Fin 2) (Or.inr (show (2 : ℕ) ≤ 3 from by omega))).trans ?_
    refine (View.read_writes_cons_unit_of_not_mem _ _ _ _ _ _ rfl (1 : Fin 2) (Or.inr (show (1 : ℕ) ≤ 3 from by omega))).trans ?_
    refine (View.read_writes_cons_unit_of_not_mem _ _ _ _ _ _ rfl (0 : Fin 2) (Or.inr (show (2 : ℕ) ≤ 2 from by omega))).trans ?_
    refine (View.read_writes_cons_unit_of_not_mem _ _ _ _ _ _ rfl (0 : Fin 2) (Or.inr (show (1 : ℕ) ≤ 2 from by omega))).trans ?_
    exact read_zero _ _ _
  · simp only [View.readAt_eq_ld, h5.read_unread, View.ld_unit_zero (S := S40x4000) zeroOffsets]

end Cert.KernelIdeal.Hand

end
-- ==== Proof.ValKI.Blocks.lean ====
/-
  The launch's five input blocks, entry by entry, as entries of the program's argument arrays.

  The grid has fifty points. At point t every input window stages block (t, 0) of its array, forty rows tall and as
  wide as the array, so entry (r, k) of the block is entry (40·t + r, k) of the array. The arrays themselves are what
  the host lines before the launch made of the arguments:

    * windows 0 and 1 read the first two arguments, [2000, 4000, 5], laid out as [2000, 20000]: column k of a row
      is position k / 5 along the middle axis and channel k % 5 (row-major order keeps the last axis fastest);
    * window 2 reads the third argument, [2000, 4000, 1], with its unit axis dropped;
    * windows 3 and 4 read channel 0 and channel 1 of the fourth argument, [2000, 4000, 2], each cut out along the
      last axis and then with the unit axis dropped.

  Each statement below is the composition of these two readings: block to array, array to argument.
-/
import proofs.«169479_j35270271434986_1_alg».proof.Proof.FrameKI.Around
import Idealize.ShloMosaic.Lib.Pipeline.Value
import Idealize.ShloMosaic.Lib.StableHlo.Run
import Idealize.ShloMosaic.Lib.ValueIdx

noncomputable section

namespace Cert.KernelIdeal.Hand

open Cert.KernelIdeal Cert.KernelIdeal.Gen Idealize.ShloMosaic Idealize.ShloMosaic.ValueIdx
open Idealize.ShloMosaic.TcCoe Idealize.SL.Sem

variable (m : (ℓ : Loc nD τ sig) → Buf (Elt Ideal) ℓ)

/-! ## Rows -/

/-- Row r of the block at point t is a row of the array: fifty blocks of forty rows tile the two thousand. -/
theorem row_lt (t : Fin cfg0.N) (r : Fin 40) : 40 * t.val + r.val < 2000 := by
  have hN : cfg0.N = 50 := N_0
  have ht := t.isLt
  have hr := r.isLt
  omega

/-! ## Names of literal type

The arrays the windows stage, the arguments they were made from, and the blocks, each under its literal shape. -/

/-- The first argument, as the program was started with it. -/
abbrev arg0 (c : Dev nD) : Vec Ideal S2000x4000x5 .f32 := m ((c : Thread nD τ).loc main_arg0)
/-- The second argument. -/
abbrev arg1 (c : Dev nD) : Vec Ideal S2000x4000x5 .f32 := m ((c : Thread nD τ).loc main_arg1)
/-- The third argument. -/
abbrev arg2 (c : Dev nD) : Vec Ideal S2000x4000x1 .f32 := m ((c : Thread nD τ).loc main_arg2)
/-- The fourth argument, two channels. -/
abbrev arg3 (c : Dev nD) : Vec Ideal S2000x4000x2 .f32 := m ((c : Thread nD τ).loc main_arg3)

/-- Window 0's array as the launch finds it. -/
abbrev arr0 (c : Dev nD) : Vec Ideal S2000x20000 .f32 := V m c main_v0
/-- Window 1's array. -/
abbrev arr1 (c : Dev nD) : Vec Ideal S2000x20000 .f32 := V m c main_v1
/-- Window 2's array. -/
abbrev arr2 (c : Dev nD) : Vec Ideal S2000x4000 .f32 := V m c main_v2
/-- Window 3's array. -/
abbrev arr3 (c : Dev nD) : Vec Ideal S2000x4000 .f32 := V m c main_v4
/-- Window 4's array. -/
abbrev arr4 (c : Dev nD) : Vec Ideal S2000x4000 .f32 := V m c main_v6

/-- Window 0's block at point t. -/
abbrev blk0 (c : Dev nD) (t : Fin cfg0.N) : Vec Ideal S40x20000 .f32 := iblk m c 0 t
/-- Window 1's block. -/
abbrev blk1 (c : Dev nD) (t : Fin cfg0.N) : Vec Ideal S40x20000 .f32 := iblk m c 1 t
/-- Window 2's block. -/
abbrev blk2 (c : Dev nD) (t : Fin cfg0.N) : Vec Ideal S40x4000 .f32 := iblk m c 2 t
/-- Window 3's block. -/
abbrev blk3 (c : Dev nD) (t : Fin cfg0.N) : Vec Ideal S40x4000 .f32 := iblk m c 3 t
/-- Window 4's block. -/
abbrev blk4 (c : Dev nD) (t : Fin cfg0.N) : Vec Ideal S40x4000 .f32 := iblk m c 4 t

/-! ## A block is its array at an offset

Every input window's index map sends point t to block (t, 0); this is decided once over the fifty points. A block's
coordinate in the array is block index times block extent plus the coordinate inside the block. -/

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)

/-- Entry (r, k) of window 0's block at t is entry (40·t + r, k) of its array. -/
theorem blk0_read (c : Dev nD) (t : Fin cfg0.N) (r : Fin 40) (k : Fin 20000) :
    blk0 m c t (ix2 r k) = arr0 m c (ix2 ⟨40 * t.val + r.val, row_lt t r⟩ k) := by
  have hi := index0 t
  unfold blk0 arr0 iblk
  rw [View.read_apply]
  show V m c main_v0 _ = V m c main_v0 _
  congr 1
  funext a
  apply Fin.ext
  match a with
  | ⟨0, _⟩ => show win0_0.index t 0 * 40 + 1 * r.val = 40 * t.val + r.val; rw [hi.1]; omega
  | ⟨1, _⟩ => show win0_0.index t 1 * 20000 + 1 * k.val = k.val; rw [hi.2]; omega

/-- The same for window 1. -/
theorem blk1_read (c : Dev nD) (t : Fin cfg0.N) (r : Fin 40) (k : Fin 20000) :
    blk1 m c t (ix2 r k) = arr1 m c (ix2 ⟨40 * t.val + r.val, row_lt t r⟩ k) := by
  have hi := index1 t
  unfold blk1 arr1 iblk
  rw [View.read_apply]
  show V m c main_v1 _ = V m c main_v1 _
  congr 1
  funext a
  apply Fin.ext
  match a with
  | ⟨0, _⟩ => show win0_1.index t 0 * 40 + 1 * r.val = 40 * t.val + r.val; rw [hi.1]; omega
  | ⟨1, _⟩ => show win0_1.index t 1 * 20000 + 1 * k.val = k.val; rw [hi.2]; omega

/-- Entry (r, j) of window 2's block at t is entry (40·t + r, j) of its array. -/
theorem blk2_read (c : Dev nD) (t : Fin cfg0.N) (r : Fin 40) (j : Fin 4000) :
    blk2 m c t (ix2 r j) = arr2 m c (ix2 ⟨40 * t.val + r.val, row_lt t r⟩ j) := by
  have hi := index2 t
  unfold blk2 arr2 iblk
  rw [View.read_apply]
  show V m c main_v2 _ = V m c main_v2 _
  congr 1
  funext a
  apply Fin.ext
  match a with
  | ⟨0, _⟩ => show win0_2.index t 0 * 40 + 1 * r.val = 40 * t.val + r.val; rw [hi.1]; omega
  | ⟨1, _⟩ => show win0_2.index t 1 * 4000 + 1 * j.val = j.val; rw [hi.2]; omega

/-- The same for window 3. -/
theorem blk3_read (c : Dev nD) (t : Fin cfg0.N) (r : Fin 40) (j : Fin 4000) :
    blk3 m c t (ix2 r j) = arr3 m c (ix2 ⟨40 * t.val + r.val, row_lt t r⟩ j) := by
  have hi := index3 t
  unfold blk3 arr3 iblk
  rw [View.read_apply]
  show V m c main_v4 _ = V m c main_v4 _
  congr 1
  funext a
  apply Fin.ext
  match a with
  | ⟨0, _⟩ => show win0_3.index t 0 * 40 + 1 * r.val = 40 * t.val + r.val; rw [hi.1]; omega
  | ⟨1, _⟩ => show win0_3.index t 1 * 4000 + 1 * j.val = j.val; rw [hi.2]; omega

/-- The same for window 4. -/
theorem blk4_read (c : Dev nD) (t : Fin cfg0.N) (r : Fin 40) (j : Fin 4000) :
    blk4 m c t (ix2 r j) = arr4 m c (ix2 ⟨40 * t.val + r.val, row_lt t r⟩ j) := by
  have hi := index4 t
  unfold blk4 arr4 iblk
  rw [View.read_apply]
  show V m c main_v6 _ = V m c main_v6 _
  congr 1
  funext a
  apply Fin.ext
  match a with
  | ⟨0, _⟩ => show win0_4.index t 0 * 40 + 1 * r.val = 40 * t.val + r.val; rw [hi.1]; omega
  | ⟨1, _⟩ => show win0_4.index t 1 * 4000 + 1 * j.val = j.val; rw [hi.2]; omega

/-! ## The arrays are the arguments, laid out again

Of the host lines before the launch only the first seven concern these five arrays: three re-layouts of whole
arguments, and two channels each cut out and then re-laid. The later lines write other buffers and leave these as
they are. -/

/-- Window 0's array is the first argument with its last two axes merged. -/
theorem arr0_eq (c : Dev nD) :
    arr0 m c = shapeCast S2000x20000 (arg0 m c) shapeCasts_S2000x4000x5_S2000x20000 := by
  show (V m c main_v0 : S2000x20000.Idx → EReal) = _
  dsimp only [V, V0]
  simp only [linesBefore, hostOps0, hostOps0_1, hostOps0_2, List.flatten_cons, List.flatten_nil, List.append_nil,
    List.cons_append, List.nil_append]
  after_results
  rfl

/-- Window 1's array is the second argument with its last two axes merged. -/
theorem arr1_eq (c : Dev nD) :
    arr1 m c = shapeCast S2000x20000 (arg1 m c) shapeCasts_S2000x4000x5_S2000x20000 := by
  show (V m c main_v1 : S2000x20000.Idx → EReal) = _
  dsimp only [V, V0]
  simp only [linesBefore, hostOps0, hostOps0_1, hostOps0_2, List.flatten_cons, List.flatten_nil, List.append_nil,
    List.cons_append, List.nil_append]
  after_results
  rfl

/-- Window 2's array is the third argument without its unit axis. -/
theorem arr2_eq (c : Dev nD) :
    arr2 m c = shapeCast S2000x4000 (arg2 m c) shapeCasts_S2000x4000x1_S2000x4000 := by
  show (V m c main_v2 : S2000x4000.Idx → EReal) = _
  dsimp only [V, V0]
  simp only [linesBefore, hostOps0, hostOps0_1, hostOps0_2, List.flatten_cons, List.flatten_nil, List.append_nil,
    List.cons_append, List.nil_append]
  after_results
  rfl

/-- Window 3's array is channel 0 of the fourth argument, cut out and without the unit axis. -/
theorem arr3_eq (c : Dev nD) :
    arr3 m c = shapeCast S2000x4000
      (extractStridedSlice S2000x4000x1 ![0, 0, 0] (arg3 m c) slices_S2000x4000x2_S2000x4000x1_0_0_0)
      shapeCasts_S2000x4000x1_S2000x4000 := by
  show (V m c main_v4 : S2000x4000.Idx → EReal) = _
  dsimp only [V, V0]
  simp only [linesBefore, hostOps0, hostOps0_1, hostOps0_2, List.flatten_cons, List.flatten_nil, List.append_nil,
    List.cons_append, List.nil_append]
  after_results
  rfl

/-- Window 4's array is channel 1 of the fourth argument, cut out and without the unit axis. -/
theorem arr4_eq (c : Dev nD) :
    arr4 m c = shapeCast S2000x4000
      (extractStridedSlice S2000x4000x1 ![0, 0, 1] (arg3 m c) slices_S2000x4000x2_S2000x4000x1_0_0_1)
      shapeCasts_S2000x4000x1_S2000x4000 := by
  show (V m c main_v6 : S2000x4000.Idx → EReal) = _
  dsimp only [V, V0]
  simp only [linesBefore, hostOps0, hostOps0_1, hostOps0_2, List.flatten_cons, List.flatten_nil, List.append_nil,
    List.cons_append, List.nil_append]
  after_results
  rfl

/-! ## The layouts read at an index

Two arrays laid out over the same entries agree where the row-major positions agree. -/

/-- Merging the last two axes of [2000, 4000, 5]: column k is position k / 5, channel k % 5, since
    (R·4000 + k / 5)·5 + k % 5 = R·20000 + k. -/
theorem merged_apply (x : Vec Ideal S2000x4000x5 .f32) (R : Fin 2000) (k : Fin 20000) :
    shapeCast S2000x20000 x shapeCasts_S2000x4000x5_S2000x20000 (ix2 R k)
      = x (ix3 R ⟨k.val / 5, by omega⟩ ⟨k.val % 5, Nat.mod_lt _ (by norm_num)⟩) := by
  refine shapeCast_apply x _ _ _ ?_
  rw [Shape.rowMajor_val_three, Shape.rowMajor_val_two]
  show (R.val * 4000 + k.val / 5) * 5 + k.val % 5 = R.val * 20000 + k.val
  omega

/-- Dropping the unit last axis of [2000, 4000, 1]: entry (R, j) is entry (R, j, 0). -/
theorem dropped_apply (x : Vec Ideal S2000x4000x1 .f32) (R : Fin 2000) (j : Fin 4000) :
    shapeCast S2000x4000 x shapeCasts_S2000x4000x1_S2000x4000 (ix2 R j) = x (ix3 R j 0) := by
  refine shapeCast_apply x _ _ _ ?_
  rw [Shape.rowMajor_val_three, Shape.rowMajor_val_two]
  show (R.val * 4000 + j.val) * 1 + 0 = R.val * 4000 + j.val
  omega

/-- Channel 0 cut out of [2000, 4000, 2]: entry (R, j, 0) of the cut is entry (R, j, 0) of the whole. -/
theorem channel0_apply (x : Vec Ideal S2000x4000x2 .f32) (R : Fin 2000) (j : Fin 4000) :
    extractStridedSlice S2000x4000x1 ![0, 0, 0] x slices_S2000x4000x2_S2000x4000x1_0_0_0 (ix3 R j 0)
      = x (ix3 R j 0) := by
  unfold extractStridedSlice
  congr 1
  funext a
  apply Fin.ext
  match a with
  | ⟨0, _⟩ => show 0 + R.val = R.val; omega
  | ⟨1, _⟩ => show 0 + j.val = j.val; omega
  | ⟨2, _⟩ => show 0 + 0 = 0; rfl

/-- Channel 1 cut out of [2000, 4000, 2]: entry (R, j, 0) of the cut is entry (R, j, 1) of the whole. -/
theorem channel1_apply (x : Vec Ideal S2000x4000x2 .f32) (R : Fin 2000) (j : Fin 4000) :
    extractStridedSlice S2000x4000x1 ![0, 0, 1] x slices_S2000x4000x2_S2000x4000x1_0_0_1 (ix3 R j 0)
      = x (ix3 R j 1) := by
  unfold extractStridedSlice
  congr 1
  funext a
  apply Fin.ext
  match a with
  | ⟨0, _⟩ => show 0 + R.val = R.val; omega
  | ⟨1, _⟩ => show 0 + j.val = j.val; omega
  | ⟨2, _⟩ => show 1 + 0 = 1; rfl

/-! ## The blocks as entries of the arguments -/

/-- Entry (r, k) of window 0's block at t is the first argument at row 40·t + r, position k / 5, channel k % 5. -/
theorem blk0_apply (c : Dev nD) (t : Fin cfg0.N) (r : Fin 40) (k : Fin 20000) :
    (iblk m c 0 t : Vec Ideal S40x20000 .f32) (ix2 r k)
      = m ((c : Thread nD τ).loc main_arg0)
          (ix3 ⟨40 * t.val + r.val, row_lt t r⟩ ⟨k.val / 5, by omega⟩ ⟨k.val % 5, Nat.mod_lt _ (by norm_num)⟩) :=
  (blk0_read m c t r k).trans
    ((congrFun (arr0_eq m c) (ix2 ⟨40 * t.val + r.val, row_lt t r⟩ k)).trans
      (merged_apply (arg0 m c) ⟨40 * t.val + r.val, row_lt t r⟩ k))

/-- Entry (r, k) of window 1's block at t is the second argument at row 40·t + r, position k / 5, channel k % 5. -/
theorem blk1_apply (c : Dev nD) (t : Fin cfg0.N) (r : Fin 40) (k : Fin 20000) :
    (iblk m c 1 t : Vec Ideal S40x20000 .f32) (ix2 r k)
      = m ((c : Thread nD τ).loc main_arg1)
          (ix3 ⟨40 * t.val + r.val, row_lt t r⟩ ⟨k.val / 5, by omega⟩ ⟨k.val % 5, Nat.mod_lt _ (by norm_num)⟩) :=
  (blk1_read m c t r k).trans
    ((congrFun (arr1_eq m c) (ix2 ⟨40 * t.val + r.val, row_lt t r⟩ k)).trans
      (merged_apply (arg1 m c) ⟨40 * t.val + r.val, row_lt t r⟩ k))

/-- Entry (r, j) of window 2's block at t is the third argument at row 40·t + r, position j. -/
theorem blk2_apply (c : Dev nD) (t : Fin cfg0.N) (r : Fin 40) (j : Fin 4000) :
    (iblk m c 2 t : Vec Ideal S40x4000 .f32) (ix2 r j)
      = m ((c : Thread nD τ).loc main_arg2) (ix3 ⟨40 * t.val + r.val, row_lt t r⟩ j 0) :=
  (blk2_read m c t r j).trans
    ((congrFun (arr2_eq m c) (ix2 ⟨40 * t.val + r.val, row_lt t r⟩ j)).trans
      (dropped_apply (arg2 m c) ⟨40 * t.val + r.val, row_lt t r⟩ j))

/-- Entry (r, j) of window 3's block at t is channel 0 of the fourth argument at row 40·t + r, position j. -/
theorem blk3_apply (c : Dev nD) (t : Fin cfg0.N) (r : Fin 40) (j : Fin 4000) :
    (iblk m c 3 t : Vec Ideal S40x4000 .f32) (ix2 r j)
      = m ((c : Thread nD τ).loc main_arg3) (ix3 ⟨40 * t.val + r.val, row_lt t r⟩ j 0) :=
  (blk3_read m c t r j).trans
    ((congrFun (arr3_eq m c) (ix2 ⟨40 * t.val + r.val, row_lt t r⟩ j)).trans
      ((dropped_apply _ ⟨40 * t.val + r.val, row_lt t r⟩ j).trans
        (channel0_apply (arg3 m c) ⟨40 * t.val + r.val, row_lt t r⟩ j)))

/-- Entry (r, j) of window 4's block at t is channel 1 of the fourth argument at row 40·t + r, position j. -/
theorem blk4_apply (c : Dev nD) (t : Fin cfg0.N) (r : Fin 40) (j : Fin 4000) :
    (iblk m c 4 t : Vec Ideal S40x4000 .f32) (ix2 r j)
      = m ((c : Thread nD τ).loc main_arg3) (ix3 ⟨40 * t.val + r.val, row_lt t r⟩ j 1) :=
  (blk4_read m c t r j).trans
    ((congrFun (arr4_eq m c) (ix2 ⟨40 * t.val + r.val, row_lt t r⟩ j)).trans
      ((dropped_apply _ ⟨40 * t.val + r.val, row_lt t r⟩ j).trans
        (channel1_apply (arg3 m c) ⟨40 * t.val + r.val, row_lt t r⟩ j)))

end Cert.KernelIdeal.Hand

end
-- ==== Proof.ValKI.Selector.lean ====
/-
  The one-hot channel selector. The launch's sixth input window stages, at every grid point, the whole
  array f32[20000, 5] that the host lines build from constants alone: row k, column ch holds 1 when
  k mod 5 = ch and 0 otherwise. The host lines compute k mod 5 as a truncating signed remainder followed
  by a sign fix-up ("if the remainder is nonzero and its sign differs from the divisor's, add the divisor");
  for 0 ≤ k < 20000 and the divisor 5 both are non-negative, the fix-up is never taken, and the truncating
  remainder of the words is the remainder of the numbers. The comparison of two words below 5 is the
  comparison of their values, and the conversion of the resulting bit to a float is 1 or 0.
-/
import proofs.«169479_j35270271434986_1_alg».proof.Proof.FrameKI.Around
import Idealize.ShloMosaic.Lib.StableHlo.Run
import Idealize.ShloMosaic.Lib.StableHlo.Predicate
import Idealize.ShloMosaic.Lib.Affine
import Idealize.ShloMosaic.Lib.ValueIdx

noncomputable section

namespace Cert.KernelIdeal.Hand

open Cert.KernelIdeal Cert.KernelIdeal.Gen Idealize.ShloMosaic Idealize.ShloMosaic.ValueIdx
open Idealize.ShloMosaic.StableHlo

/-! ## Words -/

/-- The truncating signed remainder by five of a word below 20000 is the word of the number's remainder. -/
theorem remsi_five (k : Nat) (hk : k < 20000) :
    IntOp.remsi .host (BitVec.ofNat 32 k) 5#32 = BitVec.ofNat 32 (k % 5) := by
  apply BitVec.eq_of_toNat_eq
  have hx : (BitVec.ofNat 32 k).toNat = k := by rw [BitVec.toNat_ofNat]; omega
  rw [show (5#32 : BitVec 32) = BitVec.ofNat 32 5 from rfl,
    IntOp.toNat_remsi .host (by rw [hx]; omega) 5 (by omega) (by omega), hx, BitVec.toNat_ofNat]
  omega

/-- The guarded divisor: five is not zero, so it stays five. -/
theorem divisor_five : Scalar.select (IntOp.cmpi .eq (5#32 : BitVec 32) 0#32) (1#32 : BitVec 32) 5#32 = 5#32 := by decide

/-- The sign fix-up leaves a remainder below five alone: it is not negative, and neither is the divisor. -/
theorem fixup_keeps (j : Nat) (hj : j < 5) :
    Scalar.select
      (IntOp.andi (IntOp.cmpi .ne (IntOp.cmpi .slt (BitVec.ofNat 32 j) 0#32) (IntOp.cmpi .slt (5#32 : BitVec 32) 0#32))
        (IntOp.cmpi .ne (BitVec.ofNat 32 j) 0#32))
      (IntOp.addi (BitVec.ofNat 32 j) 5#32) (BitVec.ofNat 32 j) = BitVec.ofNat 32 j := by
  interval_cases j <;> decide

/-- Two words of numbers below five are equal exactly when the numbers are. -/
theorem eq_small (a b : Nat) (ha : a < 5) (hb : b < 5) :
    IntOp.cmpi .eq (BitVec.ofNat 32 a) (BitVec.ofNat 32 b) = if a = b then 1#1 else 0#1 := by
  interval_cases a <;> interval_cases b <;> decide

/-- The bit as an extended real: one or zero. -/
theorem bit_real (p : Prop) [Decidable p] :
    (FloatOps.uitofp (F := Ideal) .f32 (if p then 1#1 else 0#1 : BitVec 1) : EReal) = if p then 1 else 0 := by
  by_cases h : p
  · rw [if_pos h, if_pos h]; show (((1#1 : BitVec 1).toNat : ℝ) : EReal) = 1; simp
  · rw [if_neg h, if_neg h]; show (((0#1 : BitVec 1).toNat : ℝ) : EReal) = 0; simp

/-! ## The host lines' term -/

section Term

/-- The divisor as the remainder function guards it: one in place of zero, itself otherwise. -/
def divisorWord : IVec S_ 32 :=
  select (cmpi .eq (constantI S_ 32 5#32) (constantI S_ 32 0#32)) (constantI S_ 32 1#32) (constantI S_ 32 5#32)

/-- The truncating remainders of 0, …, 19999 by the divisor. -/
def truncRem : IVec S20000 32 :=
  Host.remsi (iotaInDim S20000 32 0) (broadcastInDim S20000 ![] bcast_S_S20000 divisorWord)

/-- The remainders after the sign fix-up. -/
def fixedRem : IVec S20000 32 :=
  select
    (andi
      (cmpi .ne (cmpi .slt truncRem (broadcastInDim S20000 ![] bcast_S_S20000 (constantI S_ 32 0#32)))
        (broadcastInDim S20000 ![] bcast_S_S20000 (cmpi .slt divisorWord (constantI S_ 32 0#32))))
      (cmpi .ne truncRem (broadcastInDim S20000 ![] bcast_S_S20000 (constantI S_ 32 0#32))))
    (addi truncRem (broadcastInDim S20000 ![] bcast_S_S20000 divisorWord)) truncRem

/-- The selector's bits: row k's remainder against the column number. -/
def selectorBits : IVec S20000x5 1 :=
  cmpi .eq
    (broadcastInDim S20000x5 ![0, 1] bcast_S20000x1_S20000x5_0_1 (broadcastInDim S20000x1 ![0] bcast_S20000_S20000x1_0 fixedRem))
    (broadcastInDim S20000x5 ![0, 1] bcast_S1x5_S20000x5_0_1 (broadcastInDim S1x5 ![1] bcast_S5_S1x5_1 (iotaInDim S5 32 0)))

end Term

/-! ## The term at an index -/

theorem divisorWord_apply (i : S_.Idx) : divisorWord i = 5#32 := divisor_five

theorem truncRem_apply (k : Fin 20000) : truncRem (ix1 k) = BitVec.ofNat 32 (k.val % 5) := by
  show IntOp.remsi .host (BitVec.ofNat 32 k.val) (divisorWord ix0) = _
  rw [divisorWord_apply]
  exact remsi_five k.val k.isLt

theorem fixedRem_apply (k : Fin 20000) : fixedRem (ix1 k) = BitVec.ofNat 32 (k.val % 5) := by
  show Scalar.select
      (IntOp.andi (IntOp.cmpi .ne (IntOp.cmpi .slt (truncRem (ix1 k)) 0#32) (IntOp.cmpi .slt (divisorWord ix0) 0#32))
        (IntOp.cmpi .ne (truncRem (ix1 k)) 0#32))
      (IntOp.addi (truncRem (ix1 k)) (divisorWord ix0)) (truncRem (ix1 k)) = _
  rw [divisorWord_apply, truncRem_apply]
  exact fixup_keeps (k.val % 5) (Nat.mod_lt _ (by decide))

theorem ofFin_eq_ix1 {n : Nat} (k : Fin n) : Shape.Idx.ofFin k = ix1 k := by
  funext a; match a with | ⟨0, _⟩ => exact Fin.ext rfl

theorem selectorBits_apply (k : Fin 20000) (ch : Fin 5) :
    selectorBits (ix2 k ch) = if k.val % 5 = ch.val then 1#1 else 0#1 := by
  show IntOp.cmpi .eq
      (broadcastInDim S20000x5 ![0, 1] bcast_S20000x1_S20000x5_0_1 (broadcastInDim S20000x1 ![0] bcast_S20000_S20000x1_0 fixedRem) (ix2 k ch))
      (broadcastInDim S20000x5 ![0, 1] bcast_S1x5_S20000x5_0_1 (broadcastInDim S1x5 ![1] bcast_S5_S1x5_1 (iotaInDim S5 32 0)) (ix2 k ch)) = _
  rw [show broadcastInDim S20000x5 ![0, 1] bcast_S20000x1_S20000x5_0_1 (broadcastInDim S20000x1 ![0] bcast_S20000_S20000x1_0 fixedRem) (ix2 k ch)
        = fixedRem (ix1 k) from
      (Predicate.bcast_rows bcast_S20000_S20000x1_0 bcast_S20000x1_S20000x5_0_1 fixedRem k ch).trans (congrArg fixedRem (ofFin_eq_ix1 k)),
    show broadcastInDim S20000x5 ![0, 1] bcast_S1x5_S20000x5_0_1 (broadcastInDim S1x5 ![1] bcast_S5_S1x5_1 (iotaInDim S5 32 0)) (ix2 k ch)
        = BitVec.ofNat 32 ch.val from
      (Predicate.bcast_cols bcast_S5_S1x5_1 bcast_S1x5_S20000x5_0_1 (iotaInDim S5 32 0) k ch).trans (Predicate.iota_apply ch),
    fixedRem_apply]
  exact eq_small (k.val % 5) ch.val (Nat.mod_lt _ (by decide)) ch.isLt

/-! ## The array the launch finds -/

section Array

variable {F : FTy → Type} [FloatOps F]
variable (m : (ℓ : Loc nD τ sig) → Buf (Elt F) ℓ)

set_option maxHeartbeats 2000000 in
/-- The selector array as the launch finds it: the host lines' term. -/
theorem V_selector (c : Dev nD) : (V m c main_v15 : Vec F S20000x5 .f32) = uitofp .f32 selectorBits := by
  dsimp only [V, V0]
  simp only [linesBefore, hostOps0, hostOps0_1, hostOps0_2, List.flatten_cons, List.flatten_nil, List.append_nil, List.cons_append, List.nil_append]
  after_results_simp
  rfl

/-- The sixth window's block is the whole array, at every grid point. -/
theorem blk5_eq (c : Dev nD) (t : Fin cfg0.N) : (iblk m c 5 t : Vec F S20000x5 .f32) = (V m c main_v15 : Vec F S20000x5 .f32) := by
  have hi : win0_5.index t 0 = 0 ∧ win0_5.index t 1 = 0 :=
    (by decide +kernel : ∀ t : Fin grid0.N, win0_5.index t 0 = 0 ∧ win0_5.index t 1 = 0) t
  funext j
  unfold iblk
  rw [View.read_apply]
  show V m c main_v15 _ = V m c main_v15 _
  congr 1
  funext a
  apply Fin.ext
  match a with
  | ⟨0, _⟩ => show win0_5.index t 0 * 20000 + 1 * (j 0).val = (j 0).val; rw [hi.1]; omega
  | ⟨1, _⟩ => show win0_5.index t 1 * 5 + 1 * (j 1).val = (j 1).val; rw [hi.2]; omega

end Array

/-! ## At the extended reals -/

variable (m : (ℓ : Loc nD τ sig) → Buf (Elt Ideal) ℓ)

/-- Row k, column ch of the selector is 1 when k mod 5 = ch, else 0. -/
theorem sel_apply (c : Dev nD) (k : Fin 20000) (ch : Fin 5) :
    (V m c main_v15 : S20000x5.Idx → EReal) (ix2 k ch) = (if k.val % 5 = ch.val then 1 else 0 : EReal) := by
  refine (congrFun (V_selector (F := Ideal) m c) (ix2 k ch)).trans ?_
  show (FloatOps.uitofp (F := Ideal) .f32 (selectorBits (ix2 k ch)) : EReal) = _
  rw [selectorBits_apply]
  exact bit_real _

/-- The same of the sixth window's block at any grid point. -/
theorem blk5_apply (c : Dev nD) (t : Fin cfg0.N) (k : Fin 20000) (ch : Fin 5) :
    (iblk m c 5 t : Vec Ideal S20000x5 .f32) (ix2 k ch) = (if k.val % 5 = ch.val then 1 else 0 : EReal) := by
  refine (congrFun (blk5_eq (F := Ideal) m c t) (ix2 k ch)).trans ?_
  exact sel_apply m c k ch

end Cert.KernelIdeal.Hand

end
-- ==== Proof.ValKI.Final.lean ====
/-
  The accumulator is written back to the result array exactly once, after the last of the fifty grid points, and its
  one block is the whole 8×128 array: so after the launch the result array holds what the accumulator's staging buffer
  held after point 49.
-/
import proofs.«169479_j35270271434986_1_alg».proof.Proof.FrameKI.Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last grid point. -/
abbrev tLast : Fin cfg0.N := ⟨49, by rw [show cfg0.N = 50 from N_0]; decide⟩

/-- What the accumulator's buffer holds after the last point. -/
abbrev accLast (c : Dev nD) : Vec F S8x128 .f32 := accAt m c 49 tLast.isLt

/-- The one write-back writes it: block (0, 0) of the 8×128 array, read through zero offsets, is the array. -/
theorem flushed_last (c : Dev nD) (t : Fin cfg0.N) (hf : (cfg0.win 6).flush t = true) :
    (dats m 0 c).flushed 6 t = ((cfg0.win 6).blk t).view.read (Elt F) (accLast m c) := by
  have hN : cfg0.N = 50 := N_0
  have h49 : t.val = 49 := by have := (flush0_6 t).mp hf; have := t.isLt; omega
  obtain rfl : t = tLast := Fin.ext h49
  show (cfg0.win 6).cut (grid0.coords tLast) ((dats m 0 c).after 6 tLast) = _
  rw [after6]
  have hz' : (fun a => win0_6.index tLast a * main_v16.ty.shape.size a) = fun _ => 0 := funext fun a => by fin_cases a <;> decide +kernel
  exact (Memref.read_access_unit_zero (Elt F) main_v16 hz' (fun a => by rw [congrFun hz' a]; simp) (accLast m c)).symm

/-- So the result array ends holding the accumulator's contents after the last point. -/
theorem final_acc (c : Dev nD) : (dats m 0 c).arrAt 6 cfg0.N = accLast m c :=
  (dats m 0 c).arrAt_eq_of_cover 6 (accLast m c) (flushed_last m c) fun i =>
    ⟨tLast, (flush0_6 tLast).mpr rfl, by
      show i ∈ ((View.whole main_v16).slice (win0_6.rect tLast)).set
      rw [View.set_slice_whole, Rect.mem_set_unit]
      intro a
      have h0 : (i 0 : Nat) < 8 := (i 0).isLt
      have h1 : (i 1 : Nat) < 128 := (i 1).isLt
      match a with
      | ⟨0, _⟩ => show win0_6.index tLast 0 * win0_6.size 0 ≤ (i 0 : Nat) ∧ (i 0 : Nat) < win0_6.index tLast 0 * win0_6.size 0 + win0_6.xsize (grid0.coords tLast) 0
                  rw [show win0_6.index tLast 0 * win0_6.size 0 = 0 from by decide +kernel, show win0_6.xsize (grid0.coords tLast) 0 = 8 from by decide +kernel]; omega
      | ⟨1, _⟩ => show win0_6.index tLast 1 * win0_6.size 1 ≤ (i 1 : Nat) ∧ (i 1 : Nat) < win0_6.index tLast 1 * win0_6.size 1 + win0_6.xsize (grid0.coords tLast) 1
                  rw [show win0_6.index tLast 1 * win0_6.size 1 = 0 from by decide +kernel, show win0_6.xsize (grid0.coords tLast) 1 = 128 from by decide +kernel]; omega⟩

end Cert.KernelIdeal.Hand

end
-- ==== Proof.LibTileSum.lean ====
/-
  Sums over an index set made of B equal tiles followed by a tail, and the few facts about the extended reals that go
  with them. A sum over Fin (B * E + N) is the sum over the B tiles of E plus the sum over the tail of N, and the same
  holds for a sum restricted by a predicate; a sum over the tiles of a quantity that does not depend on the tile is B
  copies of it; a sum over the places of Fin N equal to j is the term at j; B copies of a REAL number c, added in the
  extended reals, are (B : ℝ) * c (the extended reals are not a semiring, so the statement is made for real c); the
  inclusion of the reals commutes with finite sums, so a finite sum of real numbers is a real number; a sum of a one per
  element is the number of elements; the reciprocal square root of 1 is 1 and that of a positive real r is the real
  number (sqrt r)⁻¹; and in a family of integers all below K nobody equals a j with K ≤ j.
-/
import Idealize.ShloMosaic.PureOps.Ideal

noncomputable section

namespace Cert.Lib.TileSum

open Idealize.ShloMosaic

/-! ### Tiles and tail -/

theorem tile_lt {B E : ℕ} (N : ℕ) (t : Fin B) (e : Fin E) : t.val * E + e.val < B * E + N := by
  have h1 : t.val * E + e.val < (t.val + 1) * E := by
    have := e.isLt
    rw [Nat.add_mul, Nat.one_mul]
    omega
  have h2 : (t.val + 1) * E ≤ B * E := Nat.mul_le_mul_right E (Nat.succ_le_of_lt t.isLt)
  omega

/-- The flat position of element e of tile t: t * E + e. -/
def tileIx (B E N : ℕ) (t : Fin B) (e : Fin E) : Fin (B * E + N) := ⟨t.val * E + e.val, tile_lt N t e⟩

/-- The flat position of element n of the tail: B * E + n. -/
def tailIx (B E N : ℕ) (n : Fin N) : Fin (B * E + N) := ⟨B * E + n.val, by have := n.isLt; omega⟩

@[simp] theorem tileIx_val (B E N : ℕ) (t : Fin B) (e : Fin E) : (tileIx B E N t e).val = t.val * E + e.val := rfl
@[simp] theorem tailIx_val (B E N : ℕ) (n : Fin N) : (tailIx B E N n).val = B * E + n.val := rfl

/-- A sum over Fin (B * E) is the sum over the B tiles of the sums over the E places of a tile. -/
theorem sum_tiles {M : Type*} [AddCommMonoid M] (B E : ℕ) (g : Fin (B * E) → M) :
    ∑ k : Fin (B * E), g k = ∑ t : Fin B, ∑ e : Fin E, g ⟨t.val * E + e.val, by simpa using tile_lt 0 t e⟩ := by
  rw [← Fintype.sum_prod_type' (f := fun (t : Fin B) (e : Fin E) => g ⟨t.val * E + e.val, by simpa using tile_lt 0 t e⟩)]
  rw [← (finProdFinEquiv (m := B) (n := E)).sum_comp g]
  refine Finset.sum_congr rfl fun p _ => ?_
  congr 1
  apply Fin.ext
  simp [finProdFinEquiv, Nat.mul_comm, Nat.add_comm]

/-- A sum over Fin (B * E + N) is the sum over the B tiles of E plus the sum over the tail of N. -/
theorem sum_tiles_tail {M : Type*} [AddCommMonoid M] (B E N : ℕ) (f : Fin (B * E + N) → M) :
    ∑ k : Fin (B * E + N), f k
      = (∑ t : Fin B, ∑ e : Fin E, f (tileIx B E N t e)) + ∑ n : Fin N, f (tailIx B E N n) := by
  rw [Fin.sum_univ_add, sum_tiles]
  rfl

/-- The same for a sum restricted by a predicate: each tile, and the tail, restricted by the predicate at its places. -/
theorem sum_filter_tiles_tail {M : Type*} [AddCommMonoid M] (B E N : ℕ) (p : Fin (B * E + N) → Prop) [DecidablePred p]
    (f : Fin (B * E + N) → M) :
    ∑ k ∈ Finset.univ.filter p, f k
      = (∑ t : Fin B, ∑ e ∈ Finset.univ.filter (fun e => p (tileIx B E N t e)), f (tileIx B E N t e))
        + ∑ n ∈ Finset.univ.filter (fun n => p (tailIx B E N n)), f (tailIx B E N n) := by
  rw [Finset.sum_filter, sum_tiles_tail]
  simp only [Finset.sum_filter]

/-- A sum over the B tiles of a quantity that does not depend on the tile is B copies of it. -/
theorem sum_tiles_const {M : Type*} [AddCommMonoid M] (B : ℕ) (c : M) : ∑ _t : Fin B, c = B • c := by
  simp

/-- A sum over the places of Fin N whose value is j is the term at j. -/
theorem sum_filter_val_eq {M : Type*} [AddCommMonoid M] {N : ℕ} (j : ℕ) (hj : j < N) (f : Fin N → M) :
    ∑ n ∈ Finset.univ.filter (fun n : Fin N => n.val = j), f n = f ⟨j, hj⟩ := by
  have h : Finset.univ.filter (fun n : Fin N => n.val = j) = {⟨j, hj⟩} := by
    ext n
    simp [Fin.ext_iff]
  rw [h, Finset.sum_singleton]

/-! ### Real numbers inside the extended reals -/

/-- The inclusion of the reals commutes with finite sums. -/
theorem coe_finset_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem exists_real_sum {ι : Type*} (s : Finset ι) (f : ι → EReal) (h : ∀ i ∈ s, ∃ r : ℝ, f i = (r : EReal)) :
    ∃ r : ℝ, ∑ i ∈ s, f i = (r : EReal) := by
  classical
  choose! g hg using h
  exact ⟨∑ i ∈ s, g i, by rw [coe_finset_sum]; exact Finset.sum_congr rfl hg⟩

/-- A product of two real numbers is a real number. -/
theorem exists_real_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

/-- B copies of a real number c are (B : ℝ) * c. -/
theorem nsmul_coe (B : ℕ) (c : ℝ) : B • (c : EReal) = ((B : ℝ) : EReal) * (c : EReal) := by
  rw [← EReal.coe_nsmul, nsmul_eq_mul, EReal.coe_mul]

/-- B copies of a real number c, summed over the tiles, are (B : ℝ) * c. -/
theorem sum_tiles_real (B : ℕ) (c : ℝ) : ∑ _t : Fin B, (c : EReal) = ((B : ℝ) : EReal) * (c : EReal) := by
  rw [sum_tiles_const, nsmul_coe]

/-- A sum of a one per element, in the extended reals, is the number of elements. -/
theorem sum_ones {ι : Type*} (s : Finset ι) : ∑ _i ∈ s, (1 : EReal) = ((s.card : ℝ) : EReal) := by
  have h := coe_finset_sum s (fun _ => (1 : ℝ))
  rw [Finset.sum_const, nsmul_eq_mul, mul_one] at h
  rw [h]
  simp only [EReal.coe_one]

/-! ### The reciprocal square root -/

/-- The reciprocal square root of 1 is 1. -/
theorem rsqrt_one : Ideal.rsqrt ((1 : ℝ) : EReal) = 1 := by
  rw [Ideal.rsqrt_coe]
  norm_num

/-- The reciprocal square root of a positive real r is the real number (sqrt r)⁻¹. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- The reciprocal square root of a positive real is a real number. -/
theorem exists_real_rsqrt {r : ℝ} (h : 0 < r) : ∃ q : ℝ, Ideal.rsqrt (r : EReal) = (q : EReal) :=
  ⟨_, rsqrt_pos h⟩

/-! ### Bounded targets -/

/-- In a family of integers all below K, nobody equals a j with K ≤ j. -/
theorem filter_eq_empty_of_lt {E : ℕ} (d : Fin E → ℤ) (K : ℤ) (hd : ∀ e, d e < K) (j : ℤ) (hj : K ≤ j) :
    Finset.univ.filter (fun e => d e = j) = ∅ := by
  apply Finset.filter_eq_empty_iff.mpr
  intro e _ he
  have := hd e
  omega

end Cert.Lib.TileSum

end
-- ==== Proof.Reindex.lean ====
/-
  Re-indexing the kernel's sums. The kernel walks the 2000 days in 50 tiles of 40 rows and sees a day's
  4000 regions × 5 channels as one row of 20000 lanes, lane k holding region k / 5 and channel k mod 5; it picks a
  channel out of a row by multiplying with the selector "k mod 5 = ch". Summed over tiles, rows and lanes this is the
  plain double sum over days and regions of the channel's entries, and the selector summed alone counts the
  2000 · 4000 entries of a channel.
-/
import proofs.«169479_j35270271434986_1_alg».proof.Proof.Spec
import proofs.«169479_j35270271434986_1_alg».proof.Proof.LibTileSum

noncomputable section

namespace Cert.Spec

open Idealize.ShloMosaic Idealize.ShloMosaic.ValueIdx Cert.Lib.TileSum

theorem row_lt' (t : Fin 50) (r : Fin 40) : 40 * t.val + r.val < 2000 := by
  have := t.isLt; have := r.isLt; omega

set_option maxRecDepth 8192 in
/-- A sum over the 2000 days is the sum over the 50 tiles of the sums over a tile's 40 rows. -/
theorem sum_days {M : Type*} [AddCommMonoid M] (G : Fin 2000 → M) :
    ∑ a : Fin 2000, G a = ∑ t : Fin 50, ∑ r : Fin 40, G ⟨40 * t.val + r.val, row_lt' t r⟩ := by
  have e : (50 * 40 : ℕ) = 2000 := rfl
  have h := sum_tiles (M := M) 50 40 (fun k => G (Fin.cast e k))
  refine ((Fin.sum_congr' G e).symm.trans h).trans ?_
  refine Finset.sum_congr rfl fun t _ => Finset.sum_congr rfl fun r _ => ?_
  exact congrArg G (Fin.ext (show t.val * 40 + r.val = 40 * t.val + r.val by omega))

set_option maxRecDepth 8192 in
/-- A sum over the 20000 lanes is the sum over the 4000 regions of the sums over a region's 5 channels. -/
theorem sum_lanes {M : Type*} [AddCommMonoid M] (G : Fin 20000 → M) :
    ∑ k : Fin 20000, G k = ∑ b : Fin 4000, ∑ e : Fin 5, G ⟨5 * b.val + e.val, by have := b.isLt; have := e.isLt; omega⟩ := by
  have e5 : (4000 * 5 : ℕ) = 20000 := rfl
  have h := sum_tiles (M := M) 4000 5 (fun k => G (Fin.cast e5 k))
  refine ((Fin.sum_congr' G e5).symm.trans h).trans ?_
  refine Finset.sum_congr rfl fun b _ => Finset.sum_congr rfl fun e _ => ?_
  exact congrArg G (Fin.ext (show b.val * 5 + e.val = 5 * b.val + e.val by omega))

/-- Picking channel `ch` out of a row of lanes by the selector: the sum over the lanes of a lane's term times
    "its channel is ch" is the sum over the regions of the term at that region's lane of channel ch. -/
theorem sum_lanes_select (ch : Fin 5) (T : (b : Fin 4000) → (e : Fin 5) → EReal) :
    ∑ k : Fin 20000, T ⟨k.val / 5, by have := k.isLt; omega⟩ ⟨k.val % 5, Nat.mod_lt _ (by norm_num)⟩
        * (if k.val % 5 = ch.val then (1 : EReal) else 0)
      = ∑ b : Fin 4000, T b ch := by
  rw [sum_lanes]
  refine Finset.sum_congr rfl fun b _ => ?_
  have hb := b.isLt
  have key : ∀ e : Fin 5,
      T ⟨(5 * b.val + e.val) / 5, by have := e.isLt; omega⟩ ⟨(5 * b.val + e.val) % 5, Nat.mod_lt _ (by norm_num)⟩
          * (if (5 * b.val + e.val) % 5 = ch.val then (1 : EReal) else 0)
        = if e = ch then T b ch else 0 := by
    intro e
    have he := e.isLt
    have h1 : (5 * b.val + e.val) / 5 = b.val := by omega
    have h2 : (5 * b.val + e.val) % 5 = e.val := by omega
    have e1 : (⟨(5 * b.val + e.val) / 5, by omega⟩ : Fin 4000) = b := Fin.ext h1
    have e2 : (⟨(5 * b.val + e.val) % 5, Nat.mod_lt _ (by norm_num)⟩ : Fin 5) = e := Fin.ext h2
    rw [e1, e2, h2]
    by_cases hc : e = ch
    · subst hc; simp
    · have : ¬ e.val = ch.val := fun h => hc (Fin.ext h)
      simp [hc, this]
  rw [Finset.sum_congr rfl fun e _ => key e]
  simp

/-- The per-channel sum of squares, as the kernel accumulates it. -/
theorem reindex_sq (A0 A1 : Arr5) (ch : Fin 5) :
    ∑ t : Fin 50, ∑ r : Fin 40, ∑ k : Fin 20000,
        sqd (A0 (ix3 ⟨40 * t.val + r.val, row_lt' t r⟩ ⟨k.val / 5, by have := k.isLt; omega⟩ ⟨k.val % 5, Nat.mod_lt _ (by norm_num)⟩))
            (A1 (ix3 ⟨40 * t.val + r.val, row_lt' t r⟩ ⟨k.val / 5, by have := k.isLt; omega⟩ ⟨k.val % 5, Nat.mod_lt _ (by norm_num)⟩))
          * (if k.val % 5 = ch.val then (1 : EReal) else 0)
      = sumSq A0 A1 ch := by
  unfold sumSq
  rw [sum_days]
  refine Finset.sum_congr rfl fun t _ => Finset.sum_congr rfl fun r _ => ?_
  exact sum_lanes_select ch (fun b e => sqd (A0 (ix3 ⟨40 * t.val + r.val, row_lt' t r⟩ b e)) (A1 (ix3 ⟨40 * t.val + r.val, row_lt' t r⟩ b e)))

/-- The selector summed alone counts a channel's entries: 50 · 40 · 4000. -/
theorem reindex_cnt (ch : Fin 5) :
    ∑ _t : Fin 50, ∑ _r : Fin 40, ∑ k : Fin 20000, (if k.val % 5 = ch.val then (1 : EReal) else 0) = count := by
  have h : ∑ k : Fin 20000, (if k.val % 5 = ch.val then (1 : EReal) else 0) = ((4000 : ℝ) : EReal) := by
    have := sum_lanes_select ch (fun _ _ => (1 : EReal))
    simp only [one_mul] at this
    rw [this, sum_ones, Finset.card_univ, Fintype.card_fin]
    norm_num
  simp only [h, sum_tiles_real, ← EReal.coe_mul]
  unfold count
  norm_num

/-- A sum over tiles, rows and regions is the double sum over days and regions. -/
theorem reindex_rows (G : Fin 2000 → Fin 4000 → EReal) :
    ∑ t : Fin 50, ∑ r : Fin 40, ∑ j : Fin 4000, G ⟨40 * t.val + r.val, row_lt' t r⟩ j = ∑ a : Fin 2000, ∑ b : Fin 4000, G a b := by
  rw [sum_days (fun a => ∑ b : Fin 4000, G a b)]

end Cert.Spec

end
-- ==== Proof.ValKI.Total.lean ====
/-
  The accumulator after the last grid point, cell by cell, as sums over the argument arrays.

  Each of the fourteen cells starts at zero plus the first block's partial sum and gains one block's partial sum per
  later point, so after point 49 it holds the sum over the fifty points of the blocks' partial sums. A block of the two
  big operands is forty days of the argument array seen as rows of 20000 lanes; a block of the three small operands is
  forty days of 4000 regions; the selector block is the whole one-hot table. Summing over points, rows and lanes is
  summing over days and regions.
-/
import proofs.«169479_j35270271434986_1_alg».proof.Proof.ValKI.Payloads
import proofs.«169479_j35270271434986_1_alg».proof.Proof.ValKI.Cells
import proofs.«169479_j35270271434986_1_alg».proof.Proof.ValKI.Blocks
import proofs.«169479_j35270271434986_1_alg».proof.Proof.ValKI.Selector
import proofs.«169479_j35270271434986_1_alg».proof.Proof.ValKI.Final
import proofs.«169479_j35270271434986_1_alg».proof.Proof.Reindex

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ)

/-- A quantity that starts at zero plus the first increment and gains one increment per step is the sum of the
    increments so far. -/
theorem acc_sum {N : ℕ} (f : (n : ℕ) → n < N → EReal) (inc : ℕ → EReal)
    (h0 : ∀ h, f 0 h = 0 + inc 0)
    (hs : ∀ n (h : n + 1 < N), f (n + 1) h = f n (Nat.lt_of_succ_lt h) + inc (n + 1)) :
    ∀ n (h : n < N), f n h = ∑ t ∈ Finset.range (n + 1), inc t
  | 0, h => by rw [h0, zero_add]; simp
  | n + 1, h => by rw [hs, acc_sum f inc h0 hs n, ← Finset.sum_range_succ inc (n + 1)]

theorem lt_N (t : Fin 50) : t.val < cfg0.N := lt_of_lt_of_eq t.isLt (show 50 = cfg0.N from N_0.symm)

/-- One cell of the accumulator after the last point: the sum over the fifty points of the point's increment. -/
theorem acc_cell (c : Dev nD) (cell : S8x128.Idx) (g : Fin cfg0.N → EReal)
    (h0 : ∀ h : 0 < cfg0.N, accAt m c 0 h cell = 0 + g ⟨0, h⟩)
    (hs : ∀ n (h : n + 1 < cfg0.N), accAt m c (n + 1) h cell = accAt m c n (Nat.lt_of_succ_lt h) cell + g ⟨n + 1, h⟩) :
    accLast m c cell = ∑ t : Fin 50, g ⟨t.val, lt_N t⟩ := by
  have key := acc_sum (N := cfg0.N) (fun n h => accAt m c n h cell) (fun t => if h : t < cfg0.N then g ⟨t, h⟩ else 0)
    (fun h => by rw [h0 h, dif_pos h])
    (fun n h => by rw [hs n h, dif_pos h])
  show accAt m c 49 _ cell = _
  rw [key 49 tLast.isLt, Finset.sum_range]
  exact Finset.sum_congr rfl fun t _ => dif_pos (lt_N t)

/-! ## The two rows of per-channel sums -/

theorem cell_sq (c : Dev nD) (ch : Fin 5) :
    accLast m c (cellSq ch) = sumSq (m ((c : Thread nD τ).loc main_arg0)) (m ((c : Thread nD τ).loc main_arg1)) ch := by
  rw [acc_cell m c (cellSq ch)
    (fun t => k0_pay8 (F := Ideal) (iblk m c 0 t) (iblk m c 1 t) (iblk m c 5 t) (ix2 0 ch))
    (fun h => by simp only [accAt]; exact outFirst_sq ..)
    (fun n h => by simp only [accAt]; exact outLater_sq ..)]
  rw [← reindex_sq]
  refine Finset.sum_congr rfl fun t _ => ?_
  rw [pay8_cell]
  refine Finset.sum_congr rfl fun r _ => Finset.sum_congr rfl fun k _ => ?_
  rw [blk0_apply, blk1_apply, blk5_apply]

theorem cell_cnt (c : Dev nD) (ch : Fin 5) : accLast m c (cellCnt ch) = Cert.Spec.count := by
  rw [acc_cell m c (cellCnt ch)
    (fun t => k0_pay9 (F := Ideal) (iblk m c 1 t) (iblk m c 5 t) (ix2 0 ch))
    (fun h => by simp only [accAt]; exact outFirst_cnt ..)
    (fun n h => by simp only [accAt]; exact outLater_cnt ..)]
  rw [← reindex_cnt ch]
  refine Finset.sum_congr rfl fun t _ => ?_
  rw [pay9_cell]
  refine Finset.sum_congr rfl fun r _ => Finset.sum_congr rfl fun k _ => ?_
  rw [blk5_apply]

/-! ## The four cells of the masked terms -/

theorem cell_n1 (c : Dev nD) : accLast m c cellN1 = n1 (m ((c : Thread nD τ).loc main_arg3)) := by
  rw [acc_cell m c cellN1
    (fun t => k0_pay16 (F := Ideal) (k0_pay13 (iblk m c 4 t)) (ix2 0 0))
    (fun h => by simp only [accAt]; exact outFirst_n1 ..)
    (fun n h => by simp only [accAt]; exact outLater_n1 ..)]
  unfold n1
  rw [← reindex_rows]
  refine Finset.sum_congr rfl fun t _ => ?_
  rw [pay16_cell]
  refine Finset.sum_congr rfl fun r _ => Finset.sum_congr rfl fun j _ => ?_
  rw [blk4_apply]

theorem cell_n2 (c : Dev nD) : accLast m c cellN2 = n2 (m ((c : Thread nD τ).loc main_arg3)) := by
  rw [acc_cell m c cellN2
    (fun t => k0_pay18 (F := Ideal) (k0_pay12 (iblk m c 4 t)) (ix2 0 0))
    (fun h => by simp only [accAt]; exact outFirst_n2 ..)
    (fun n h => by simp only [accAt]; exact outLater_n2 ..)]
  unfold n2
  rw [← reindex_rows]
  refine Finset.sum_congr rfl fun t _ => ?_
  rw [pay18_cell]
  refine Finset.sum_congr rfl fun r _ => Finset.sum_congr rfl fun j _ => ?_
  rw [blk4_apply]

theorem cell_s2 (c : Dev nD) :
    accLast m c cellS2 = s2 (m ((c : Thread nD τ).loc main_arg2)) (m ((c : Thread nD τ).loc main_arg3)) := by
  rw [acc_cell m c cellS2
    (fun t => k0_pay17 (F := Ideal) (k0_pay10 (iblk m c 2 t)) (k0_pay12 (iblk m c 4 t)) (ix2 0 0))
    (fun h => by simp only [accAt]; exact outFirst_s2 ..)
    (fun n h => by simp only [accAt]; exact outLater_s2 ..)]
  unfold s2
  rw [← reindex_rows]
  refine Finset.sum_congr rfl fun t _ => ?_
  rw [pay17_cell]
  refine Finset.sum_congr rfl fun r _ => Finset.sum_congr rfl fun j _ => ?_
  rw [blk2_apply, blk4_apply]

theorem cell_s1 (c : Dev nD) :
    accLast m c cellS1 = s1 (m ((c : Thread nD τ).loc main_arg2)) (m ((c : Thread nD τ).loc main_arg3)) := by
  rw [acc_cell m c cellS1
    (fun t => ∑ r : Fin 40, ∑ j : Fin 4000,
      ind 0x3F800000#32 (blk4 m c t (ix2 r j))
        * (blk2 m c t (ix2 r j) - blk3 m c t (ix2 r j)) * (blk2 m c t (ix2 r j) - blk3 m c t (ix2 r j)))
    (fun h => by simp only [accAt]; rw [outFirst_s1, pay21_cell])
    (fun n h => by simp only [accAt]; rw [outLater_s1, pay21_cell])]
  unfold s1
  rw [← reindex_rows]
  refine Finset.sum_congr rfl fun t _ => Finset.sum_congr rfl fun r _ => Finset.sum_congr rfl fun j _ => ?_
  rw [show blk4 m c ⟨t.val, lt_N t⟩ (ix2 r j) = _ from blk4_apply m c ⟨t.val, lt_N t⟩ r j,
    show blk2 m c ⟨t.val, lt_N t⟩ (ix2 r j) = _ from blk2_apply m c ⟨t.val, lt_N t⟩ r j,
    show blk3 m c ⟨t.val, lt_N t⟩ (ix2 r j) = _ from blk3_apply m c ⟨t.val, lt_N t⟩ r j]

end Cert.KernelIdeal.Hand

end
-- ==== Proof.TailKI.lean ====
/-
  The lines that follow the launch, read as pure functions.

  The launch leaves one accumulator block of eight rows by a hundred and twenty-eight columns. Rows 0 and 1 hold, in
  their first five columns, each channel's sum of squared errors and its count; row 2 holds two more such pairs in its
  first four cells. The first three terms of the result are root mean squares of these: sqrt(sum / max(count, 1)),
  summed over the five channels for the first, and guarded by count > 0 for the second and the third.

  The fourth term does not read the block. It takes the first channel's day-to-day increments, squared, and gives each
  the weight one where the rain signal is the same on both days and zero where it changes. A site's days fall into
  segments, a new one beginning wherever its rain signal changes: the segment of a (day, site) is the running count of
  changes down the site's column, offset by 2000 times the site so that sites never share one. Two scatter-additions
  over the segments give each segment's weighted sum of squares and its weight, hence its mean; the term is the mean of
  those means over the segments of positive weight.

  The result is 0.6 · first + 0.1 · second + 0.1 · third + 0.1 · fourth.

  Each function below is the composition of the operations of its stretch, and the theorem says that the fold of the
  lines, read at the result buffer, is that composition: unfold the fold and read each line's result at its own buffer.
  The sums, the windowed sum and the two scatter-additions stay folded throughout — their operands have millions of
  elements, and the equation never looks inside them.
-/
import proofs.«169479_j35270271434986_1_alg».proof.Proof.FrameKI.Lines

noncomputable section

namespace Cert.KernelIdeal.Hand

open Idealize.ShloMosaic Idealize.SL.Sem
open Cert.KernelIdeal Cert.KernelIdeal.Gen

variable {F : FTy → Type} [FloatOps F]

/-! ## The three root-mean-square terms read off the accumulator block -/

/-- Row 0 of the accumulator block, columns 0 to 4: the five per-channel sums of squared errors. -/
def tailRow0 (A : Vec F S8x128 .f32) : Vec F S5 .f32 :=
  shapeCast S5 (extractStridedSlice S1x5 ![0, 0] A slices_S8x128_S1x5_0_0) shapeCasts_S1x5_S5

/-- Row 1 of the accumulator block, columns 0 to 4: the five per-channel counts. -/
def tailRow1 (A : Vec F S8x128 .f32) : Vec F S5 .f32 :=
  shapeCast S5 (extractStridedSlice S1x5 ![1, 0] A slices_S8x128_S1x5_1_0) shapeCasts_S1x5_S5

/-- The first term: over the five channels, the sum of sqrt(row 0 / max(row 1, 1)). -/
def tailLoss0 (A : Vec F S8x128 .f32) : Vec F S_ .f32 :=
  Host.reduceAdd (F := F)
    (Host.sqrt (F := F) (Host.divf (F := F) (tailRow0 A)
      (maximumf (tailRow1 A) (broadcastInDim S5 ![] bcast_S_S5 (constant (F := F) S_ .f32 0x3F800000#32)))))
    (constant (F := F) S_ .f32 0x00000000#32) reducesTo_S5_S_d0 h_S_

/-- Cell [2, 0] of the block: the second term's sum of squares. -/
def tailS1 (A : Vec F S8x128 .f32) : Vec F S_ .f32 :=
  shapeCast S_ (extractStridedSlice S1x1 ![2, 0] A slices_S8x128_S1x1_2_0) shapeCasts_S1x1_S_

/-- Cell [2, 1] of the block: the second term's count. -/
def tailN1 (A : Vec F S8x128 .f32) : Vec F S_ .f32 :=
  shapeCast S_ (extractStridedSlice S1x1 ![2, 1] A slices_S8x128_S1x1_2_1) shapeCasts_S1x1_S_

/-- Cell [2, 2] of the block: the third term's sum of squares. -/
def tailS2 (A : Vec F S8x128 .f32) : Vec F S_ .f32 :=
  shapeCast S_ (extractStridedSlice S1x1 ![2, 2] A slices_S8x128_S1x1_2_2) shapeCasts_S1x1_S_

/-- Cell [2, 3] of the block: the third term's count. -/
def tailN2 (A : Vec F S8x128 .f32) : Vec F S_ .f32 :=
  shapeCast S_ (extractStridedSlice S1x1 ![2, 3] A slices_S8x128_S1x1_2_3) shapeCasts_S1x1_S_

/-- A guarded root mean square of a sum of squares s over a count n: sqrt(s / max(n, 1)) where n > 0, and 0 where
    the count is not positive. -/
def tailRms (s n : Vec F S_ .f32) : Vec F S_ .f32 :=
  select (cmpf .ogt n (constant (F := F) S_ .f32 0x00000000#32))
    (Host.sqrt (F := F) (Host.divf (F := F) s (maximumf n (constant (F := F) S_ .f32 0x3F800000#32))))
    (constant (F := F) S_ .f32 0x00000000#32)

/-- The second term: the guarded root mean square of cells [2, 0] and [2, 1]. -/
def tailLoss1 (A : Vec F S8x128 .f32) : Vec F S_ .f32 := tailRms (tailS1 A) (tailN1 A)

/-- The third term: the guarded root mean square of cells [2, 2] and [2, 3]. -/
def tailLoss2 (A : Vec F S8x128 .f32) : Vec F S_ .f32 := tailRms (tailS2 A) (tailN2 A)

/-! ## The segment mean of squared increments -/

/-- The first channel of the first argument, as a days-by-sites matrix. -/
def tailChan (x0 : Vec F S2000x4000x5 .f32) : Vec F S2000x4000 .f32 :=
  shapeCast S2000x4000 (extractStridedSlice S2000x4000x1 ![0, 0, 0] x0 slices_S2000x4000x5_S2000x4000x1_0_0_0)
    shapeCasts_S2000x4000x1_S2000x4000

/-- The rain signal, as a days-by-sites matrix. -/
def tailRain (x4 : Vec F S2000x4000x1 .f32) : Vec F S2000x4000 .f32 :=
  shapeCast S2000x4000 x4 shapeCasts_S2000x4000x1_S2000x4000

/-- The day-to-day increment of the first channel: day d + 1 minus day d, for d below 1999. -/
def tailInc (x0 : Vec F S2000x4000x5 .f32) : Vec F S1999x4000 .f32 :=
  subf (extractStridedSlice S1999x4000 ![1, 0] (tailChan x0) slices_S2000x4000_S1999x4000_1_0)
    (extractStridedSlice S1999x4000 ![0, 0] (tailChan x0) slices_S2000x4000_S1999x4000_0_0)

/-- Its square. -/
def tailIncSq (x0 : Vec F S2000x4000x5 .f32) : Vec F S1999x4000 .f32 := mulf (tailInc x0) (tailInc x0)

/-- Where the rain signal of day d + 1 equals that of day d. -/
def tailSame (x4 : Vec F S2000x4000x1 .f32) : Vec F S1999x4000 .i1 :=
  cmpf .oeq (extractStridedSlice S1999x4000 ![1, 0] (tailRain x4) slices_S2000x4000_S1999x4000_1_0)
    (extractStridedSlice S1999x4000 ![0, 0] (tailRain x4) slices_S2000x4000_S1999x4000_0_0)

/-- One where the rain signal changes from day d to day d + 1, zero elsewhere, as 32-bit integers. -/
def tailChange (x4 : Vec F S2000x4000x1 .f32) : Vec F S1999x4000 .i32 :=
  extui 32 (noti (tailSame x4)) natLt_1_32

/-- The segment of each (day, site): the number of changes of the site's rain signal up to that day (a running sum down
    the column, as a windowed sum of width 1999 padded 1998 above), plus 2000 times the site, so that different sites
    never share a segment. -/
def tailSeg (x4 : Vec F S2000x4000x1 .f32) : Vec F S1999x4000 .i32 :=
  addi
    (Host.reduceWindow IntOp.addi ![1999, 1] ![1, 1] ![1998, 0] ![0, 0] (tailChange x4)
      (broadcastInDim S_ ![] bcast_S_S_ (constantI S_ 32 0#32))
      reduceWindows_S1999x4000_S1999x4000_w1999s1p1998_0_w1s1p0_0 h_S_)
    (broadcastInDim S1999x4000 ![0, 1] bcast_S1x4000_S1999x4000_0_1
      (muli (broadcastInDim S1x4000 ![1] bcast_S4000_S1x4000_1 (iotaInDim S4000 32 0))
        (broadcastInDim S1x4000 ![] bcast_S_S1x4000 (constantI S_ 32 2000#32))))

/-- One where the rain signal does not change, zero where it does, as floats: the weight of an increment. -/
def tailKeep (x4 : Vec F S2000x4000x1 .f32) : Vec F S1999x4000 .f32 := uitofp (F := F) .f32 (tailSame x4)

/-- The segments, flattened row-major and set as a one-column index table. -/
def tailIdx (x4 : Vec F S2000x4000x1 .f32) : Vec F S7996000x1 .i32 :=
  broadcastInDim S7996000x1 ![0] bcast_S7996000_S7996000x1_0
    (shapeCast S7996000 (tailSeg x4) shapeCasts_S1999x4000_S7996000)

/-- Eight million zeros: what both accumulations start from, and the value of an empty segment. -/
def tailZeros : Vec F S8000000 .f32 :=
  broadcastInDim S8000000 ![] bcast_S_S8000000 (constant (F := F) S_ .f32 0x00000000#32)

/-- Per segment, the sum of the weighted squared increments that fall in it. -/
def tailSegSum (x0 : Vec F S2000x4000x5 .f32) (x4 : Vec F S2000x4000x1 .f32) : Vec F S8000000 .f32 :=
  Host.scatterAdd (F := F) scatter_S8000000_S7996000x1_S7996000_n_0_0_1 tailZeros (tailIdx x4)
    (shapeCast S7996000 (mulf (tailIncSq x0) (tailKeep x4)) shapeCasts_S1999x4000_S7996000)

/-- Per segment, the sum of the weights that fall in it. -/
def tailSegCnt (x4 : Vec F S2000x4000x1 .f32) : Vec F S8000000 .f32 :=
  Host.scatterAdd (F := F) scatter_S8000000_S7996000x1_S7996000_n_0_0_1 tailZeros (tailIdx x4)
    (shapeCast S7996000 (tailKeep x4) shapeCasts_S1999x4000_S7996000)

/-- The segments of positive weight. -/
def tailSegHas (x4 : Vec F S2000x4000x1 .f32) : Vec F S8000000 .i1 := cmpf .ogt (tailSegCnt x4) tailZeros

/-- Per segment, the weighted mean sum / max(weight, 1) where the weight is positive, and 0 elsewhere. -/
def tailSegMean (x0 : Vec F S2000x4000x5 .f32) (x4 : Vec F S2000x4000x1 .f32) : Vec F S8000000 .f32 :=
  select (tailSegHas x4)
    (Host.divf (F := F) (tailSegSum x0 x4)
      (maximumf (tailSegCnt x4)
        (broadcastInDim S8000000 ![] bcast_S_S8000000 (constant (F := F) S_ .f32 0x3F800000#32))))
    tailZeros

/-- The number of segments of positive weight, as a float. -/
def tailSegNum (x4 : Vec F S2000x4000x1 .f32) : Vec F S_ .f32 :=
  sitofp (F := F) .f32
    (Host.reduce IntOp.addi (extui 32 (tailSegHas x4) natLt_1_32) (constantI S_ 32 0#32) reducesTo_S8000000_S_d0 h_S_)

/-- The fourth term: the mean over the segments of positive weight of their means — the sum of the segment means over
    max(number, 1) where the number is positive, and 0 where there is none. -/
def tailLoss3 (x0 : Vec F S2000x4000x5 .f32) (x4 : Vec F S2000x4000x1 .f32) : Vec F S_ .f32 :=
  select (cmpf .ogt (tailSegNum x4) (constant (F := F) S_ .f32 0x00000000#32))
    (Host.divf (F := F)
      (Host.reduceAdd (F := F) (tailSegMean x0 x4) (constant (F := F) S_ .f32 0x00000000#32) reducesTo_S8000000_S_d0 h_S_)
      (maximumf (tailSegNum x4) (constant (F := F) S_ .f32 0x3F800000#32)))
    (constant (F := F) S_ .f32 0x00000000#32)

/-! ## The weighted total -/

/-- The result: ((0.6 · a + 0.1 · b) + 0.1 · c) + 0.1 · d, the two weights being the binary32 words nearest 0.6 and
    0.1, in this order and association. -/
def tailTotal (a b c d : Vec F S_ .f32) : Vec F S_ .f32 :=
  addf
    (addf
      (addf (mulf (constant (F := F) S_ .f32 0x3F19999A#32) a) (mulf (constant (F := F) S_ .f32 0x3DCCCCCD#32) b))
      (mulf (constant (F := F) S_ .f32 0x3DCCCCCD#32) c))
    (mulf (constant (F := F) S_ .f32 0x3DCCCCCD#32) d)

attribute [local irreducible] Host.reduce Host.reduceAdd Host.scatterAdd Host.reduceWindow in
set_option maxRecDepth 16384 in
set_option maxHeartbeats 4000000 in
/-- What the result buffer holds once the hundred and nine lines after the launch have run: the weighted total of
    the four terms, the first three read off the accumulator block and the fourth off two of the arguments. -/
theorem tail_result (W : Valuation τ sig (Elt F)) :
    StableHlo.after (List.flatten linesAfter) W (Proc.devRef .tc main_v95)
      = tailTotal (tailLoss0 (W (Proc.devRef .tc main_v16))) (tailLoss1 (W (Proc.devRef .tc main_v16)))
          (tailLoss2 (W (Proc.devRef .tc main_v16)))
          (tailLoss3 (W (Proc.devRef .tc main_arg0)) (W (Proc.devRef .tc main_arg4))) := by
  simp only [linesAfter, hostOps1, hostOps1_1, hostOps1_2, hostOps1_3, hostOps1_4, hostOps1_5, hostOps1_6, hostOps1_7,
    hostOps1_8, hostOps1_9, hostOps1_10, List.flatten_cons, List.flatten_nil, List.append_nil, List.cons_append,
    List.nil_append]
  after_results_simp
  rfl

end Cert.KernelIdeal.Hand

end
-- ==== Proof.ValKI.KRun.lean ====
/-
  The kernel program's run with its result named: the later host lines applied to what the accumulator's buffer held
  after the last grid point, to the first argument and to the rain signal, as the program was started with them.
-/
import proofs.«169479_j35270271434986_1_alg».proof.Proof.ValKI.Final
import proofs.«169479_j35270271434986_1_alg».proof.Proof.TailKI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's result, as a function of the accumulator's last contents and of two arguments. -/
def resultOf (c : Dev nD) : Vec F S_ .f32 :=
  tailTotal (tailLoss0 (accLast m c)) (tailLoss1 (accLast m c)) (tailLoss2 (accLast m c))
    (tailLoss3 (m ((c : Thread nD τ).loc main_arg0)) (m ((c : Thread nD τ).loc main_arg4)))

/-- After the later lines the result buffer holds it: the lines read the result array, which the launch left at the
    accumulator's last contents, and two arguments, which nothing wrote. -/
theorem result_after (c : Dev nD) :
    Pipeline.afterTail₀ cfgs (dats m) 0 (V0 m) linesAfter c main_v95 = resultOf m c := by
  unfold Pipeline.afterTail₀ resultOf
  rw [tail_result]
  have hA : Pipeline.withArrays (cfgs 0).spec c (V0 m c) (fun w => (dats m 0 c).arrAt w (cfgs 0).N) (Proc.devRef .tc main_v16) = accLast m c :=
    (Pipeline.withArrays_arr spec0 launch0.win.arr_inj c _ _ 6).trans (final_acc m c)
  have h0 : Pipeline.withArrays (cfgs 0).spec c (V0 m c) (fun w => (dats m 0 c).arrAt w (cfgs 0).N) (Proc.devRef .tc main_arg0) = m ((c : Thread nD τ).loc main_arg0) :=
    (Pipeline.withArrays_of_ne _ c (V0 m c) _ main_arg0 (by decide)).trans (V_arg m c 0)
  have h4 : Pipeline.withArrays (cfgs 0).spec c (V0 m c) (fun w => (dats m 0 c).arrAt w (cfgs 0).N) (Proc.devRef .tc main_arg4) = m ((c : Thread nD τ).loc main_arg4) :=
    (Pipeline.withArrays_of_ne _ c (V0 m c) _ main_arg4 (by decide)).trans (V_arg m c 4)
  rw [hA, h0, h4]

/-- The run: every weakly fair execution terminates without fault, the result buffer ends at `resultOf`, and the
    five arguments end unchanged. -/
theorem run_value : θ_run defs (onTc (τ := τ) (main (F := F))) ⟨m, fun _ => 0, ρ⟩ (fun r => ∀ c : Dev nD,
      r.2.mem ((c.tc : Thread nD τ).loc main_v95) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v95 (Pipeline.mem_restRefs_of main_v95 (by decide) (by decide))).trans (result_after m c),
     ((h c).2 main_arg0 (Pipeline.mem_restRefs_of main_arg0 (by decide) (by decide))).trans (W_arg m (dats m) c 0),
     ((h c).2 main_arg1 (Pipeline.mem_restRefs_of main_arg1 (by decide) (by decide))).trans (W_arg m (dats m) c 1),
     ((h c).2 main_arg2 (Pipeline.mem_restRefs_of main_arg2 (by decide) (by decide))).trans (W_arg m (dats m) c 2),
     ((h c).2 main_arg3 (Pipeline.mem_restRefs_of main_arg3 (by decide) (by decide))).trans (W_arg m (dats m) c 3),
     ((h c).2 main_arg4 (Pipeline.mem_restRefs_of main_arg4 (by decide) (by decide))).trans (W_arg m (dats m) c 4)⟩)
    (run_main m ρ)

end Cert.KernelIdeal.Hand

end
-- ==== Proof.TailCells.lean ====
/-
  The cells of the accumulator block that the first three terms read, each at an index.

  Rows 0 and 1 are sliced to their first five columns and flattened: entry ch of the flat row is entry (row, ch) of the
  block. The four cells of row 2 are sliced out one by one and flattened to scalars: each is the block's entry (2, k).
  A flattening keeps row-major positions, and dropping unit axes does not move them; a slice adds its offsets.
-/
import proofs.«169479_j35270271434986_1_alg».proof.Proof.TailKI
import Idealize.ShloMosaic.Lib.ValueIdx
import Idealize.ShloMosaic.Lib.ValueLayout

noncomputable section

namespace Cert.KernelIdeal.Hand

open Idealize.ShloMosaic Idealize.SL.Sem Idealize.ShloMosaic.ValueIdx
open Cert.KernelIdeal Cert.KernelIdeal.Gen

variable {F : FTy → Type} [FloatOps F]

/-- Row r of the block, sliced to its first five columns and flattened, read at column ch: the block's entry (r, ch).
    The flattening drops a unit axis, so position ch of the flat row is position (0, ch) of the slice; the slice adds
    its offsets (r, 0) to that. -/
theorem tailRow0_apply (A : Vec F S8x128 .f32) (ch : Fin 5) :
    tailRow0 A (ix1 ch) = A (ix2 (0 : Fin 8) (⟨ch.val, by omega⟩ : Fin 128)) := by
  unfold tailRow0
  refine (shapeCast_1a_a_apply _ _ ch).trans ?_
  refine extractStridedSlice_apply _ A _ _ _ fun a => ?_
  match a with
  | ⟨0, _⟩ => rfl
  | ⟨1, _⟩ => exact (Nat.zero_add _).symm

theorem tailRow1_apply (A : Vec F S8x128 .f32) (ch : Fin 5) :
    tailRow1 A (ix1 ch) = A (ix2 (1 : Fin 8) (⟨ch.val, by omega⟩ : Fin 128)) := by
  unfold tailRow1
  refine (shapeCast_1a_a_apply _ _ ch).trans ?_
  refine extractStridedSlice_apply _ A _ _ _ fun a => ?_
  match a with
  | ⟨0, _⟩ => rfl
  | ⟨1, _⟩ => exact (Nat.zero_add _).symm

/-- A one-by-one array flattened to a scalar reads, at the scalar's one index, its one entry: both shapes have a single
    row-major position. -/
theorem shapeCast_11_scalar_apply {α : Type} (x : S1x1.Idx → α) (h : S1x1.ShapeCasts S_) (j : S_.Idx) :
    shapeCast S_ x h j = x (ix2 (0 : Fin 1) (0 : Fin 1)) :=
  shapeCast_apply x h j _ (by
    have h1 := (S1x1.rowMajor (ix2 (0 : Fin 1) (0 : Fin 1))).isLt
    have h0 := (S_.rowMajor j).isLt
    have e1 : S1x1.numel = 1 := by decide
    have e0 : S_.numel = 1 := by decide
    omega)

/-- Cell (2, k) of the block, sliced out as a one-by-one array and flattened to a scalar. -/
theorem tailS1_apply (A : Vec F S8x128 .f32) (j : S_.Idx) : tailS1 A j = A (ix2 (2 : Fin 8) (0 : Fin 128)) := by
  unfold tailS1
  refine (shapeCast_11_scalar_apply _ _ j).trans ?_
  refine extractStridedSlice_apply _ A _ _ _ fun a => ?_
  match a with
  | ⟨0, _⟩ => rfl
  | ⟨1, _⟩ => rfl

theorem tailN1_apply (A : Vec F S8x128 .f32) (j : S_.Idx) : tailN1 A j = A (ix2 (2 : Fin 8) (1 : Fin 128)) := by
  unfold tailN1
  refine (shapeCast_11_scalar_apply _ _ j).trans ?_
  refine extractStridedSlice_apply _ A _ _ _ fun a => ?_
  match a with
  | ⟨0, _⟩ => rfl
  | ⟨1, _⟩ => rfl

theorem tailS2_apply (A : Vec F S8x128 .f32) (j : S_.Idx) : tailS2 A j = A (ix2 (2 : Fin 8) (2 : Fin 128)) := by
  unfold tailS2
  refine (shapeCast_11_scalar_apply _ _ j).trans ?_
  refine extractStridedSlice_apply _ A _ _ _ fun a => ?_
  match a with
  | ⟨0, _⟩ => rfl
  | ⟨1, _⟩ => rfl

theorem tailN2_apply (A : Vec F S8x128 .f32) (j : S_.Idx) : tailN2 A j = A (ix2 (2 : Fin 8) (3 : Fin 128)) := by
  unfold tailN2
  refine (shapeCast_11_scalar_apply _ _ j).trans ?_
  refine extractStridedSlice_apply _ A _ _ _ fun a => ?_
  match a with
  | ⟨0, _⟩ => rfl
  | ⟨1, _⟩ => rfl

end Cert.KernelIdeal.Hand

end
-- ==== Proof.RefOps.lean ====
/-
  The reference program's run. Its @main is a straight line of host operations: once the seven calls of module-local
  functions (six conditional selections against a scalar zero, three on arrays and three on scalars; a column-wise
  running sum, itself one call deep) are replaced by the callees' own operations over the calls' buffer records, the
  program is 141 operations in order, one per buffer other than the five arguments. They are listed here in the three
  stretches in which @main is stated (65, 66 and 10 operations), each stretch is shown equal to its part of @main by
  unfolding the callees and re-associating the sequencing, and the three are joined. The run then says: from any memory
  with zero counters every weakly fair execution terminates, and every buffer ends at the fold of the 141 operations
  over the launch contents.
-/
import proofs.«169479_j35270271434986_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem
  Idealize.ShloMosaic.StableHlo

variable {F : FTy → Type} [FloatOps F]

/-! ## The operations, stretch by stretch -/

/-- Operations 1 … 65: the masked root-mean-square term, per channel and summed over the five channels (the first 25);
    then the two class-conditional terms, the second up to its quotient. A selection against zero is three operations
    (the zero taken at its own type, broadcast, the selection) on arrays and two on scalars (no broadcast). -/
abbrev ops0 : List (HloOp τ sig (Elt F)) :=
  [ binary main_arg1 main_arg1 main_v0 (cmpf .une),
    unary main_v0 main_v1 noti,
    nullary main_cst (constant S_ .f32 0x00000000#32),
    TRef.unary (.of main_cst) main_call0.v0 id,
    TRef.unary main_call0.v0 main_call0.v1 (broadcastInDim S2000x4000x5 ![] bcast_S_S2000x4000x5),
    TRef.ternary (.of main_v1) (.of main_arg1) main_call0.v1 main_call0.v2 select,
    binary main_arg0 main_v2 main_v3 subf,
    binary main_v3 main_v3 main_v4 mulf,
    nullary main_cst_0 (constant S_ .f32 0x00000000#32),
    TRef.unary (.of main_cst_0) main_call1.v0 id,
    TRef.unary main_call1.v0 main_call1.v1 (broadcastInDim S2000x4000x5 ![] bcast_S_S2000x4000x5),
    TRef.ternary (.of main_v1) (.of main_v4) main_call1.v1 main_call1.v2 select,
    unary main_v1 main_v6 (extui 32 · natLt_1_32),
    nullary main_c (constantI S_ 32 0#32),
    binary main_v6 main_c main_v7 (fun x v => Host.reduce IntOp.addi x v reducesTo_S2000x4000x5_S5_d0_1 h_S_),
    unary main_v7 main_v8 (sitofp .f32),
    nullary main_cst_1 (constant S_ .f32 0x00000000#32),
    binary main_v5 main_cst_1 main_v9 (fun x v => Host.reduceAdd x v reducesTo_S2000x4000x5_S5_d0_1 h_S_),
    nullary main_cst_2 (constant S_ .f32 0x3F800000#32),
    unary main_cst_2 main_v10 (broadcastInDim S5 ![] bcast_S_S5),
    binary main_v8 main_v10 main_v11 maximumf,
    binary main_v9 main_v11 main_v12 Host.divf,
    unary main_v12 main_v13 Host.sqrt,
    nullary main_cst_3 (constant S_ .f32 0x00000000#32),
    binary main_v13 main_cst_3 main_v14 (fun x v => Host.reduceAdd x v reducesTo_S5_S_d0 h_S_),
    reshape main_arg2 main_v15 rfl shapeCasts_S2000x4000x1_S2000x4000,
    unary main_arg3 main_v16 (extractStridedSlice S2000x4000x1 ![0, 0, 0] · slices_S2000x4000x2_S2000x4000x1_0_0_0),
    reshape main_v16 main_v17 rfl shapeCasts_S2000x4000x1_S2000x4000,
    unary main_arg3 main_v18 (extractStridedSlice S2000x4000x1 ![0, 0, 1] · slices_S2000x4000x2_S2000x4000x1_0_0_1),
    reshape main_v18 main_v19 rfl shapeCasts_S2000x4000x1_S2000x4000,
    nullary main_cst_4 (constant S_ .f32 0x3F800000#32),
    unary main_cst_4 main_v20 (broadcastInDim S2000x4000 ![] bcast_S_S2000x4000),
    binary main_v19 main_v20 main_v21 (cmpf .oeq),
    unary main_v21 main_v22 (uitofp .f32),
    nullary main_cst_5 (constant S_ .f32 0x00000000#32),
    binary main_v22 main_cst_5 main_v23 (fun x v => Host.reduceAdd x v reducesTo_S2000x4000_S_d0_1 h_S_),
    nullary main_cst_6 (constant S_ .f32 0x00000000#32),
    binary main_v23 main_cst_6 main_v24 (cmpf .ogt),
    binary main_v15 main_v17 main_v25 subf,
    binary main_v25 main_v25 main_v26 mulf,
    binary main_v22 main_v26 main_v27 mulf,
    nullary main_cst_7 (constant S_ .f32 0x00000000#32),
    binary main_v27 main_cst_7 main_v28 (fun x v => Host.reduceAdd x v reducesTo_S2000x4000_S_d0_1 h_S_),
    nullary main_cst_8 (constant S_ .f32 0x3F800000#32),
    binary main_v23 main_cst_8 main_v29 maximumf,
    binary main_v28 main_v29 main_v30 Host.divf,
    unary main_v30 main_v31 Host.sqrt,
    nullary main_cst_9 (constant S_ .f32 0x00000000#32),
    TRef.unary (.of main_cst_9) main_call2.v0 id,
    TRef.ternary (.of main_v24) (.of main_v31) main_call2.v0 main_call2.v1 select,
    nullary main_cst_10 (constant S_ .f32 0x40000000#32),
    unary main_cst_10 main_v33 (broadcastInDim S2000x4000 ![] bcast_S_S2000x4000),
    binary main_v19 main_v33 main_v34 (cmpf .oeq),
    unary main_v34 main_v35 (uitofp .f32),
    nullary main_cst_11 (constant S_ .f32 0x00000000#32),
    binary main_v35 main_cst_11 main_v36 (fun x v => Host.reduceAdd x v reducesTo_S2000x4000_S_d0_1 h_S_),
    nullary main_cst_12 (constant S_ .f32 0x00000000#32),
    binary main_v36 main_cst_12 main_v37 (cmpf .ogt),
    binary main_v15 main_v15 main_v38 mulf,
    binary main_v35 main_v38 main_v39 mulf,
    nullary main_cst_13 (constant S_ .f32 0x00000000#32),
    binary main_v39 main_cst_13 main_v40 (fun x v => Host.reduceAdd x v reducesTo_S2000x4000_S_d0_1 h_S_),
    nullary main_cst_14 (constant S_ .f32 0x3F800000#32),
    binary main_v36 main_cst_14 main_v41 maximumf,
    binary main_v40 main_v41 main_v42 Host.divf ]

/-- Operations 66 … 131: the second class-conditional term's root and selection; then the segment term: squared row
    differences where two consecutive rows carry the same label, a segment number per (row, column) — the running count
    down each column of label changes, offset by 2000 per column —, the per-segment sums and counts (two accumulating
    scatters into 8,000,000 slots), the mean per occupied segment, and the mean of those over the occupied segments;
    last the first weight. -/
abbrev ops1 : List (HloOp τ sig (Elt F)) :=
  [ unary main_v42 main_v43 Host.sqrt,
    nullary main_cst_15 (constant S_ .f32 0x00000000#32),
    TRef.unary (.of main_cst_15) main_call3.v0 id,
    TRef.ternary (.of main_v37) (.of main_v43) main_call3.v0 main_call3.v1 select,
    unary main_arg0 main_v45 (extractStridedSlice S2000x4000x1 ![0, 0, 0] · slices_S2000x4000x5_S2000x4000x1_0_0_0),
    reshape main_v45 main_v46 rfl shapeCasts_S2000x4000x1_S2000x4000,
    reshape main_arg4 main_v47 rfl shapeCasts_S2000x4000x1_S2000x4000,
    unary main_v46 main_v48 (extractStridedSlice S1999x4000 ![1, 0] · slices_S2000x4000_S1999x4000_1_0),
    unary main_v46 main_v49 (extractStridedSlice S1999x4000 ![0, 0] · slices_S2000x4000_S1999x4000_0_0),
    binary main_v48 main_v49 main_v50 subf,
    binary main_v50 main_v50 main_v51 mulf,
    unary main_v47 main_v52 (extractStridedSlice S1999x4000 ![1, 0] · slices_S2000x4000_S1999x4000_1_0),
    unary main_v47 main_v53 (extractStridedSlice S1999x4000 ![0, 0] · slices_S2000x4000_S1999x4000_0_0),
    binary main_v52 main_v53 main_v54 (cmpf .oeq),
    unary main_v54 main_v55 noti,
    unary main_v55 main_v56 (extui 32 · natLt_1_32),
    TRef.nullary main_call4.call0.c (constantI S_ 32 0#32),
    TRef.unary main_call4.call0.c main_call4.call0.v0 (broadcastInDim S_ ![] bcast_S_S_),
    TRef.binary (.of main_v56) main_call4.call0.v0 main_call4.call0.v1
      (fun x v => Host.reduceWindow IntOp.addi ![1999, 1] ![1, 1] ![1998, 0] ![0, 0] x v
        reduceWindows_S1999x4000_S1999x4000_w1999s1p1998_0_w1s1p0_0 h_S_),
    nullary main_v58 (iotaInDim S4000 32 0),
    unary main_v58 main_v59 (broadcastInDim S1x4000 ![1] bcast_S4000_S1x4000_1),
    nullary main_c_16 (constantI S_ 32 2000#32),
    unary main_c_16 main_v60 (broadcastInDim S1x4000 ![] bcast_S_S1x4000),
    binary main_v59 main_v60 main_v61 muli,
    unary main_v61 main_v62 (broadcastInDim S1999x4000 ![0, 1] bcast_S1x4000_S1999x4000_0_1),
    binary main_v57 main_v62 main_v63 addi,
    unary main_v54 main_v64 (uitofp .f32),
    binary main_v51 main_v64 main_v65 mulf,
    reshape main_v65 main_v66 rfl shapeCasts_S1999x4000_S7996000,
    reshape main_v63 main_v67 rfl shapeCasts_S1999x4000_S7996000,
    nullary main_cst_17 (constant S_ .f32 0x00000000#32),
    unary main_cst_17 main_v68 (broadcastInDim S8000000 ![] bcast_S_S8000000),
    unary main_v67 main_v69 (broadcastInDim S7996000x1 ![0] bcast_S7996000_S7996000x1_0),
    ternary main_v68 main_v69 main_v66 main_v70
      (fun x i u => Host.scatterAdd scatter_S8000000_S7996000x1_S7996000_n_0_0_1 x i u),
    reshape main_v64 main_v71 rfl shapeCasts_S1999x4000_S7996000,
    reshape main_v63 main_v72 rfl shapeCasts_S1999x4000_S7996000,
    nullary main_cst_18 (constant S_ .f32 0x00000000#32),
    unary main_cst_18 main_v73 (broadcastInDim S8000000 ![] bcast_S_S8000000),
    unary main_v72 main_v74 (broadcastInDim S7996000x1 ![0] bcast_S7996000_S7996000x1_0),
    ternary main_v73 main_v74 main_v71 main_v75
      (fun x i u => Host.scatterAdd scatter_S8000000_S7996000x1_S7996000_n_0_0_1 x i u),
    nullary main_cst_19 (constant S_ .f32 0x00000000#32),
    unary main_cst_19 main_v76 (broadcastInDim S8000000 ![] bcast_S_S8000000),
    binary main_v75 main_v76 main_v77 (cmpf .ogt),
    nullary main_cst_20 (constant S_ .f32 0x3F800000#32),
    unary main_cst_20 main_v78 (broadcastInDim S8000000 ![] bcast_S_S8000000),
    binary main_v75 main_v78 main_v79 maximumf,
    binary main_v70 main_v79 main_v80 Host.divf,
    nullary main_cst_21 (constant S_ .f32 0x00000000#32),
    TRef.unary (.of main_cst_21) main_call5.v0 id,
    TRef.unary main_call5.v0 main_call5.v1 (broadcastInDim S8000000 ![] bcast_S_S8000000),
    TRef.ternary (.of main_v77) (.of main_v80) main_call5.v1 main_call5.v2 select,
    unary main_v77 main_v82 (extui 32 · natLt_1_32),
    nullary main_c_22 (constantI S_ 32 0#32),
    binary main_v82 main_c_22 main_v83 (fun x v => Host.reduce IntOp.addi x v reducesTo_S8000000_S_d0 h_S_),
    unary main_v83 main_v84 (sitofp .f32),
    nullary main_cst_23 (constant S_ .f32 0x00000000#32),
    binary main_v84 main_cst_23 main_v85 (cmpf .ogt),
    nullary main_cst_24 (constant S_ .f32 0x00000000#32),
    binary main_v81 main_cst_24 main_v86 (fun x v => Host.reduceAdd x v reducesTo_S8000000_S_d0 h_S_),
    nullary main_cst_25 (constant S_ .f32 0x3F800000#32),
    binary main_v84 main_cst_25 main_v87 maximumf,
    binary main_v86 main_v87 main_v88 Host.divf,
    nullary main_cst_26 (constant S_ .f32 0x00000000#32),
    TRef.unary (.of main_cst_26) main_call6.v0 id,
    TRef.ternary (.of main_v85) (.of main_v88) main_call6.v0 main_call6.v1 select,
    nullary main_cst_27 (constant S_ .f32 0x3F19999A#32) ]

/-- Operations 132 … 141: the weighted sum of the four terms, left to right. -/
abbrev ops2 : List (HloOp τ sig (Elt F)) :=
  [ binary main_cst_27 main_v14 main_v90 mulf,
    nullary main_cst_28 (constant S_ .f32 0x3DCCCCCD#32),
    binary main_cst_28 main_v32 main_v91 mulf,
    binary main_v90 main_v91 main_v92 addf,
    nullary main_cst_29 (constant S_ .f32 0x3DCCCCCD#32),
    binary main_cst_29 main_v44 main_v93 mulf,
    binary main_v92 main_v93 main_v94 addf,
    nullary main_cst_30 (constant S_ .f32 0x3DCCCCCD#32),
    binary main_cst_30 main_v89 main_v95 mulf,
    binary main_v94 main_v95 main_v96 addf ]

/-- @main's 141 operations in order: the three stretches, nested as @main sequences its three parts. -/
abbrev ops : List (HloOp τ sig (Elt F)) := ops0 ++ (ops1 ++ ops2)

/-! ## @main is that straight line -/

set_option maxRecDepth 4096 in
set_option maxHeartbeats 1600000 in
/-- The first part: the three callees' definitions unfolded at their calls, both sides are one chain of steps once
    sequencing is re-associated. -/
theorem main_part0_eq (c : Dev nD) : main_part0 (F := F) c = seq ops0 := by
  simp only [main_part0, fn_where.body, fn_where_0.body, fn_where_1.body, seq, bind_assoc, pure_bind]
  rfl

set_option maxRecDepth 4096 in
set_option maxHeartbeats 1600000 in
/-- The second part likewise; the running sum is a call inside a call. -/
theorem main_part1_eq (c : Dev nD) : main_part1 (F := F) c = seq ops1 := by
  simp only [main_part1, fn_where_1.body, fn_cumsum.body, fn_cumsum_2.body, fn_where_3.body, seq, bind_assoc, pure_bind]
  rfl

/-- The third part calls nothing. -/
theorem main_part2_eq (c : Dev nD) : main_part2 (F := F) c = seq ops2 := rfl

/-- @main is the 141 operations run in order. -/
theorem main_eq (c : Dev nD) : main (F := F) c = seq ops := by
  rw [show (ops : List (HloOp τ sig (Elt F))) = ops0 ++ (ops1 ++ ops2) from rfl, seq_append, seq_append,
    ← main_part0_eq c, ← main_part1_eq c, ← main_part2_eq c]
  rfl

/-! ## The run's side conditions -/

theorem scopedRefs_eq : (Finset.univ.filter fun b : Ref sig .tc => b.isScoped) = ∅ := by decide
theorem scopedSems_eq : (Finset.univ.filter fun sm : SemLoc sig => sm.isScoped .tc) = ∅ := by decide

set_option maxRecDepth 4096 in
theorem ops0_sub : (ops0 : List (HloOp τ sig (Elt F))).Forall fun op => op.bufs ⊆ tcRefs τ sig :=
  ⟨binary_bufs_sub .., unary_bufs_sub .., nullary_bufs_sub .., unary_bufs_sub .., unary_bufs_sub .., ternary_bufs_sub ..,
    binary_bufs_sub .., binary_bufs_sub .., nullary_bufs_sub .., unary_bufs_sub .., unary_bufs_sub .., ternary_bufs_sub ..,
    unary_bufs_sub .., nullary_bufs_sub .., binary_bufs_sub .., unary_bufs_sub .., nullary_bufs_sub .., binary_bufs_sub ..,
    nullary_bufs_sub .., unary_bufs_sub .., binary_bufs_sub .., binary_bufs_sub .., unary_bufs_sub .., nullary_bufs_sub ..,
    binary_bufs_sub .., reshape_bufs_sub .., unary_bufs_sub .., reshape_bufs_sub .., unary_bufs_sub .., reshape_bufs_sub ..,
    nullary_bufs_sub .., unary_bufs_sub .., binary_bufs_sub .., unary_bufs_sub .., nullary_bufs_sub .., binary_bufs_sub ..,
    nullary_bufs_sub .., binary_bufs_sub .., binary_bufs_sub .., binary_bufs_sub .., binary_bufs_sub .., nullary_bufs_sub ..,
    binary_bufs_sub .., nullary_bufs_sub .., binary_bufs_sub .., binary_bufs_sub .., unary_bufs_sub .., nullary_bufs_sub ..,
    unary_bufs_sub .., ternary_bufs_sub .., nullary_bufs_sub .., unary_bufs_sub .., binary_bufs_sub .., unary_bufs_sub ..,
    nullary_bufs_sub .., binary_bufs_sub .., nullary_bufs_sub .., binary_bufs_sub .., binary_bufs_sub .., binary_bufs_sub ..,
    nullary_bufs_sub .., binary_bufs_sub .., nullary_bufs_sub .., binary_bufs_sub .., binary_bufs_sub ..⟩

set_option maxRecDepth 4096 in
theorem ops1_sub : (ops1 : List (HloOp τ sig (Elt F))).Forall fun op => op.bufs ⊆ tcRefs τ sig :=
  ⟨unary_bufs_sub .., nullary_bufs_sub .., unary_bufs_sub .., ternary_bufs_sub .., unary_bufs_sub .., reshape_bufs_sub ..,
    reshape_bufs_sub .., unary_bufs_sub .., unary_bufs_sub .., binary_bufs_sub .., binary_bufs_sub .., unary_bufs_sub ..,
    unary_bufs_sub .., binary_bufs_sub .., unary_bufs_sub .., unary_bufs_sub .., nullary_bufs_sub .., unary_bufs_sub ..,
    binary_bufs_sub .., nullary_bufs_sub .., unary_bufs_sub .., nullary_bufs_sub .., unary_bufs_sub .., binary_bufs_sub ..,
    unary_bufs_sub .., binary_bufs_sub .., unary_bufs_sub .., binary_bufs_sub .., reshape_bufs_sub .., reshape_bufs_sub ..,
    nullary_bufs_sub .., unary_bufs_sub .., unary_bufs_sub .., ternary_bufs_sub .., reshape_bufs_sub .., reshape_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub .., binary_bufs_sub .., nullary_bufs_sub ..,
    unary_bufs_sub .., unary_bufs_sub .., ternary_bufs_sub .., unary_bufs_sub .., nullary_bufs_sub .., binary_bufs_sub ..,
    unary_bufs_sub .., nullary_bufs_sub .., binary_bufs_sub .., nullary_bufs_sub .., binary_bufs_sub .., nullary_bufs_sub ..,
    binary_bufs_sub .., binary_bufs_sub .., nullary_bufs_sub .., unary_bufs_sub .., ternary_bufs_sub .., nullary_bufs_sub ..⟩

theorem ops2_sub : (ops2 : List (HloOp τ sig (Elt F))).Forall fun op => op.bufs ⊆ tcRefs τ sig :=
  ⟨binary_bufs_sub .., nullary_bufs_sub .., binary_bufs_sub .., binary_bufs_sub .., nullary_bufs_sub .., binary_bufs_sub ..,
    binary_bufs_sub .., nullary_bufs_sub .., binary_bufs_sub .., binary_bufs_sub ..⟩

/-- Every operation touches TensorCore references only: stretch by stretch. -/
theorem ops_sub : (ops : List (HloOp τ sig (Elt F))).Forall fun op => op.bufs ⊆ tcRefs τ sig :=
  List.forall_iff_forall_mem.mpr fun op h => by
    rcases List.mem_append.mp h with h | h
    · exact List.forall_iff_forall_mem.mp ops0_sub op h
    rcases List.mem_append.mp h with h | h
    · exact List.forall_iff_forall_mem.mp ops1_sub op h
    · exact List.forall_iff_forall_mem.mp ops2_sub op h

/-- Every operation determines what it writes (none leaves a buffer with contents of the machine's choosing): the
    builders' default, read off each stretch's literal list. -/
theorem ops0_fresh : ∀ op ∈ (ops0 : List (HloOp τ sig (Elt F))), op.fresh = ∅ := by
  intro _ h; (repeat (cases h with | head => rfl | tail _ h => ?_)); exact nomatch h
theorem ops1_fresh : ∀ op ∈ (ops1 : List (HloOp τ sig (Elt F))), op.fresh = ∅ := by
  intro _ h; (repeat (cases h with | head => rfl | tail _ h => ?_)); exact nomatch h
theorem ops2_fresh : ∀ op ∈ (ops2 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := fun op h => by
  rcases List.mem_append.mp h with h | h
  · exact ops0_fresh op h
  rcases List.mem_append.mp h with h | h
  · exact ops1_fresh op h
  · exact ops2_fresh op h

/-! ## The run -/

/-- Whatever the float values and the launch memory (its counters at zero), @main always halts under weak fairness,
    and what each TensorCore buffer of each device then holds is read off by folding the 141 operations, in order, over
    that device's launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Hand

end
-- ==== Proof.RefResult.lean ====
/-
  What the reference program computes, as named functions of its five arguments' contents, and the proof that the
  run's fold at the result buffer is that function.

  The result is a weighted sum  0.6·L₀ + 0.1·L₁ + 0.1·L₂ + 0.1·L₃  of four scalar terms:
  · L₀ (of the prediction x0 and the target x1, five channels): per channel, the root of the mean squared difference
    over the positions whose target is a number (a value differs from itself exactly when it is not one; such positions
    contribute zero to the sum and are not counted, and the count is floored at one), summed over the channels;
  · L₁, L₂ (of the single-channel prediction x2 and the two-channel record x3, whose second channel is a class mark):
    the root of the mean, over the positions of class 1 resp. 2, of the squared difference between x2 and x3's first
    channel resp. of x2 squared; zero when the class is empty;
  · L₃ (of x0's first channel and the labels x4): along each column consecutive rows with equal labels form segments;
    the squared row-to-row steps inside a segment are averaged per segment, and those averages are averaged over the
    occupied segments; zero when there is none.
  Every reduction, windowed reduction and accumulating scatter is kept as the operation it is: nothing here evaluates
  an array. A conversion of a scalar to its own type is the identity and is not written.
-/
import proofs.«169479_j35270271434986_1_alg».proof.Proof.RefOps
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem
  Idealize.ShloMosaic.StableHlo

variable {F : FTy → Type} [FloatOps F]

/-! ## L₀: the masked root-mean-square term -/

/-- Where the target is a number: not (x1 ≠ x1). -/
def refValid (x1 : Vec F S2000x4000x5 .f32) : IVec S2000x4000x5 1 :=
  noti (cmpf (F := F) .une x1 x1)

/-- The zero array of the arguments' shape. -/
def refZero5 : Vec F S2000x4000x5 .f32 :=
  broadcastInDim S2000x4000x5 ![] bcast_S_S2000x4000x5 (constant (F := F) S_ .f32 0x00000000#32)

/-- The target with zero where it is not a number. -/
def refTarget0 (x1 : Vec F S2000x4000x5 .f32) : Vec F S2000x4000x5 .f32 :=
  select (refValid x1) x1 (refZero5 (F := F))

/-- The squared difference where the target is a number, zero elsewhere. -/
def refSqErr (x0 x1 : Vec F S2000x4000x5 .f32) : Vec F S2000x4000x5 .f32 :=
  select (refValid x1) (mulf (subf x0 (refTarget0 x1)) (subf x0 (refTarget0 x1))) (refZero5 (F := F))

/-- Per channel, the sum over both position axes of the masked squared difference. -/
def refSumSq (x0 x1 : Vec F S2000x4000x5 .f32) : Vec F S5 .f32 :=
  Host.reduceAdd (F := F) (refSqErr x0 x1) (constant (F := F) S_ .f32 0x00000000#32) reducesTo_S2000x4000x5_S5_d0_1 h_S_

/-- Per channel, the number of positions whose target is a number: counted in 32-bit integers, then converted. -/
def refCount (x1 : Vec F S2000x4000x5 .f32) : Vec F S5 .f32 :=
  sitofp (F := F) .f32
    (Host.reduce IntOp.addi (extui 32 (refValid x1) natLt_1_32) (constantI S_ 32 0#32) reducesTo_S2000x4000x5_S5_d0_1 h_S_)

/-- L₀: the sum over the five channels of √(sum / max(count, 1)). -/
def refLoss0 (x0 x1 : Vec F S2000x4000x5 .f32) : Vec F S_ .f32 :=
  Host.reduceAdd (F := F)
    (Host.sqrt (Host.divf (refSumSq x0 x1)
      (maximumf (refCount x1) (broadcastInDim S5 ![] bcast_S_S5 (constant (F := F) S_ .f32 0x3F800000#32)))))
    (constant (F := F) S_ .f32 0x00000000#32) reducesTo_S5_S_d0 h_S_

/-! ## L₁ and L₂: the class-conditional terms -/

/-- The single-channel prediction as a matrix. -/
def refPred (x2 : Vec F S2000x4000x1 .f32) : Vec F S2000x4000 .f32 :=
  shapeCast S2000x4000 x2 shapeCasts_S2000x4000x1_S2000x4000

/-- The record's first channel as a matrix: the value compared with. -/
def refGoal (x3 : Vec F S2000x4000x2 .f32) : Vec F S2000x4000 .f32 :=
  shapeCast S2000x4000 (extractStridedSlice S2000x4000x1 ![0, 0, 0] x3 slices_S2000x4000x2_S2000x4000x1_0_0_0)
    shapeCasts_S2000x4000x1_S2000x4000

/-- The record's second channel as a matrix: the class mark. -/
def refClass (x3 : Vec F S2000x4000x2 .f32) : Vec F S2000x4000 .f32 :=
  shapeCast S2000x4000 (extractStridedSlice S2000x4000x1 ![0, 0, 1] x3 slices_S2000x4000x2_S2000x4000x1_0_0_1)
    shapeCasts_S2000x4000x1_S2000x4000

/-- The indicator of class 1, as a float. -/
def refIs1 (x3 : Vec F S2000x4000x2 .f32) : Vec F S2000x4000 .f32 :=
  uitofp (F := F) .f32
    (cmpf (F := F) .oeq (refClass x3)
      (broadcastInDim S2000x4000 ![] bcast_S_S2000x4000 (constant (F := F) S_ .f32 0x3F800000#32)))

/-- The number of positions of class 1. -/
def refN1 (x3 : Vec F S2000x4000x2 .f32) : Vec F S_ .f32 :=
  Host.reduceAdd (F := F) (refIs1 x3) (constant (F := F) S_ .f32 0x00000000#32) reducesTo_S2000x4000_S_d0_1 h_S_

/-- The sum over class 1 of the squared difference between the prediction and the value compared with. -/
def refS1 (x2 : Vec F S2000x4000x1 .f32) (x3 : Vec F S2000x4000x2 .f32) : Vec F S_ .f32 :=
  Host.reduceAdd (F := F)
    (mulf (refIs1 x3) (mulf (subf (refPred x2) (refGoal x3)) (subf (refPred x2) (refGoal x3))))
    (constant (F := F) S_ .f32 0x00000000#32) reducesTo_S2000x4000_S_d0_1 h_S_

/-- L₁: √(S₁ / max(N₁, 1)) when class 1 is occupied, else zero. -/
def refLoss1 (x2 : Vec F S2000x4000x1 .f32) (x3 : Vec F S2000x4000x2 .f32) : Vec F S_ .f32 :=
  select (cmpf (F := F) .ogt (refN1 x3) (constant (F := F) S_ .f32 0x00000000#32))
    (Host.sqrt (Host.divf (refS1 x2 x3) (maximumf (refN1 x3) (constant (F := F) S_ .f32 0x3F800000#32))))
    (constant (F := F) S_ .f32 0x00000000#32)

/-- The indicator of class 2, as a float. -/
def refIs2 (x3 : Vec F S2000x4000x2 .f32) : Vec F S2000x4000 .f32 :=
  uitofp (F := F) .f32
    (cmpf (F := F) .oeq (refClass x3)
      (broadcastInDim S2000x4000 ![] bcast_S_S2000x4000 (constant (F := F) S_ .f32 0x40000000#32)))

/-- The number of positions of class 2. -/
def refN2 (x3 : Vec F S2000x4000x2 .f32) : Vec F S_ .f32 :=
  Host.reduceAdd (F := F) (refIs2 x3) (constant (F := F) S_ .f32 0x00000000#32) reducesTo_S2000x4000_S_d0_1 h_S_

/-- The sum over class 2 of the squared prediction. -/
def refS2 (x2 : Vec F S2000x4000x1 .f32) (x3 : Vec F S2000x4000x2 .f32) : Vec F S_ .f32 :=
  Host.reduceAdd (F := F) (mulf (refIs2 x3) (mulf (refPred x2) (refPred x2)))
    (constant (F := F) S_ .f32 0x00000000#32) reducesTo_S2000x4000_S_d0_1 h_S_

/-- S₂ / max(N₂, 1): the value under L₂'s root. -/
def refMean2 (x2 : Vec F S2000x4000x1 .f32) (x3 : Vec F S2000x4000x2 .f32) : Vec F S_ .f32 :=
  Host.divf (refS2 x2 x3) (maximumf (refN2 x3) (constant (F := F) S_ .f32 0x3F800000#32))

/-- Whether class 2 is occupied. -/
def refHas2 (x3 : Vec F S2000x4000x2 .f32) : IVec S_ 1 :=
  cmpf (F := F) .ogt (refN2 x3) (constant (F := F) S_ .f32 0x00000000#32)

/-- L₂: √(S₂ / max(N₂, 1)) when class 2 is occupied, else zero. -/
def refLoss2 (x2 : Vec F S2000x4000x1 .f32) (x3 : Vec F S2000x4000x2 .f32) : Vec F S_ .f32 :=
  select (refHas2 x3) (Host.sqrt (refMean2 x2 x3)) (constant (F := F) S_ .f32 0x00000000#32)

/-! ## L₃: the segment term -/

/-- The prediction's first channel as a matrix. -/
def refHead (x0 : Vec F S2000x4000x5 .f32) : Vec F S2000x4000 .f32 :=
  shapeCast S2000x4000 (extractStridedSlice S2000x4000x1 ![0, 0, 0] x0 slices_S2000x4000x5_S2000x4000x1_0_0_0)
    shapeCasts_S2000x4000x1_S2000x4000

/-- The labels as a matrix. -/
def refLabel (x4 : Vec F S2000x4000x1 .f32) : Vec F S2000x4000 .f32 :=
  shapeCast S2000x4000 x4 shapeCasts_S2000x4000x1_S2000x4000

/-- The squared step from each row to the next, 1999 rows. -/
def refStepSq (x0 : Vec F S2000x4000x5 .f32) : Vec F S1999x4000 .f32 :=
  mulf
    (subf (extractStridedSlice S1999x4000 ![1, 0] (refHead x0) slices_S2000x4000_S1999x4000_1_0)
      (extractStridedSlice S1999x4000 ![0, 0] (refHead x0) slices_S2000x4000_S1999x4000_0_0))
    (subf (extractStridedSlice S1999x4000 ![1, 0] (refHead x0) slices_S2000x4000_S1999x4000_1_0)
      (extractStridedSlice S1999x4000 ![0, 0] (refHead x0) slices_S2000x4000_S1999x4000_0_0))

/-- Whether a row and the next carry the same label. -/
def refSame (x4 : Vec F S2000x4000x1 .f32) : IVec S1999x4000 1 :=
  cmpf (F := F) .oeq (extractStridedSlice S1999x4000 ![1, 0] (refLabel x4) slices_S2000x4000_S1999x4000_1_0)
    (extractStridedSlice S1999x4000 ![0, 0] (refLabel x4) slices_S2000x4000_S1999x4000_0_0)

/-- The same, as a float: the weight of a step. -/
def refSameF (x4 : Vec F S2000x4000x1 .f32) : Vec F S1999x4000 .f32 :=
  uitofp (F := F) .f32 (refSame x4)

/-- The segment a step belongs to: the number of label changes down its column up to and including it (a windowed sum
    over the 1999 rows above and at it), plus 2000 times the column. -/
def refSegId (x4 : Vec F S2000x4000x1 .f32) : IVec S1999x4000 32 :=
  addi
    (Host.reduceWindow IntOp.addi ![1999, 1] ![1, 1] ![1998, 0] ![0, 0] (extui 32 (noti (refSame x4)) natLt_1_32)
      (broadcastInDim S_ ![] bcast_S_S_ (constantI S_ 32 0#32))
      reduceWindows_S1999x4000_S1999x4000_w1999s1p1998_0_w1s1p0_0 h_S_)
    (broadcastInDim S1999x4000 ![0, 1] bcast_S1x4000_S1999x4000_0_1
      (muli (broadcastInDim S1x4000 ![1] bcast_S4000_S1x4000_1 (iotaInDim S4000 32 0))
        (broadcastInDim S1x4000 ![] bcast_S_S1x4000 (constantI S_ 32 2000#32))))

/-- The segment numbers as the scatter's index table: one index per step, in row-major order. -/
def refSegIdx (x4 : Vec F S2000x4000x1 .f32) : IVec S7996000x1 32 :=
  broadcastInDim S7996000x1 ![0] bcast_S7996000_S7996000x1_0
    (shapeCast S7996000 (refSegId x4) shapeCasts_S1999x4000_S7996000)

/-- The 8,000,000 empty slots. -/
def refZero8M : Vec F S8000000 .f32 :=
  broadcastInDim S8000000 ![] bcast_S_S8000000 (constant (F := F) S_ .f32 0x00000000#32)

/-- Per segment, the sum of its weighted squared steps. -/
def refSegSum (x0 : Vec F S2000x4000x5 .f32) (x4 : Vec F S2000x4000x1 .f32) : Vec F S8000000 .f32 :=
  Host.scatterAdd (F := F) scatter_S8000000_S7996000x1_S7996000_n_0_0_1 (refZero8M (F := F)) (refSegIdx x4)
    (shapeCast S7996000 (mulf (refStepSq x0) (refSameF x4)) shapeCasts_S1999x4000_S7996000)

/-- Per segment, the number of its steps. -/
def refSegCnt (x4 : Vec F S2000x4000x1 .f32) : Vec F S8000000 .f32 :=
  Host.scatterAdd (F := F) scatter_S8000000_S7996000x1_S7996000_n_0_0_1 (refZero8M (F := F)) (refSegIdx x4)
    (shapeCast S7996000 (refSameF x4) shapeCasts_S1999x4000_S7996000)

/-- Which segments are occupied. -/
def refSegHit (x4 : Vec F S2000x4000x1 .f32) : IVec S8000000 1 :=
  cmpf (F := F) .ogt (refSegCnt x4) (refZero8M (F := F))

/-- Per occupied segment its mean squared step, zero for the others. -/
def refSegMean (x0 : Vec F S2000x4000x5 .f32) (x4 : Vec F S2000x4000x1 .f32) : Vec F S8000000 .f32 :=
  select (refSegHit x4)
    (Host.divf (refSegSum x0 x4)
      (maximumf (refSegCnt x4) (broadcastInDim S8000000 ![] bcast_S_S8000000 (constant (F := F) S_ .f32 0x3F800000#32))))
    (refZero8M (F := F))

/-- The number of occupied segments: counted in 32-bit integers, then converted. -/
def refNSeg (x4 : Vec F S2000x4000x1 .f32) : Vec F S_ .f32 :=
  sitofp (F := F) .f32
    (Host.reduce IntOp.addi (extui 32 (refSegHit x4) natLt_1_32) (constantI S_ 32 0#32) reducesTo_S8000000_S_d0 h_S_)

/-- L₃: the mean over the occupied segments of their means, zero when there is none. -/
def refLoss3 (x0 : Vec F S2000x4000x5 .f32) (x4 : Vec F S2000x4000x1 .f32) : Vec F S_ .f32 :=
  select (cmpf (F := F) .ogt (refNSeg x4) (constant (F := F) S_ .f32 0x00000000#32))
    (Host.divf
      (Host.reduceAdd (F := F) (refSegMean x0 x4) (constant (F := F) S_ .f32 0x00000000#32) reducesTo_S8000000_S_d0 h_S_)
      (maximumf (refNSeg x4) (constant (F := F) S_ .f32 0x3F800000#32)))
    (constant (F := F) S_ .f32 0x00000000#32)

/-! ## The weighted sum -/

/-- ((0.6·a + 0.1·b) + 0.1·c) + 0.1·d, the weights the nearest 32-bit floats. -/
def refTotal (a b c d : Vec F S_ .f32) : Vec F S_ .f32 :=
  addf
    (addf
      (addf (mulf (constant (F := F) S_ .f32 0x3F19999A#32) a) (mulf (constant (F := F) S_ .f32 0x3DCCCCCD#32) b))
      (mulf (constant (F := F) S_ .f32 0x3DCCCCCD#32) c))
    (mulf (constant (F := F) S_ .f32 0x3DCCCCCD#32) d)

/-! ## The fold, stretch by stretch

Each stretch's fold is read at the few buffers a later stretch (or the result) takes from it, from ANY contents before
it: an operation's result at its own buffer is its function of its operands' contents, at any other buffer what was
there. The reductions, the windowed reduction and the scatters stay folded throughout. -/

attribute [local irreducible] Host.reduce Host.reduceWindow Host.reduceAdd Host.scatterAdd

section Stretch0

variable (V : Valuation τ sig (Elt F))

set_option maxRecDepth 8192 in
set_option maxHeartbeats 4000000 in
theorem after0_v14 : after ops0 V (main_v14 : DevRef τ sig)
    = refLoss0 (V (main_arg0 : DevRef τ sig)) (V (main_arg1 : DevRef τ sig)) := by
  after_results_simp
  rfl

set_option maxRecDepth 8192 in
set_option maxHeartbeats 4000000 in
theorem after0_v32 : after ops0 V (main_v32 : DevRef τ sig)
    = refLoss1 (V (main_arg2 : DevRef τ sig)) (V (main_arg3 : DevRef τ sig)) := by
  after_results_simp
  rfl

set_option maxRecDepth 8192 in
set_option maxHeartbeats 4000000 in
theorem after0_v37 : after ops0 V (main_v37 : DevRef τ sig) = refHas2 (V (main_arg3 : DevRef τ sig)) := by
  after_results_simp
  rfl

set_option maxRecDepth 8192 in
set_option maxHeartbeats 4000000 in
theorem after0_v42 : after ops0 V (main_v42 : DevRef τ sig)
    = refMean2 (V (main_arg2 : DevRef τ sig)) (V (main_arg3 : DevRef τ sig)) := by
  after_results_simp
  rfl

set_option maxRecDepth 8192 in
set_option maxHeartbeats 4000000 in
theorem after0_arg0 : after ops0 V (main_arg0 : DevRef τ sig) = V (main_arg0 : DevRef τ sig) := by
  after_results_simp

set_option maxRecDepth 8192 in
set_option maxHeartbeats 4000000 in
theorem after0_arg1 : after ops0 V (main_arg1 : DevRef τ sig) = V (main_arg1 : DevRef τ sig) := by
  after_results_simp

set_option maxRecDepth 8192 in
set_option maxHeartbeats 4000000 in
theorem after0_arg2 : after ops0 V (main_arg2 : DevRef τ sig) = V (main_arg2 : DevRef τ sig) := by
  after_results_simp

set_option maxRecDepth 8192 in
set_option maxHeartbeats 4000000 in
theorem after0_arg3 : after ops0 V (main_arg3 : DevRef τ sig) = V (main_arg3 : DevRef τ sig) := by
  after_results_simp

set_option maxRecDepth 8192 in
set_option maxHeartbeats 4000000 in
theorem after0_arg4 : after ops0 V (main_arg4 : DevRef τ sig) = V (main_arg4 : DevRef τ sig) := by
  after_results_simp

end Stretch0

section Stretch1

variable (W : Valuation τ sig (Elt F))

set_option maxRecDepth 8192 in
set_option maxHeartbeats 4000000 in
/-- L₂'s root and selection, from the quotient and the occupancy test the first stretch left. -/
theorem after1_v44 : after ops1 W (main_v44 : DevRef τ sig)
    = select (W (main_v37 : DevRef τ sig)) (Host.sqrt (W (main_v42 : DevRef τ sig))) (constant (F := F) S_ .f32 0x00000000#32) := by
  after_results_simp
  rfl

set_option maxRecDepth 8192 in
set_option maxHeartbeats 4000000 in
theorem after1_v89 : after ops1 W (main_v89 : DevRef τ sig)
    = refLoss3 (W (main_arg0 : DevRef τ sig)) (W (main_arg4 : DevRef τ sig)) := by
  after_results_simp
  rfl

set_option maxRecDepth 8192 in
set_option maxHeartbeats 4000000 in
theorem after1_cst_27 : after ops1 W (main_cst_27 : DevRef τ sig) = constant (F := F) S_ .f32 0x3F19999A#32 := by
  after_results_simp

set_option maxRecDepth 8192 in
set_option maxHeartbeats 4000000 in
theorem after1_v14 : after ops1 W (main_v14 : DevRef τ sig) = W (main_v14 : DevRef τ sig) := by
  after_results_simp

set_option maxRecDepth 8192 in
set_option maxHeartbeats 4000000 in
theorem after1_v32 : after ops1 W (main_v32 : DevRef τ sig) = W (main_v32 : DevRef τ sig) := by
  after_results_simp

set_option maxRecDepth 8192 in
set_option maxHeartbeats 4000000 in
theorem after1_arg0 : after ops1 W (main_arg0 : DevRef τ sig) = W (main_arg0 : DevRef τ sig) := by
  after_results_simp

set_option maxRecDepth 8192 in
set_option maxHeartbeats 4000000 in
theorem after1_arg1 : after ops1 W (main_arg1 : DevRef τ sig) = W (main_arg1 : DevRef τ sig) := by
  after_results_simp

set_option maxRecDepth 8192 in
set_option maxHeartbeats 4000000 in
theorem after1_arg2 : after ops1 W (main_arg2 : DevRef τ sig) = W (main_arg2 : DevRef τ sig) := by
  after_results_simp

set_option maxRecDepth 8192 in
set_option maxHeartbeats 4000000 in
theorem after1_arg3 : after ops1 W (main_arg3 : DevRef τ sig) = W (main_arg3 : DevRef τ sig) := by
  after_results_simp

set_option maxRecDepth 8192 in
set_option maxHeartbeats 4000000 in
theorem after1_arg4 : after ops1 W (main_arg4 : DevRef τ sig) = W (main_arg4 : DevRef τ sig) := by
  after_results_simp

end Stretch1

section Stretch2

variable (X : Valuation τ sig (Elt F))

/-- The weighted sum, from the first weight and the four terms the earlier stretches left. -/
theorem after2_v96 : after ops2 X (main_v96 : DevRef τ sig)
    = addf
        (addf
          (addf (mulf (X (main_cst_27 : DevRef τ sig)) (X (main_v14 : DevRef τ sig)))
            (mulf (constant (F := F) S_ .f32 0x3DCCCCCD#32) (X (main_v32 : DevRef τ sig))))
          (mulf (constant (F := F) S_ .f32 0x3DCCCCCD#32) (X (main_v44 : DevRef τ sig))))
        (mulf (constant (F := F) S_ .f32 0x3DCCCCCD#32) (X (main_v89 : DevRef τ sig))) := by
  after_results_simp

theorem after2_arg0 : after ops2 X (main_arg0 : DevRef τ sig) = X (main_arg0 : DevRef τ sig) := by after_results_simp
theorem after2_arg1 : after ops2 X (main_arg1 : DevRef τ sig) = X (main_arg1 : DevRef τ sig) := by after_results_simp
theorem after2_arg2 : after ops2 X (main_arg2 : DevRef τ sig) = X (main_arg2 : DevRef τ sig) := by after_results_simp
theorem after2_arg3 : after ops2 X (main_arg3 : DevRef τ sig) = X (main_arg3 : DevRef τ sig) := by after_results_simp
theorem after2_arg4 : after ops2 X (main_arg4 : DevRef τ sig) = X (main_arg4 : DevRef τ sig) := by after_results_simp

end Stretch2

/-! ## The whole line -/

/-- After the 141 operations the result buffer holds the weighted sum of the four terms of the arguments' contents:
    the fold splits at the stretches' joins, each stretch is read at the buffers the next takes from it, and what is
    left is the named functions unfolded. -/
theorem result_eq (V : Valuation τ sig (Elt F)) :
    after ops V (main_v96 : DevRef τ sig)
      = refTotal (refLoss0 (V (main_arg0 : DevRef τ sig)) (V (main_arg1 : DevRef τ sig)))
          (refLoss1 (V (main_arg2 : DevRef τ sig)) (V (main_arg3 : DevRef τ sig)))
          (refLoss2 (V (main_arg2 : DevRef τ sig)) (V (main_arg3 : DevRef τ sig)))
          (refLoss3 (V (main_arg0 : DevRef τ sig)) (V (main_arg4 : DevRef τ sig))) := by
  show after (ops0 ++ (ops1 ++ ops2)) V (main_v96 : DevRef τ sig) = _
  rw [after_append, after_append, after2_v96, after1_cst_27, after1_v14, after1_v32, after1_v44, after1_v89,
    after0_v14, after0_v32, after0_v37, after0_v42, after0_arg0, after0_arg4]
  rfl

/-- No operation writes an argument: each keeps its launch contents. -/
theorem arg0_eq (V : Valuation τ sig (Elt F)) : after ops V (main_arg0 : DevRef τ sig) = V (main_arg0 : DevRef τ sig) := by
  show after (ops0 ++ (ops1 ++ ops2)) V (main_arg0 : DevRef τ sig) = _
  rw [after_append, after_append, after2_arg0, after1_arg0, after0_arg0]

theorem arg1_eq (V : Valuation τ sig (Elt F)) : after ops V (main_arg1 : DevRef τ sig) = V (main_arg1 : DevRef τ sig) := by
  show after (ops0 ++ (ops1 ++ ops2)) V (main_arg1 : DevRef τ sig) = _
  rw [after_append, after_append, after2_arg1, after1_arg1, after0_arg1]

theorem arg2_eq (V : Valuation τ sig (Elt F)) : after ops V (main_arg2 : DevRef τ sig) = V (main_arg2 : DevRef τ sig) := by
  show after (ops0 ++ (ops1 ++ ops2)) V (main_arg2 : DevRef τ sig) = _
  rw [after_append, after_append, after2_arg2, after1_arg2, after0_arg2]

theorem arg3_eq (V : Valuation τ sig (Elt F)) : after ops V (main_arg3 : DevRef τ sig) = V (main_arg3 : DevRef τ sig) := by
  show after (ops0 ++ (ops1 ++ ops2)) V (main_arg3 : DevRef τ sig) = _
  rw [after_append, after_append, after2_arg3, after1_arg3, after0_arg3]

theorem arg4_eq (V : Valuation τ sig (Elt F)) : after ops V (main_arg4 : DevRef τ sig) = V (main_arg4 : DevRef τ sig) := by
  show after (ops0 ++ (ops1 ++ ops2)) V (main_arg4 : DevRef τ sig) = _
  rw [after_append, after_append, after2_arg4, after1_arg4, after0_arg4]

end Cert.ReferenceIdeal.Hand

end
-- ==== Proof.LibHostSums.lean ====
/-
  Sums over the two leading axes of an array, read index by index at the ideal values.

  A host reduction over axes 0 and 1 of an array of extents A × B × C gathers, at channel c, the entries whose last
  coordinate is c: these are exactly the entries (a, b, c), one for each pair (a, b), so a sum over them is the double
  sum over a and b, and there are A · B of them. Over both axes of an A × B matrix the reduction gathers every entry.
  Hence: a float sum is the initial value plus the double sum; an integer sum of an all-ones array is the initial word
  plus the word of A · B, and when A · B is below 2³¹ that word, read as a signed integer and converted, is the real
  number A · B. Beside these, the elementwise facts such sums are taken of: an extended real never differs from
  itself, so the test "x ≠ x" is the bit 0 everywhere and its negation the bit 1; a selection under an all-ones mask is
  its first branch; the float of the bit "v = w" is 1 where the two agree and 0 elsewhere; a scalar broadcast reads the
  scalar; dropping a trailing axis of extent one, and cutting one channel out of the last axis, read the source at the
  evident index.
-/
import Idealize.ShloMosaic.PureOps.Ideal.Laws
import Idealize.ShloMosaic.Lib.ValueIdx
import Idealize.ShloMosaic.Lib.ValueLayout

noncomputable section

namespace Cert.Lib.HostSums

open Idealize.ShloMosaic Idealize.ShloMosaic.ValueIdx

variable {A B C : ℕ}

/-! ## The entries that reduce to a channel -/

/-- Dropping the two leading coordinates of (a, b, c) leaves c. -/
theorem drop_axes01_val (h : (⟨3, ![A, B, C]⟩ : Shape).ReducesTo [0, 1] ⟨1, ![C]⟩)
    (i : (⟨3, ![A, B, C]⟩ : Shape).Idx) : ((h.drop i 0 : Fin C) : ℕ) = (i 2 : ℕ) := rfl

/-- An entry reduces to channel `ch` exactly when its last coordinate is `ch`. -/
theorem drop_axes01_eq_iff (h : (⟨3, ![A, B, C]⟩ : Shape).ReducesTo [0, 1] ⟨1, ![C]⟩)
    (i : (⟨3, ![A, B, C]⟩ : Shape).Idx) (ch : Fin C) : h.drop i = ix1 ch ↔ i 2 = ch := by
  constructor
  · intro e
    have e0 := congrArg (fun j : (⟨1, ![C]⟩ : Shape).Idx => ((j 0 : Fin C) : ℕ)) e
    exact Fin.ext ((drop_axes01_val h i).symm.trans e0)
  · intro e
    funext b
    match b with
    | ⟨0, _⟩ => exact Fin.ext ((drop_axes01_val h i).trans (congrArg Fin.val e))

/-- A sum over the entries that reduce to channel `ch` is the double sum over the two leading coordinates, in any
    commutative monoid: (a, b) ↦ (a, b, ch) is a bijection onto those entries. -/
theorem sum_filter_drop_axes01 {M : Type*} [AddCommMonoid M] (h : (⟨3, ![A, B, C]⟩ : Shape).ReducesTo [0, 1] ⟨1, ![C]⟩)
    (f : (⟨3, ![A, B, C]⟩ : Shape).Idx → M) (ch : Fin C) :
    ∑ i ∈ Finset.univ.filter (fun i => h.drop i = ix1 ch), f i = ∑ a : Fin A, ∑ b : Fin B, f (ix3 a b ch) := by
  rw [← Fintype.sum_prod_type' (f := fun (a : Fin A) (b : Fin B) => f (ix3 a b ch))]
  refine Finset.sum_nbij' (fun i => ((i 0 : Fin A), (i 1 : Fin B))) (fun p => ix3 p.1 p.2 ch) ?_ ?_ ?_ ?_ ?_
  · intro i _; exact Finset.mem_univ _
  · intro p _; exact Finset.mem_filter.2 ⟨Finset.mem_univ _, (drop_axes01_eq_iff h _ ch).2 rfl⟩
  · intro i hi
    have e : i 2 = ch := (drop_axes01_eq_iff h i ch).1 (Finset.mem_filter.1 hi).2
    rw [← e]; exact (eq_ix3 i).symm
  · intro p _; rfl
  · intro i hi
    have e : i 2 = ch := (drop_axes01_eq_iff h i ch).1 (Finset.mem_filter.1 hi).2
    rw [← e]; exact congrArg f (eq_ix3 i)

/-- There are A · B entries that reduce to a channel. -/
theorem card_filter_drop_axes01 (h : (⟨3, ![A, B, C]⟩ : Shape).ReducesTo [0, 1] ⟨1, ![C]⟩) (ch : Fin C) :
    (Finset.univ.filter (fun i => h.drop i = ix1 ch)).card = A * B := by
  rw [Finset.card_eq_sum_ones, sum_filter_drop_axes01 h (fun _ => (1 : ℕ)) ch]
  simp

/-! ## Float sums over the two leading axes -/

/-- The exact sum over axes 0 and 1 of an A × B × C array, at channel `ch`: the initial value plus the double sum of
    the entries (a, b, ch). -/
theorem hostReduceAdd_axes01_rank3 (h : (⟨3, ![A, B, C]⟩ : Shape).ReducesTo [0, 1] ⟨1, ![C]⟩)
    (f : (⟨3, ![A, B, C]⟩ : Shape).Idx → EReal) (init : EReal) (ch : Fin C) :
    Ideal.hostReduceAdd h f init (ix1 ch) = init + ∑ a : Fin A, ∑ b : Fin B, f (ix3 a b ch) := by
  unfold Ideal.hostReduceAdd
  rw [sum_filter_drop_axes01]

/-- The same for the host's float sum as a program writes it, its initial value an array read at its first index. -/
theorem reduceAdd_axes01_rank3 {φ : FTy} {u : Shape} (x : FVec Ideal ⟨3, ![A, B, C]⟩ φ) (init : u.Idx → Ideal φ)
    (h : (⟨3, ![A, B, C]⟩ : Shape).ReducesTo [0, 1] ⟨1, ![C]⟩) (hu : 0 < u.numel) (ch : Fin C) :
    Host.reduceAdd (F := Ideal) x init h hu (ix1 ch)
      = init (Shape.Idx.first hu) + ∑ a : Fin A, ∑ b : Fin B, x (ix3 a b ch) :=
  hostReduceAdd_axes01_rank3 h x _ ch

/-- The exact sum over both axes of an A × B matrix: the initial value plus the double sum of all entries. -/
theorem hostReduceAdd_axes01_rank2 (h : (⟨2, ![A, B]⟩ : Shape).ReducesTo [0, 1] ⟨0, ![]⟩)
    (f : (⟨2, ![A, B]⟩ : Shape).Idx → EReal) (init : EReal) (j : (⟨0, ![]⟩ : Shape).Idx) :
    Ideal.hostReduceAdd h f init j = init + ∑ a : Fin A, ∑ b : Fin B, f (ix2 a b) := by
  rw [Ideal.hostReduceAdd_total h (fun b => b.elim0) f init j, sum_idx2]

/-- The same for the host's float sum as a program writes it. -/
theorem reduceAdd_axes01_rank2 {φ : FTy} {u : Shape} (x : FVec Ideal ⟨2, ![A, B]⟩ φ) (init : u.Idx → Ideal φ)
    (h : (⟨2, ![A, B]⟩ : Shape).ReducesTo [0, 1] ⟨0, ![]⟩) (hu : 0 < u.numel) (j : (⟨0, ![]⟩ : Shape).Idx) :
    Host.reduceAdd (F := Ideal) x init h hu j = init (Shape.Idx.first hu) + ∑ a : Fin A, ∑ b : Fin B, x (ix2 a b) :=
  hostReduceAdd_axes01_rank2 h x _ j

/-! ## Counting with 32-bit words -/

/-- Adding the word 1 once for each member of a finite set, from `v`: `v` plus the word of the set's size. -/
theorem fold_addi_ones {ι : Type*} [DecidableEq ι] (S : Finset ι) (x : ι → BitVec 32) (hx : ∀ i ∈ S, x i = 1#32)
    (v : BitVec 32) : S.fold IntOp.addi v x = v + BitVec.ofNat 32 S.card := by
  induction S using Finset.induction_on with
  | empty => simp
  | insert a S ha ih =>
    rw [Finset.fold_insert ha, ih (fun i hi => hx i (Finset.mem_insert_of_mem hi)), hx a (Finset.mem_insert_self a S),
      Finset.card_insert_of_notMem ha, IntOp.addi_eq_add]
    show 1#32 + (v + BitVec.ofNat 32 S.card) = v + BitVec.ofNat 32 (S.card + 1)
    rw [BitVec.ofNat_add, BitVec.add_comm 1#32, BitVec.add_assoc]

/-- The integer sum over axes 0 and 1 of an all-ones A × B × C array, at a channel: the initial word plus the word of
    A · B. -/
theorem reduce_addi_ones_axes01 {u : Shape} (x : IVec ⟨3, ![A, B, C]⟩ 32) (hx : ∀ i, x i = 1#32)
    (init : u.Idx → BitVec 32) (h : (⟨3, ![A, B, C]⟩ : Shape).ReducesTo [0, 1] ⟨1, ![C]⟩) (hu : 0 < u.numel)
    (ch : Fin C) :
    Host.reduce IntOp.addi x init h hu (ix1 ch) = init (Shape.Idx.first hu) + BitVec.ofNat 32 (A * B) := by
  classical
  rw [Host.reduce_eq_fold, fold_addi_ones _ x (fun i _ => hx i), card_filter_drop_axes01]

/-- A natural number below 2³¹, as a 32-bit word read signed, is itself. -/
theorem toInt_ofNat_of_lt {n : ℕ} (hn : n < 2 ^ 31) : (BitVec.ofNat 32 n).toInt = (n : ℤ) := by
  have ht : (BitVec.ofNat 32 n).toNat = n := by rw [BitVec.toNat_ofNat]; exact Nat.mod_eq_of_lt (by omega)
  rw [BitVec.toInt_eq_toNat_of_lt (by rw [ht]; omega), ht]

/-- So its conversion to a float, at the ideal values, is the real number `n`. -/
theorem sitofp_ofNat_of_lt {n : ℕ} (hn : n < 2 ^ 31) :
    FloatOps.sitofp (F := Ideal) .f32 (BitVec.ofNat 32 n) = ((n : ℝ) : EReal) := by
  show (((BitVec.ofNat 32 n).toInt : ℝ) : EReal) = _
  rw [toInt_ofNat_of_lt hn, Int.cast_natCast]

/-! ## Elementwise facts at the ideal values -/

variable {s : Shape} {φ : FTy}

/-- An extended real never differs from itself: "x ≠ x" is the bit 0 at every index. -/
theorem cmpf_une_self (x : FVec Ideal s φ) (i : s.Idx) : cmpf .une x x i = 0#1 := by
  show Ideal.cmp .une (x i) (x i) = 0#1
  simp [Ideal.cmp]

/-- … and its negation is the bit 1 at every index. -/
theorem noti_cmpf_une_self (x : FVec Ideal s φ) (i : s.Idx) : noti (cmpf .une x x) i = 1#1 := by
  show ~~~(cmpf .une x x i) = 1#1
  rw [cmpf_une_self]; rfl

/-- A selection under an all-ones mask is its first branch. -/
theorem select_of_ones {α : Type} (c : IVec s 1) (hc : ∀ i, c i = 1#1) (a b : s.Idx → α) (i : s.Idx) :
    select c a b i = a i := by
  rw [select_apply, hc, select_one]

/-- An all-ones mask widened to 32 bits is the word 1 at every index. -/
theorem extui_of_ones (c : IVec s 1) (hc : ∀ i, c i = 1#1) (h : 1 < 32) (i : s.Idx) : extui 32 c h i = 1#32 := by
  rw [extui_apply, hc]; rfl

/-- The float of the bit "v = w": 1 where the two agree, 0 elsewhere. -/
theorem uitofp_cmpf_oeq (v w : FVec Ideal s .f32) (i : s.Idx) :
    (uitofp .f32 (cmpf .oeq v w) : FVec Ideal s .f32) i = if v i = w i then 1 else 0 := by
  show (((Ideal.cmp .oeq (v i) (w i)).toNat : ℝ) : EReal) = _
  by_cases e : v i = w i
  · simp [Ideal.cmp, e]
  · simp [Ideal.cmp, e]

/-- A scalar broadcast to any shape reads the scalar at every index. -/
theorem broadcastInDim_scalar_apply {α : Type} {t : Shape} (dims : Fin 0 → Fin t.rank)
    (h : (⟨0, ![]⟩ : Shape).BroadcastsInDim t dims) (x : (⟨0, ![]⟩ : Shape).Idx → α) (j : t.Idx) :
    broadcastInDim t dims h x j = x ix0 := by
  unfold broadcastInDim
  exact congrArg x (funext fun a => a.elim0)

/-! ## Layout operations at an index -/

/-- An A × B × 1 array recast as an A × B matrix reads, at (a, b), the source at (a, b, 0): the two row-major
    positions are both a · B + b. -/
theorem reshape_ab1_ab_apply {α : Type} (x : (⟨3, ![A, B, 1]⟩ : Shape).Idx → α)
    (h : (⟨3, ![A, B, 1]⟩ : Shape).ShapeCasts ⟨2, ![A, B]⟩) (a : Fin A) (b : Fin B) :
    shapeCast ⟨2, ![A, B]⟩ x h (ix2 a b) = x (ix3 a b 0) := by
  refine shapeCast_apply x h (ix2 a b) (ix3 a b 0) ?_
  rw [Shape.rowMajor_val_three, Shape.rowMajor_val_two]
  show (a.val * B + b.val) * 1 + 0 = a.val * B + b.val
  omega

/-- One channel `k` cut out of the last axis of an A × B × n array reads, at (a, b, 0), the source at (a, b, k). -/
theorem slice_last_apply {α : Type} {n : ℕ} (o : ℕ) (x : (⟨3, ![A, B, n]⟩ : Shape).Idx → α)
    (h : (⟨3, ![A, B, n]⟩ : Shape).Slices ![0, 0, o] ⟨3, ![A, B, 1]⟩) (a : Fin A) (b : Fin B) (k : Fin n)
    (hk : k.val = o) : extractStridedSlice ⟨3, ![A, B, 1]⟩ ![0, 0, o] x h (ix3 a b 0) = x (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

end Cert.Lib.HostSums

end
-- ==== Proof.RefSums.lean ====
/-
  The reference program's six sums, at the ideal values, as the plain double sums over days and regions.

  An extended real never differs from itself, so the reference's mask "the target is a number" is one everywhere: the
  masked target is the target, the masked squared difference is the squared difference, and the count of unmasked
  entries per channel is the number of (day, region) pairs, 2000 · 4000 = 8,000,000, which a signed 32-bit word holds.
  The single-channel prediction, the record's first channel and its class mark, recast as matrices, read at (a, b)
  the arrays at (a, b, 0), (a, b, 0) and (a, b, 1). The float of the bit "mark = 1.0" (resp. 2.0) is the indicator of
  that class. Each reduction over both position axes starts from zero, so it is the double sum of its operand; where
  the reference multiplies the indicator by a square d · d the sums are written (indicator · d) · d, the same product
  re-associated.
-/
import proofs.«169479_j35270271434986_1_alg».proof.Proof.RefResult
import proofs.«169479_j35270271434986_1_alg».proof.Proof.Spec
import proofs.«169479_j35270271434986_1_alg».proof.Proof.LibHostSums

noncomputable section

namespace Cert.ReferenceIdeal.Hand

open Cert.ReferenceIdeal Cert.ReferenceIdeal.Gen Idealize.ShloMosaic Idealize.ShloMosaic.ValueIdx Cert.Spec
  Cert.Lib.HostSums

/-! ## The masked squared difference, its sum and the count -/

/-- Every target entry is a number: the mask is one everywhere. -/
private theorem refValid_apply (x1 : Vec Ideal S2000x4000x5 .f32) (i : S2000x4000x5.Idx) :
    refValid (F := Ideal) x1 i = 1#1 :=
  noti_cmpf_une_self x1 i

/-- So the masked squared difference is the squared difference of prediction and target. -/
private theorem refSqErr_apply (x0 x1 : Vec Ideal S2000x4000x5 .f32) (i : S2000x4000x5.Idx) :
    refSqErr (F := Ideal) x0 x1 i = sqd (x0 i) (x1 i) := by
  unfold refSqErr refTarget0
  rw [select_of_ones _ (refValid_apply x1), mulf_apply, subf_apply, select_of_ones _ (refValid_apply x1)]
  rfl

/-- Channel `ch`'s sum of the masked squared differences is the sum of squared differences over all days and regions. -/
theorem refSumSq_eq (x0 x1 : Vec Ideal S2000x4000x5 .f32) (ch : Fin 5) :
    refSumSq (F := Ideal) x0 x1 (ix1 ch) = sumSq x0 x1 ch := by
  unfold refSumSq sumSq
  rw [reduceAdd_axes01_rank3, constant_apply, Ideal.ofBits_zero_f32, zero_add]
  exact Finset.sum_congr rfl fun a _ => Finset.sum_congr rfl fun b _ => refSqErr_apply x0 x1 _

/-- Channel `ch`'s count of unmasked entries is 2000 · 4000: the 32-bit sum of that many ones does not wrap. -/
theorem refCount_eq (x1 : Vec Ideal S2000x4000x5 .f32) (ch : Fin 5) :
    refCount (F := Ideal) x1 (ix1 ch) = Cert.Spec.count := by
  unfold refCount Cert.Spec.count
  rw [sitofp_apply, reduce_addi_ones_axes01 _ (fun i => extui_of_ones _ (refValid_apply x1) _ i)]
  show FloatOps.sitofp (F := Ideal) .f32 (0#32 + BitVec.ofNat 32 (2000 * 4000)) = _
  rw [BitVec.zero_add, sitofp_ofNat_of_lt (by norm_num)]
  norm_num

/-! ## The three matrices of the class-conditional terms -/

/-- The single-channel prediction at (a, b). -/
private theorem refPred_apply (x2 : Vec Ideal S2000x4000x1 .f32) (a : Fin 2000) (b : Fin 4000) :
    refPred (F := Ideal) x2 (ix2 a b) = x2 (ix3 a b 0) := by
  unfold refPred
  exact reshape_ab1_ab_apply x2 _ a b

/-- The record's first channel at (a, b). -/
private theorem refGoal_apply (x3 : Vec Ideal S2000x4000x2 .f32) (a : Fin 2000) (b : Fin 4000) :
    refGoal (F := Ideal) x3 (ix2 a b) = x3 (ix3 a b 0) := by
  unfold refGoal
  rw [reshape_ab1_ab_apply]
  exact slice_last_apply 0 x3 _ a b 0 rfl

/-- The record's class mark at (a, b). -/
private theorem refClass_apply (x3 : Vec Ideal S2000x4000x2 .f32) (a : Fin 2000) (b : Fin 4000) :
    refClass (F := Ideal) x3 (ix2 a b) = x3 (ix3 a b 1) := by
  unfold refClass
  rw [reshape_ab1_ab_apply]
  exact slice_last_apply 1 x3 _ a b 1 rfl

/-- The float of "mark = 1.0" is the indicator of class 1. -/
private theorem refIs1_apply (x3 : Vec Ideal S2000x4000x2 .f32) (a : Fin 2000) (b : Fin 4000) :
    refIs1 (F := Ideal) x3 (ix2 a b) = ind 0x3F800000#32 (x3 (ix3 a b 1)) := by
  unfold refIs1 ind
  rw [uitofp_cmpf_oeq, refClass_apply, broadcastInDim_scalar_apply, constant_apply]

/-- The float of "mark = 2.0" is the indicator of class 2. -/
private theorem refIs2_apply (x3 : Vec Ideal S2000x4000x2 .f32) (a : Fin 2000) (b : Fin 4000) :
    refIs2 (F := Ideal) x3 (ix2 a b) = ind 0x40000000#32 (x3 (ix3 a b 1)) := by
  unfold refIs2 ind
  rw [uitofp_cmpf_oeq, refClass_apply, broadcastInDim_scalar_apply, constant_apply]

/-! ## The four class-conditional sums -/

/-- The number of entries of class 1. -/
theorem refN1_eq (x3 : Vec Ideal S2000x4000x2 .f32) (j : S_.Idx) : refN1 (F := Ideal) x3 j = n1 x3 := by
  unfold refN1 n1
  rw [reduceAdd_axes01_rank2, constant_apply, Ideal.ofBits_zero_f32, zero_add]
  exact Finset.sum_congr rfl fun a _ => Finset.sum_congr rfl fun b _ => refIs1_apply x3 a b

/-- Over class 1, the sum of squared differences of the second prediction and its target. -/
theorem refS1_eq (x2 : Vec Ideal S2000x4000x1 .f32) (x3 : Vec Ideal S2000x4000x2 .f32) (j : S_.Idx) :
    refS1 (F := Ideal) x2 x3 j = s1 x2 x3 := by
  unfold refS1 s1
  rw [reduceAdd_axes01_rank2, constant_apply, Ideal.ofBits_zero_f32, zero_add]
  refine Finset.sum_congr rfl fun a _ => Finset.sum_congr rfl fun b _ => ?_
  rw [mulf_apply, mulf_apply, subf_apply, refIs1_apply, refPred_apply, refGoal_apply, mul_assoc]

/-- The number of entries of class 2. -/
theorem refN2_eq (x3 : Vec Ideal S2000x4000x2 .f32) (j : S_.Idx) : refN2 (F := Ideal) x3 j = n2 x3 := by
  unfold refN2 n2
  rw [reduceAdd_axes01_rank2, constant_apply, Ideal.ofBits_zero_f32, zero_add]
  exact Finset.sum_congr rfl fun a _ => Finset.sum_congr rfl fun b _ => refIs2_apply x3 a b

/-- Over class 2, the sum of the squared second prediction. -/
theorem refS2_eq (x2 : Vec Ideal S2000x4000x1 .f32) (x3 : Vec Ideal S2000x4000x2 .f32) (j : S_.Idx) :
    refS2 (F := Ideal) x2 x3 j = s2 x2 x3 := by
  unfold refS2 s2
  rw [reduceAdd_axes01_rank2, constant_apply, Ideal.ofBits_zero_f32, zero_add]
  refine Finset.sum_congr rfl fun a _ => Finset.sum_congr rfl fun b _ => ?_
  rw [mulf_apply, mulf_apply, refIs2_apply, refPred_apply, mul_assoc]

end Cert.ReferenceIdeal.Hand

end
-- ==== Proof.Bridge.lean ====
/-
  The two programs compute one number.

  The kernel's program reads its three root-mean-square terms off the accumulator block; the reference computes the
  same sums and counts by whole-array reductions. Cell by cell the block holds exactly those sums (the per-channel sums
  of squared differences, the constant count 8,000,000, and the two masked sums with their counts), so the three terms
  agree; the fourth term is the same chain of host operations on the same two arguments in both programs, and the
  weighted total is the same expression.
-/
import proofs.«169479_j35270271434986_1_alg».proof.Proof.ValKI.Total
import proofs.«169479_j35270271434986_1_alg».proof.Proof.ValKI.KRun
import proofs.«169479_j35270271434986_1_alg».proof.Proof.TailCells
import proofs.«169479_j35270271434986_1_alg».proof.Proof.RefSums

set_option maxRecDepth 16384

noncomputable section

namespace Cert.Bridge

open Idealize.ShloMosaic Idealize.ShloMosaic.TcCoe Idealize.ShloMosaic.ValueIdx Idealize.SL.Sem
open Cert.KernelIdeal.Hand Cert.ReferenceIdeal.Hand Cert.Spec

variable (m : (ℓ : Loc Cert.KernelIdeal.nD Cert.KernelIdeal.τ Cert.KernelIdeal.sig) → Buf (Elt Ideal) ℓ) (c : Dev Cert.KernelIdeal.nD)

/-- The first term: rows 0 and 1 of the block are the reference's per-channel sums and counts. -/
theorem loss0_eq : tailLoss0 (F := Ideal) (accLast m c) = refLoss0 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) := by
  have h0 : tailRow0 (F := Ideal) (accLast m c) = refSumSq (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) :=
    funext fun i => by
      obtain ⟨ch, rfl⟩ : ∃ ch : Fin 5, i = ix1 ch := ⟨i 0, eq_ix1 i⟩
      rw [tailRow0_apply, refSumSq_eq]
      exact cell_sq m c ch
  have h1 : tailRow1 (F := Ideal) (accLast m c) = refCount (F := Ideal) (m ((c.tc : Thread Cert.KernelIdeal.nD Cert.KernelIdeal.τ).loc Cert.KernelIdeal.main_arg1)) :=
    funext fun i => by
      obtain ⟨ch, rfl⟩ : ∃ ch : Fin 5, i = ix1 ch := ⟨i 0, eq_ix1 i⟩
      rw [tailRow1_apply, refCount_eq]
      exact cell_cnt m c ch
  unfold tailLoss0 refLoss0
  rw [h0, h1]

/-- The second term: cells (2,0) and (2,1) are the reference's masked sum and count for mark 1. -/
theorem loss1_eq : tailLoss1 (F := Ideal) (accLast m c) = refLoss1 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  have hs : tailS1 (F := Ideal) (accLast m c) = refS1 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) :=
    funext fun j => by rw [tailS1_apply, refS1_eq]; exact cell_s1 m c
  have hn : tailN1 (F := Ideal) (accLast m c) = refN1 (F := Ideal) (m ((c.tc : Thread Cert.KernelIdeal.nD Cert.KernelIdeal.τ).loc Cert.KernelIdeal.main_arg3)) :=
    funext fun j => by rw [tailN1_apply, refN1_eq]; exact cell_n1 m c
  unfold tailLoss1 tailRms refLoss1
  rw [hs, hn]

/-- The third term: cells (2,2) and (2,3), for mark 2. -/
theorem loss2_eq : tailLoss2 (F := Ideal) (accLast m c) = refLoss2 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  have hs : tailS2 (F := Ideal) (accLast m c) = refS2 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) :=
    funext fun j => by rw [tailS2_apply, refS2_eq]; exact cell_s2 m c
  have hn : tailN2 (F := Ideal) (accLast m c) = refN2 (F := Ideal) (m ((c.tc : Thread Cert.KernelIdeal.nD Cert.KernelIdeal.τ).loc Cert.KernelIdeal.main_arg3)) :=
    funext fun j => by rw [tailN2_apply, refN2_eq]; exact cell_n2 m c
  unfold tailLoss2 tailRms refLoss2 refHas2 refMean2
  rw [hs, hn]

attribute [local irreducible] Host.reduce Host.reduceWindow Host.reduceAdd Host.scatterAdd in
/-- The fourth term is one chain of host operations in both programs. -/
theorem loss3_eq (x0 : Vec Ideal Cert.KernelIdeal.S2000x4000x5 .f32) (x4 : Vec Ideal Cert.KernelIdeal.S2000x4000x1 .f32) :
    tailLoss3 (F := Ideal) x0 x4 = refLoss3 (F := Ideal) x0 x4 := rfl

/-- And so is the weighted total. -/
theorem total_eq (a b d e : Vec Ideal Cert.KernelIdeal.S_ .f32) : tailTotal (F := Ideal) a b d e = refTotal (F := Ideal) a b d e := rfl

/-- The kernel program's result is the reference's function of the same arguments. -/
theorem result_eq_ref :
    resultOf (F := Ideal) m c
      = refTotal (F := Ideal) (refLoss0 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
          (refLoss1 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
          (refLoss2 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
          (refLoss3 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg4))) := by
  unfold resultOf
  rw [loss0_eq m c, loss1_eq m c, loss2_eq m c, loss3_eq, total_eq]

end Cert.Bridge

end
-- ==== Proof.lean ====
/-
  The certificate's claims, assembled.

  Both kernel programs — the word-level one and its idealization, one text in two namespaces — run to the end without
  fault and leave their five arguments unchanged: the host lines before the launch write no argument, the launch's
  body meets its obligation at each of the fifty grid points (the accumulator block reset at the first, carried over at
  the others, written back once after the last), and the hundred and nine lines after it write only their own result
  buffers. The reference is a straight line of host operations; it runs to the end and writes no argument either.
  The idealization changed no operation, so there is nothing to preserve. At the ideal values both programs end with
  the same number: the accumulator's fourteen cells hold exactly the sums the reference computes by whole-array
  reductions, and from there on the two programs apply the same operations.
-/
import proofs.«169479_j35270271434986_1_alg».proof.Defs
import proofs.«169479_j35270271434986_1_alg».proof.Proof.Gen.Kernel
import proofs.«169479_j35270271434986_1_alg».proof.Proof.Gen.KernelIdeal
import proofs.«169479_j35270271434986_1_alg».proof.Proof.Gen.ReferenceIdeal
import proofs.«169479_j35270271434986_1_alg».proof.Proof.Gen.Pre_finite_inputs
import proofs.«169479_j35270271434986_1_alg».proof.Proof.FrameK.Frame
import proofs.«169479_j35270271434986_1_alg».proof.Proof.FrameKI.Frame
import proofs.«169479_j35270271434986_1_alg».proof.Proof.Bridge

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c =>
    ⟨(h c Cert.ReferenceIdeal.main_arg0).trans (Cert.ReferenceIdeal.Hand.arg0_eq _),
     (h c Cert.ReferenceIdeal.main_arg1).trans (Cert.ReferenceIdeal.Hand.arg1_eq _),
     (h c Cert.ReferenceIdeal.main_arg2).trans (Cert.ReferenceIdeal.Hand.arg2_eq _),
     (h c Cert.ReferenceIdeal.main_arg3).trans (Cert.ReferenceIdeal.Hand.arg3_eq _),
     (h c Cert.ReferenceIdeal.main_arg4).trans (Cert.ReferenceIdeal.Hand.arg4_eq _)⟩)
    (Cert.ReferenceIdeal.Hand.run_main (F := Ideal) m ρ)

theorem preserves : Cert.preserves_Kernel_KernelIdeal := trivial

theorem algebraic : Cert.algebraic_KernelIdeal_ReferenceIdeal := by
  intro m ρ m' ρ' _ hagree
  refine ⟨fun c => Cert.KernelIdeal.Hand.resultOf (F := Ideal) m c, Cert.KernelIdeal.Hand.run_value (F := Ideal) m ρ, ?_⟩
  refine (θ_run Cert.ReferenceIdeal.defs _ _).mono (fun _ h c => ⟨?_, ?_, ?_, ?_, ?_, ?_⟩)
    (Cert.ReferenceIdeal.Hand.run_main (F := Ideal) m' ρ')
  · refine (h c Cert.ReferenceIdeal.main_v96).trans ((Cert.ReferenceIdeal.Hand.result_eq _).trans ?_)
    show Cert.ReferenceIdeal.Hand.refTotal
        (Cert.ReferenceIdeal.Hand.refLoss0 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)))
        (Cert.ReferenceIdeal.Hand.refLoss1 (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)))
        (Cert.ReferenceIdeal.Hand.refLoss2 (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)))
        (Cert.ReferenceIdeal.Hand.refLoss3 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg4))) = Cert.KernelIdeal.Hand.resultOf (F := Ideal) m c
    rw [(hagree c).1, (hagree c).2.1, (hagree c).2.2.1, (hagree c).2.2.2.1, (hagree c).2.2.2.2]
    exact (Cert.Bridge.result_eq_ref m c).symm
  · exact (h c Cert.ReferenceIdeal.main_arg0).trans (Cert.ReferenceIdeal.Hand.arg0_eq _)
  · exact (h c Cert.ReferenceIdeal.main_arg1).trans (Cert.ReferenceIdeal.Hand.arg1_eq _)
  · exact (h c Cert.ReferenceIdeal.main_arg2).trans (Cert.ReferenceIdeal.Hand.arg2_eq _)
  · exact (h c Cert.ReferenceIdeal.main_arg3).trans (Cert.ReferenceIdeal.Hand.arg3_eq _)
  · exact (h c Cert.ReferenceIdeal.main_arg4).trans (Cert.ReferenceIdeal.Hand.arg4_eq _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
